-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S8192x10 : Shape := ⟨2, ![8192, 10]⟩
abbrev S3x1 : Shape := ⟨2, ![3, 1]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x10 : S_.BroadcastsInDim S8192x10 (![] : Fin 0 → Fin S8192x10.rank)
  reducesTo_S8192x10_S_d0_1 : S8192x10.ReducesTo [0, 1] S_
  bcast_S_S3x1 : S_.BroadcastsInDim S3x1 (![] : Fin 0 → Fin S3x1.rank)
  reducesTo_S3x1_S_d0_1 : S3x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S3x1 .f32) (main_arg8 : FVec F S256x128 .f32) (main_arg9 : FVec F S128 .f32) (main_arg10 : FVec F S128x128 .f32) (main_arg11 : FVec F S128 .f32) (main_v33 : IVec S_ 1) : IVec S_ 1 :=
  let main_v34 : FVec F S3x1 .f32 := Host.absf main_arg7
  let main_cst_12 : FVec F S_ .f32 := constant S_ .f32 0x7F800000#32
  let main_v35 : FVec F S3x1 .f32 := broadcastInDim S3x1 ![] bcast_S_S3x1 main_cst_12
  let main_v36 : IVec S3x1 1 := cmpf .olt main_v34 main_v35
  let main_c_13 : IVec S_ 1 := constantI S_ 1 1#1
  let main_v37 : IVec S_ 1 := (fun x v => Host.reduce IntOp.andi x v reducesTo_S3x1_S_d0_1 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_v48 main_v49 main_v50

def fn_part1 {F : FTy → Type} [FloatOps F] (main_arg4 : FVec F S8192x10 .f32) (main_arg5 : FVec F S8192x10 .f32) (main_arg6 : FVec F S8192x10 .f32) (main_arg7 : FVec F S3x1 .f32) (main_arg8 : FVec F S256x128 .f32) (main_arg9 : FVec F S128 .f32) (main_arg10 : FVec F S128x128 .f32) (main_arg11 : FVec F S128 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x10 .f32 := Host.absf main_arg4
  let main_cst_6 : FVec F S_ .f32 := constant S_ .f32 0x7F800000#32
  let main_v20 : FVec F S8192x10 .f32 := broadcastInDim S8192x10 ![] bcast_S_S8192x10 main_cst_6
  let main_v21 : IVec S8192x10 1 := cmpf .olt main_v19 main_v20
  let main_c_7 : IVec S_ 1 := constantI S_ 1 1#1
  let main_v22 : IVec S_ 1 := (fun x v => Host.reduce IntOp.andi x v reducesTo_S8192x10_S_d0_1 h_S_) main_v21 main_c_7
  let main_v23 : IVec S_ 1 := andi main_v18 main_v22
  let main_v24 : FVec F S8192x10 .f32 := Host.absf main_arg5
  let main_cst_8 : FVec F S_ .f32 := constant S_ .f32 0x7F800000#32
  let main_v25 : FVec F S8192x10 .f32 := broadcastInDim S8192x10 ![] bcast_S_S8192x10 main_cst_8
  let main_v26 : IVec S8192x10 1 := cmpf .olt main_v24 main_v25
  let main_c_9 : IVec S_ 1 := constantI S_ 1 1#1
  let main_v27 : IVec S_ 1 := (fun x v => Host.reduce IntOp.andi x v reducesTo_S8192x10_S_d0_1 h_S_) main_v26 main_c_9
  let main_v28 : IVec S_ 1 := andi main_v23 main_v27
  let main_v29 : FVec F S8192x10 .f32 := Host.absf main_arg6
  let main_cst_10 : FVec F S_ .f32 := constant S_ .f32 0x7F800000#32
  let main_v30 : FVec F S8192x10 .f32 := broadcastInDim S8192x10 ![] bcast_S_S8192x10 main_cst_10
  let main_v31 : IVec S8192x10 1 := cmpf .olt main_v29 main_v30
  let main_c_11 : IVec S_ 1 := constantI S_ 1 1#1
  let main_v32 : IVec S_ 1 := (fun x v => Host.reduce IntOp.andi x v reducesTo_S8192x10_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x256 .f32) (main_arg1 : FVec F S8192x8192 .f32) (main_arg2 : FVec F S8192x8192 .f32) (main_arg3 : FVec F S8192x8192 .f32) (main_arg4 : FVec F S8192x10 .f32) (main_arg5 : FVec F S8192x10 .f32) (main_arg6 : FVec F S8192x10 .f32) (main_arg7 : FVec F S3x1 .f32) (main_arg8 : FVec F S256x128 .f32) (main_arg9 : FVec F S128 .f32) (main_arg10 : FVec F S128x128 .f32) (main_arg11 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_v13 main_v16
-- ==== Kernel.lean ====
abbrev S8192x256 : Shape := ⟨2, ![8192, 256]⟩
abbrev S8192x8192 : Shape := ⟨2, ![8192, 8192]⟩
abbrev S8192x10 : Shape := ⟨2, ![8192, 10]⟩
abbrev S3x1 : Shape := ⟨2, ![3, 1]⟩
abbrev S256x128 : Shape := ⟨2, ![256, 128]⟩
abbrev S128 : Shape := ⟨1, ![128]⟩
abbrev S128x128 : Shape := ⟨2, ![128, 128]⟩
abbrev S512x512 : Shape := ⟨2, ![512, 512]⟩
abbrev S512x10 : Shape := ⟨2, ![512, 10]⟩
abbrev S1x1 : Shape := ⟨2, ![1, 1]⟩
abbrev S8192x128 : Shape := ⟨2, ![8192, 128]⟩
abbrev S512x256 : Shape := ⟨2, ![512, 256]⟩
abbrev S512x128 : Shape := ⟨2, ![512, 128]⟩
abbrev S1x128 : Shape := ⟨2, ![1, 128]⟩

abbrev nBuf : Space → Nat
  | .hbm => 18
  | .vmem => 47
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192x10, .f32⟩
  | .hbm, ⟨5, _⟩ => ⟨S8192x10, .f32⟩
  | .hbm, ⟨6, _⟩ => ⟨S8192x10, .f32⟩
  | .hbm, ⟨7, _⟩ => ⟨S3x1, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S8192x8192, .f32⟩
  | .hbm, ⟨13, _⟩ => ⟨S8192x10, .f32⟩
  | .hbm, ⟨14, _⟩ => ⟨S8192x10, .f32⟩
  | .hbm, ⟨15, _⟩ => ⟨S8192x10, .f32⟩
  | .hbm, ⟨16, _⟩ => ⟨S8192x128, .f32⟩
  | .hbm, ⟨17, _⟩ => ⟨S8192x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x10, .f32⟩
  | .local _ .vmem, ⟨13, _⟩ => ⟨S512x10, .f32⟩
  | .local _ .vmem, ⟨14, _⟩ => ⟨S512x10, .f32⟩
  | .local _ .vmem, ⟨15, _⟩ => ⟨S512x10, .f32⟩
  | .local _ .vmem, ⟨16, _⟩ => ⟨S512x10, .f32⟩
  | .local _ .vmem, ⟨17, _⟩ => ⟨S512x10, .f32⟩
  | .local _ .vmem, ⟨18, _⟩ => ⟨S3x1, .f32⟩
  | .local _ .vmem, ⟨19, _⟩ => ⟨S512x512, .f32⟩
  | .local _ .vmem, ⟨20, _⟩ => ⟨S512x512, .f32⟩
  | .local _ .vmem, ⟨21, _⟩ => ⟨S512x10, .f32⟩
  | .local _ .vmem, ⟨22, _⟩ => ⟨S512x10, .f32⟩
  | .local _ .vmem, ⟨23, _⟩ => ⟨S512x10, .f32⟩
  | .local _ .vmem, ⟨24, _⟩ => ⟨S512x10, .f32⟩
  | .local _ .vmem, ⟨25, _⟩ => ⟨S512x10, .f32⟩
  | .local _ .vmem, ⟨26, _⟩ => ⟨S512x10, .f32⟩
  | .local _ .vmem, ⟨27, _⟩ => ⟨S512x512, .f32⟩
  | .local _ .vmem, ⟨28, _⟩ => ⟨S512x512, .f32⟩
  | .local _ .vmem, ⟨29, _⟩ => ⟨S512x256, .f32⟩
  | .local _ .vmem, ⟨30, _⟩ => ⟨S512x256, .f32⟩
  | .local _ .vmem, ⟨31, _⟩ => ⟨S256x128, .f32⟩
  | .local _ .vmem, ⟨32, _⟩ => ⟨S128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x512, .f32⟩
  | .local _ .vmem, ⟨37, _⟩ => ⟨S512x512, .f32⟩
  | .local _ .vmem, ⟨38, _⟩ => ⟨S512x128, .f32⟩
  | .local _ .vmem, ⟨39, _⟩ => ⟨S512x128, .f32⟩
  | .local _ .vmem, ⟨40, _⟩ => ⟨S512x128, .f32⟩
  | .local _ .vmem, ⟨41, _⟩ => ⟨S512x128, .f32⟩
  | .local _ .vmem, ⟨42, _⟩ => ⟨S128x128, .f32⟩
  | .local _ .vmem, ⟨43, _⟩ => ⟨S128, .f32⟩
  | .local _ .vmem, ⟨44, _⟩ => ⟨S512x128, .f32⟩
  | .local _ .vmem, ⟨45, _⟩ => ⟨S512x128, .f32⟩
  | .local _ .vmem, ⟨46, _⟩ => ⟨S512x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v1 : Ref sig .tc := ⟨.hbm, 16, rfl⟩
abbrev main_v2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc1_stg3_0 : Ref sig .tc := ⟨.vmem, 32, rfl⟩
abbrev cc1_stg4_0 : Ref sig .tc := ⟨.vmem, 33, rfl⟩
abbrev cc1_stg4_1 : Ref sig .tc := ⟨.vmem, 34, rfl⟩
abbrev cc1_scratch0 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg5_0 : Ref sig .tc := ⟨.vmem, 44, rfl⟩
abbrev cc2_stg5_1 : Ref sig .tc := ⟨.vmem, 45, rfl⟩
abbrev cc2_scratch0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31
abbrev cc1_sem3_0 : DmaSem sig := 32
abbrev cc1_sem4_0 : DmaSem sig := 33
abbrev cc1_sem4_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc2_sem4_0 : DmaSem sig := 42
abbrev cc2_sem5_0 : DmaSem sig := 43
abbrev cc2_sem5_1 : DmaSem sig := 44

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S3x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x10 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x10 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![16, 16], ![false, false]⟩

def k2_cond2 (i : grid2.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_11 : BitVec 32 := 0#32
  let v21 : BitVec 1 := Scalar.cmpi .ne v20 c0_i32_11
  v21

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S512x10_S512x10_0_0 : ∀ a, (![0, 0] : Fin 2 → Nat) a + S512x10.size a ≤ S512x10.size a
  h_S512x10 : 0 < S512x10.numel
  inb_S3x1_S3x1_0_0 : ∀ a, (![0, 0] : Fin 2 → Nat) a + S3x1.size a ≤ S3x1.size a
  h_S3x1 : 0 < S3x1.numel
  slices_S3x1_o0_0_S1x1 : S3x1.Slices ![0, 0] S1x1
  inpos_S1x1_p0_0 : ∀ a, (![0, 0] : Fin 2 → Nat) a < S1x1.size a
  slices_S3x1_o1_0_S1x1 : S3x1.Slices ![1, 0] S1x1
  slices_S3x1_o2_0_S1x1 : S3x1.Slices ![2, 0] S1x1
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  bitsLt_bf16_f32 : FTy.bits .bf16 < FTy.bits .f32
  shapeCasts_S512x10_S512x10 : S512x10.ShapeCasts S512x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x256_S512x256_0_0 : ∀ a, (![0, 0] : Fin 2 → Nat) a + S512x256.size a ≤ S512x256.size a
  h_S512x256 : 0 < S512x256.numel
  inb_S256x128_S256x128_0_0 : ∀ a, (![0, 0] : Fin 2 → Nat) a + S256x128.size a ≤ S256x128.size a
  h_S256x128 : 0 < S256x128.numel
  shapeCasts_S512x512_S512x512 : S512x512.ShapeCasts S512x512
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  dot_S512x512_S512x10_S512x10_1_0_0_1_n_n_wf : DotDims.WF S512x512 S512x10 S512x10 [1] [0] [0] [1] [] []
  dot_S512x256_S256x128_S512x128_1_0_0_1_n_n_wf : DotDims.WF S512x256 S256x128 S512x128 [1] [0] [0] [1] [] []
  dot_S512x512_S512x128_S512x128_1_0_0_1_n_n_wf : DotDims.WF S512x512 S512x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x8192.size a
  hwx0_0 : ∀ i : grid0.Coords, EltTy.bits .f32 = 32 ∨ (Rect.block (s := S8192x8192) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x8192.size a
  hwx0_1 : ∀ i : grid0.Coords, EltTy.bits .f32 = 32 ∨ (Rect.block (s := S8192x8192) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x8192.size a
  hwx0_2 : ∀ i : grid0.Coords, EltTy.bits .f32 = 32 ∨ (Rect.block (s := S8192x8192) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x8192.size a
  hwx0_3 : ∀ i : grid0.Coords, EltTy.bits .f32 = 32 ∨ (Rect.block (s := S8192x8192) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x8192.size a
  hwx0_4 : ∀ i : grid0.Coords, EltTy.bits .f32 = 32 ∨ (Rect.block (s := S8192x8192) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x8192.size a
  hwx0_5 : ∀ i : grid0.Coords, EltTy.bits .f32 = 32 ∨ (Rect.block (s := S8192x8192) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x10.size a ≤ S8192x10.size a
  hwx0_6 : ∀ i : grid0.Coords, EltTy.bits .f32 = 32 ∨ (Rect.block (s := S8192x10) S512x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x10.size a ≤ S8192x10.size a
  hwx0_7 : ∀ i : grid0.Coords, EltTy.bits .f32 = 32 ∨ (Rect.block (s := S8192x10) S512x10.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x10.size a ≤ S8192x10.size a
  hwx0_8 : ∀ i : grid0.Coords, EltTy.bits .f32 = 32 ∨ (Rect.block (s := S8192x10) S512x10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x1.size a ≤ S3x1.size a
  hwx0_9 : ∀ i : grid0.Coords, EltTy.bits .f32 = 32 ∨ (Rect.block (s := S3x1) S3x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S8192x8192.size a
  hwx0_10 : ∀ i : grid0.Coords, EltTy.bits .f32 = 32 ∨ (Rect.block (s := S8192x8192) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x10.size a ≤ S8192x10.size a
  hwx0_11 : ∀ i : grid0.Coords, EltTy.bits .f32 = 32 ∨ (Rect.block (s := S8192x10) S512x10.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x10.size a ≤ S8192x10.size a
  hwx0_12 : ∀ i : grid0.Coords, EltTy.bits .f32 = 32 ∨ (Rect.block (s := S8192x10) S512x10.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x10.size a ≤ S8192x10.size a
  hwx0_13 : ∀ i : grid0.Coords, EltTy.bits .f32 = 32 ∨ (Rect.block (s := S8192x10) S512x10.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x8192.size a
  hwx1_0 : ∀ i : grid1.Coords, EltTy.bits .f32 = 32 ∨ (Rect.block (s := S8192x8192) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .f32 = 32 ∨ (Rect.block (s := S8192x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S8192x128.size a
  hwx1_4 : ∀ i : grid1.Coords, EltTy.bits .f32 = 32 ∨ (Rect.block (s := S8192x128) S512x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x8192.size a
  hwx2_0 : ∀ i : grid2.Coords, EltTy.bits .f32 = 32 ∨ (Rect.block (s := S8192x8192) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S8192x128.size a
  hwx2_1 : ∀ i : grid2.Coords, EltTy.bits .f32 = 32 ∨ (Rect.block (s := S8192x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S8192x128.size a
  hwx2_2 : ∀ i : grid2.Coords, EltTy.bits .f32 = 32 ∨ (Rect.block (s := S8192x128) S512x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S8192x128.size a
  hwx2_5 : ∀ i : grid2.Coords, EltTy.bits .f32 = 32 ∨ (Rect.block (s := S8192x128) S512x128.size (cc2_transform_5 i) (hinb2_5 i)).WholeWords (EltTy.packing .f32)

variable [Facts₀]

def dot_S512x512_S512x10_S512x10_1_0_0_1_n_n : DotDims S512x512 S512x10 S512x10 where
  lhsContracting := [1]
  rhsContracting := [0]
  lhsNonContracting := [0]
  rhsNonContracting := [1]
  lhsBatch := []
  rhsBatch := []
  wf := dot_S512x512_S512x10_S512x10_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512x10.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S512x10.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S512x10.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S3x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S512x10.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_2) S512x10.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_3) S512x10.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v0_0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v0_0) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S512x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v2) S512x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S8192x10 : Shape := ⟨2, ![8192, 10]⟩
abbrev S3x1 : Shape := ⟨2, ![3, 1]⟩
abbrev S256x128 : Shape := ⟨2, ![256, 128]⟩
abbrev S128 : Shape := ⟨1, ![128]⟩
abbrev S128x128 : Shape := ⟨2, ![128, 128]⟩
abbrev S3 : Shape := ⟨1, ![3]⟩
abbrev S1 : Shape := ⟨1, ![1]⟩
abbrev S_ : Shape := ⟨0, ![]⟩
abbrev S8192x128 : Shape := ⟨2, ![8192, 128]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S8192x10, .f32⟩
  | .hbm, ⟨5, _⟩ => ⟨S8192x10, .f32⟩
  | .hbm, ⟨6, _⟩ => ⟨S8192x10, .f32⟩
  | .hbm, ⟨7, _⟩ => ⟨S3x1, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S8192x10, .f32⟩
  | .hbm, ⟨13, _⟩ => ⟨S8192x10, .f32⟩
  | .hbm, ⟨14, _⟩ => ⟨S8192x10, .f32⟩
  | .hbm, ⟨15, _⟩ => ⟨S3, .f32⟩
  | .hbm, ⟨16, _⟩ => ⟨S1, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S1, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S1, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x128, .f32⟩
  | .hbm, ⟨33, _⟩ => ⟨S8192x128, .f32⟩
  | .hbm, ⟨34, _⟩ => ⟨S1x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S1x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S8192x128, .f32⟩
  | .hbm, ⟨45, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  shapeCasts_S3x1_S3 : S3x1.ShapeCasts S3
  slices_S3_S1_0 : S3.Slices ![0] S1
  shapeCasts_S1_S_ : S1.ShapeCasts S_
  bcast_S_S8192x8192 : S_.BroadcastsInDim S8192x8192 (![] : Fin 0 → Fin S8192x8192.rank)
  slices_S3_S1_1 : S3.Slices ![1] S1
  slices_S3_S1_2 : S3.Slices ![2] S1
  transposes_S8192x8192_S8192x8192_1_0 : S8192x8192.Transposes [1, 0] S8192x8192
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x8192_S8192x10_S8192x10_1_0_0_1_n_n_wf : DotDims.WF S8192x8192 S8192x10 S8192x10 [1] [0] [0] [1] [] []
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x10_S8192x10_1_0_0_1_n_n : DotDims S8192x8192 S8192x10 S8192x10 where
  lhsContracting := [1]
  rhsContracting := [0]
  lhsNonContracting := [0]
  rhsNonContracting := [1]
  lhsBatch := []
  rhsBatch := []
  wf := dot_S8192x8192_S8192x10_S8192x10_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.KDat0.lean ====
/-
  Region 0 of @main (the merged adjacency and the three token features) as a pipeline: its proof data at a
  region-entry valuation V.

  At grid point (i, j) the body stores into the adjacency block (i, j) the weighted sum of the three relation
  blocks (i, j) plus the transpose of the weighted sum of their blocks (j, i), and adds A_r[i,j] · token_r[j] to
  the three 512×10 output blocks i, after clearing them when j = 0; those blocks stay in their staging buffers
  over a grid row and are written back at j = 15. Each relation matrix is read through two windows (its block
  (i, j) and its block (j, i)); each holds half of the array's share.
-/
import proofs.«160379_j10187662426197_1_alg».proof.Proof.Gen.Kernel.Launch
import proofs.«160379_j10187662426197_1_alg».proof.Proof.Gen.Kernel.Skeleton
import proofs.«160379_j10187662426197_1_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Output window 11 (the first token feature's block) after point n: the accumulate payload of the relation block
    and the token block at n over the zero payload at the start of a grid row, over what point n - 1 left otherwise. -/
def f0_11 (c : Dev nD) : (n : ℕ) → n < cfg0.N → Vec F S512x10 .f32
  | 0, h => k0_pay1 (iblk0 V c 0 ⟨0, h⟩) (iblk0 V c 6 ⟨0, h⟩) k0_pay4
  | n + 1, h => k0_pay1 (iblk0 V c 0 ⟨n + 1, h⟩) (iblk0 V c 6 ⟨n + 1, h⟩)
      (if (n + 1) % 16 = 0 then k0_pay4 else f0_11 c n (Nat.lt_of_succ_lt h))
/-- Output window 12 after point n, likewise. -/
def f0_12 (c : Dev nD) : (n : ℕ) → n < cfg0.N → Vec F S512x10 .f32
  | 0, h => k0_pay2 (iblk0 V c 1 ⟨0, h⟩) (iblk0 V c 7 ⟨0, h⟩) k0_pay5
  | n + 1, h => k0_pay2 (iblk0 V c 1 ⟨n + 1, h⟩) (iblk0 V c 7 ⟨n + 1, h⟩)
      (if (n + 1) % 16 = 0 then k0_pay5 else f0_12 c n (Nat.lt_of_succ_lt h))
/-- Output window 13 after point n, likewise. -/
def f0_13 (c : Dev nD) : (n : ℕ) → n < cfg0.N → Vec F S512x10 .f32
  | 0, h => k0_pay3 (iblk0 V c 2 ⟨0, h⟩) (iblk0 V c 8 ⟨0, h⟩) k0_pay6
  | n + 1, h => k0_pay3 (iblk0 V c 2 ⟨n + 1, h⟩) (iblk0 V c 8 ⟨n + 1, h⟩)
      (if (n + 1) % 16 = 0 then k0_pay6 else f0_13 c n (Nat.lt_of_succ_lt h))

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => k0_pay7 (iblk0 V c 9 t) (iblk0 V c 0 t) (iblk0 V c 1 t) (iblk0 V c 2 t) (iblk0 V c 3 t) (iblk0 V c 4 t) (iblk0 V c 5 t)
    | ⟨11, _⟩ => f0_11 V c t.val t.isLt
    | ⟨12, _⟩ => f0_12 V c t.val t.isLt
    | ⟨13, _⟩ => f0_13 V c t.val t.isLt
  Φ _ := Pipeline.ΦA spec0 c
  q w := match w with
    | ⟨0, _⟩ => fullShare.left
    | ⟨1, _⟩ => fullShare.left
    | ⟨2, _⟩ => fullShare.left
    | ⟨3, _⟩ => fullShare.right
    | ⟨4, _⟩ => fullShare.right
    | ⟨5, _⟩ => fullShare.right
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t
    = k0_pay7 (iblk0 V c 9 t) (iblk0 V c 0 t) (iblk0 V c 1 t) (iblk0 V c 2 t) (iblk0 V c 3 t) (iblk0 V c 4 t) (iblk0 V c 5 t) := by dsimp only [dat0]
theorem after0_11 (c : Dev nD) (t : Fin cfg0.N) : (dat0 V c).after 11 t = f0_11 V c t.val t.isLt := by dsimp only [dat0]
theorem after0_12 (c : Dev nD) (t : Fin cfg0.N) : (dat0 V c).after 12 t = f0_12 V c t.val t.isLt := by dsimp only [dat0]
theorem after0_13 (c : Dev nD) (t : Fin cfg0.N) : (dat0 V c).after 13 t = f0_13 V c t.val t.isLt := by dsimp only [dat0]
theorem Phi0_eq (c : Dev nD) (t : Fin (cfg0.N + 1)) : (dat0 V c).Φ t = Pipeline.ΦA spec0 c := rfl

end Cert.Kernel.Hand

end
-- ==== Proof.KDat1.lean ====
/-
  Region 1 of @main (the first graph-convolution layer) as a pipeline: its proof data at a region-entry valuation V.

  At grid point (i, k) the body adds adj[i,k] · (feature[k] · W1) to a 512×128 accumulator kept in a scratch
  buffer, after clearing it when k = 0, and when k = 15 stores accumulator + bias into the output block i.
  So the scratch after point n is one application of the body's accumulate payload to the blocks at n over
  what the point before left (or over the zero payload where n starts a row of the grid), and the output
  block written back at k = 15 is the bias payload of that accumulator.
-/
import proofs.«160379_j10187662426197_1_alg».proof.Proof.Gen.Kernel.Launch
import proofs.«160379_j10187662426197_1_alg».proof.Proof.Gen.Kernel.Skeleton
import proofs.«160379_j10187662426197_1_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch after point n: the accumulate payload of the feature, weight and adjacency blocks at n
    over the zero payload at the start of a grid row (n ≡ 0 mod 16), over what point n - 1 left otherwise. -/
def acc1 (c : Dev nD) : (n : ℕ) → n < cfg1.N → Vec F S512x128 .f32
  | 0, h => k1_pay2 (iblk1 V c 1 ⟨0, h⟩) (iblk1 V c 2 ⟨0, h⟩) (iblk1 V c 0 ⟨0, h⟩) k1_pay1
  | n + 1, h => k1_pay2 (iblk1 V c 1 ⟨n + 1, h⟩) (iblk1 V c 2 ⟨n + 1, h⟩) (iblk1 V c 0 ⟨n + 1, h⟩)
      (if (n + 1) % 16 = 0 then k1_pay1 else acc1 c n (Nat.lt_of_succ_lt h))

/-- The body's invariant before point n: at the first point the scoped rest at anything; afterwards the scratch at
    the accumulator point n - 1 left, the other scoped buffers at anything; the generator register throughout. -/
def Phi1 (c : Dev nD) : (n : ℕ) → n ≤ cfg1.N → sProp 𝕄
  | 0, _ => Pipeline.ΦA spec1 c
  | n + 1, hn => iprop(owns (c : Thread nD τ) (Memref.whole cc1_scratch0) fullShare (acc1 V c n hn)
      ∗ Pipeline.scopedRestBut (Ix := Unit) (Name := ℕ) (U := UR sig nD τ) (Lvl := ℕ) (Val := Elt F) spec1 c [cc1_scratch0]
      ∗ ∃ r, prngReg c r)

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 3 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (acc1 V c t.val t.isLt) (iblk1 V c 3 t) := by dsimp only [dat1]
theorem Phi1_eq (c : Dev nD) (t : Fin (cfg1.N + 1)) : (dat1 V c).Φ t = Phi1 V c t.val (Nat.le_of_lt_succ t.isLt) := rfl

end Cert.Kernel.Hand

end
-- ==== Proof.KDat2.lean ====
/-
  Region 2 of @main (the second graph-convolution layer and the readout) as a pipeline: its proof data at a
  region-entry valuation V.

  At grid point (i, k) the body adds adj[i,k] · (U1[k] · W2) to a 512×128 accumulator kept in a scratch buffer,
  after clearing it when k = 0, and when k = 15 stores (U1[i] + (accumulator + bias)) · ½ into the output block i.
  The first layer's result U1 is read through two windows (its block k and its block i); each holds half of the
  array's share.
-/
import proofs.«160379_j10187662426197_1_alg».proof.Proof.Gen.Kernel.Launch
import proofs.«160379_j10187662426197_1_alg».proof.Proof.Gen.Kernel.Skeleton
import proofs.«160379_j10187662426197_1_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator scratch after point n: the accumulate payload of the U1 (block k), weight and adjacency blocks
    at n over the zero payload at the start of a grid row (n ≡ 0 mod 16), over what point n - 1 left otherwise. -/
def acc2 (c : Dev nD) : (n : ℕ) → n < cfg2.N → Vec F S512x128 .f32
  | 0, h => k2_pay2 (iblk2 V c 1 ⟨0, h⟩) (iblk2 V c 3 ⟨0, h⟩) (iblk2 V c 0 ⟨0, h⟩) k2_pay1
  | n + 1, h => k2_pay2 (iblk2 V c 1 ⟨n + 1, h⟩) (iblk2 V c 3 ⟨n + 1, h⟩) (iblk2 V c 0 ⟨n + 1, h⟩)
      (if (n + 1) % 16 = 0 then k2_pay1 else acc2 c n (Nat.lt_of_succ_lt h))

/-- The body's invariant before point n: at the first point the scoped rest at anything; afterwards the scratch at
    the accumulator point n - 1 left, the other scoped buffers at anything; the generator register throughout. -/
def Phi2 (c : Dev nD) : (n : ℕ) → n ≤ cfg2.N → sProp 𝕄
  | 0, _ => Pipeline.ΦA spec2 c
  | n + 1, hn => iprop(owns (c : Thread nD τ) (Memref.whole cc2_scratch0) fullShare (acc2 V c n hn)
      ∗ Pipeline.scopedRestBut (Ix := Unit) (Name := ℕ) (U := UR sig nD τ) (Lvl := ℕ) (Val := Elt F) spec2 c [cc2_scratch0]
      ∗ ∃ r, prngReg c r)

/-- The proof data of pipeline 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (acc2 V c t.val t.isLt) (iblk2 V c 4 t) (iblk2 V c 2 t)
  Φ t := Phi2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = k2_pay3 (acc2 V c t.val t.isLt) (iblk2 V c 4 t) (iblk2 V c 2 t) := by dsimp only [dat2]
theorem Phi2_eq (c : Dev nD) (t : Fin (cfg2.N + 1)) : (dat2 V c).Φ t = Phi2 V c t.val (Nat.le_of_lt_succ t.isLt) := rfl

end Cert.Kernel.Hand

end
-- ==== Proof.KPdats.lean ====
/-
  The run of @main as three kernel regions in a row: the unscoped buffers' contents at each boundary, every
  pipeline's proof data at its region's entry contents, and the thread state that rides between the regions.

  No host operation stands between the regions, so a boundary's contents are the previous boundary's with the
  previous region's output arrays replaced by what its write-backs leave.
-/
import proofs.«160379_j10187662426197_1_alg».proof.Proof.KDat0
import proofs.«160379_j10187662426197_1_alg».proof.Proof.KDat1
import proofs.«160379_j10187662426197_1_alg».proof.Proof.KDat2
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core c's unscoped buffers at launch. -/
abbrev W0 : Dev nD → Valuation τ sig (Elt F) := fun c b => m (c, b)
/-- The same read at the TensorCore's references (what region 0's proof data take). -/
abbrev V0 : (c : Dev nD) → (b : Ref sig .tc) → Buf (Elt F) ((c : Thread nD τ).loc b) := fun c b => W0 m c b

/-- After region 0: its four output arrays at what its write-backs leave, every other buffer as launched. -/
def W1 (c : Dev nD) : Valuation τ sig (Elt F) :=
  Function.update (Function.update (Function.update (Function.update (W0 m c)
    main_v0_0 ((dat0 (V0 m) c).arrAt 10 cfg0.N)) main_v0_1 ((dat0 (V0 m) c).arrAt 11 cfg0.N))
    main_v0_2 ((dat0 (V0 m) c).arrAt 12 cfg0.N)) main_v0_3 ((dat0 (V0 m) c).arrAt 13 cfg0.N)
abbrev V1 : (c : Dev nD) → (b : Ref sig .tc) → Buf (Elt F) ((c : Thread nD τ).loc b) := fun c b => W1 m c b

/-- After region 1: its output array at what its write-backs leave. -/
def W2 (c : Dev nD) : Valuation τ sig (Elt F) :=
  Function.update (W1 m c) main_v1 ((dat1 (V1 m) c).arrAt 4 cfg1.N)
abbrev V2 : (c : Dev nD) → (b : Ref sig .tc) → Buf (Elt F) ((c : Thread nD τ).loc b) := fun c b => W2 m c b

/-- After region 2: its output array at what its write-backs leave. -/
def W3 (c : Dev nD) : Valuation τ sig (Elt F) :=
  Function.update (W2 m c) main_v2 ((dat2 (V2 m) c).arrAt 5 cfg2.N)
abbrev V3 : (c : Dev nD) → (b : Ref sig .tc) → Buf (Elt F) ((c : Thread nD τ).loc b) := fun c b => W3 m c b

/-- No pallas_call has a prefetched table. -/
abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the generator register at some state and the core's owes, at nothing. -/
abbrev R (c : Dev nD) : sProp 𝕄 := iprop((∃ r, prngReg c r) ∗ ∃ W, owes (c : Thread nD τ) (0 : CellTallies nD τ sig Unit) W)
/-- The thread state at a boundary whose contents are W: every unscoped buffer held at W, beside R. -/
abbrev T (W : Dev nD → Valuation τ sig (Elt F)) (c : Dev nD) : sProp 𝕄 :=
  iprop(StableHlo.held (c : Thread nD τ) (Pipeline.ucRefs τ sig) (W c) ∗ R c)

end Cert.Kernel.Hand

end
-- ==== Proof.KBody0.lean ====
/-
  Region 0: the kernel body meets its obligation at every grid point.
-/
import proofs.«160379_j10187662426197_1_alg».proof.Proof.KDat0
import Idealize.ShloMosaic.Lib.Tactic
import Idealize.ShloMosaic.Lib.Ring
import Idealize.ShloMosaic.Lib.Pipeline.Value

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Tactic

variable (V : (c : Dev nD) → (b : Ref sig .tc) → Buf (Elt F) ((c : Thread nD τ).loc b))

/-! ## Arithmetic and whole-buffer accesses -/

/-- The offsets of a whole-buffer access are zero. -/
theorem hz : (![0, 0] : Fin 2 → Nat) = fun _ => 0 := funext fun a => by fin_cases a <;> rfl

/-- After a last store through the whole buffer, the buffer reads as that store's payload, whatever came before. -/
theorem read_writes_unit_zero {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-! ## The branch of the body -/

/-- The body's branch condition: the second grid coordinate is zero. -/
abbrev cond0 (i : grid0.Coords) : Prop :=
  (Scalar.cmpi .ne (Scalar.extui (Scalar.cmpi .eq (BitVec.ofNat 32 (i 1).val) 0#32)) 0#32) = 1#1

/-- It holds exactly at the first point of each grid row. -/
theorem hcond0 : ∀ t : Fin cfg0.N, cond0 (grid0.coords t) ↔ t.val % 16 = 0 :=
  (by decide +kernel : ∀ t : Fin grid0.N, cond0 (grid0.coords t) ↔ t.val % 16 = 0)

/-! ## What the staging buffers hold when the body runs -/

/-- Each input's staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)

/-- The adjacency output is written back at every point, so its staging buffer holds anything when the body runs. -/
theorem before0_10 (c : Dev nD) (t : Fin cfg0.N) (d) : (dat0 V c).before 10 t d = d :=
  (dat0 V c).before_out_reset 10 rfl t (by
    by_cases h : t.val = 0
    · exact .inl h
    · exact .inr ⟨h, flush0_10 _⟩) d

/-- At the first point of a grid row output window 11's buffer holds anything: the first point of all, or the point
    before wrote the block back. -/
theorem before0_11_A (c : Dev nD) (t : Fin cfg0.N) (h0 : t.val % 16 = 0) (d) : (dat0 V c).before 11 t d = d :=
  (dat0 V c).before_out_reset 11 rfl t (by
    by_cases h : t.val = 0
    · exact .inl h
    · exact .inr ⟨h, (flush0_11 _).mpr (by dsimp only; omega)⟩) d

/-- Elsewhere in a grid row it holds what the body left at the point before: the block is not written back between. -/
theorem before0_11_B (c : Dev nD) (t : Fin cfg0.N) (h0 : ¬t.val % 16 = 0) (d) :
    (dat0 V c).before 11 t d = f0_11 V c (t.val - 1) (Nat.lt_of_le_of_lt (Nat.sub_le _ _) t.isLt) := by
  rw [Dat.before_out_kept _ 11 rfl t (by omega) (Bool.eq_false_iff.mpr fun h => by have := (flush0_11 _).mp h; dsimp only at this; omega)
    (fun _ => rfl) (fun _ _ => rfl)]
  exact after0_11 V c _

/-- The accumulation's closed form at the first point of a grid row: over the zero block. -/
theorem f0_11_A (c : Dev nD) (t : Fin cfg0.N) (h0 : t.val % 16 = 0) :
    f0_11 V c t.val t.isLt = k0_pay1 (iblk0 V c 0 t) (iblk0 V c 6 t) k0_pay4 := by
  obtain ⟨n, hn⟩ := t
  cases n with
  | zero => rfl
  | succ n =>
    show k0_pay1 _ _ (if (n + 1) % 16 = 0 then k0_pay4 else _) = _
    rw [if_pos h0]

/-- and elsewhere: over what the point before left. -/
theorem f0_11_B (c : Dev nD) (t : Fin cfg0.N) (h0 : ¬t.val % 16 = 0) :
    f0_11 V c t.val t.isLt = k0_pay1 (iblk0 V c 0 t) (iblk0 V c 6 t) (f0_11 V c (t.val - 1) (Nat.lt_of_le_of_lt (Nat.sub_le _ _) t.isLt)) := by
  obtain ⟨n, hn⟩ := t
  cases n with
  | zero => exact absurd (Nat.zero_mod _) h0
  | succ n =>
    show k0_pay1 _ _ (if (n + 1) % 16 = 0 then k0_pay4 else _) = _
    rw [if_neg h0]; rfl

/-- At the first point of a grid row output window 12's buffer holds anything: the first point of all, or the point
    before wrote the block back. -/
theorem before0_12_A (c : Dev nD) (t : Fin cfg0.N) (h0 : t.val % 16 = 0) (d) : (dat0 V c).before 12 t d = d :=
  (dat0 V c).before_out_reset 12 rfl t (by
    by_cases h : t.val = 0
    · exact .inl h
    · exact .inr ⟨h, (flush0_12 _).mpr (by dsimp only; omega)⟩) d

/-- Elsewhere in a grid row it holds what the body left at the point before: the block is not written back between. -/
theorem before0_12_B (c : Dev nD) (t : Fin cfg0.N) (h0 : ¬t.val % 16 = 0) (d) :
    (dat0 V c).before 12 t d = f0_12 V c (t.val - 1) (Nat.lt_of_le_of_lt (Nat.sub_le _ _) t.isLt) := by
  rw [Dat.before_out_kept _ 12 rfl t (by omega) (Bool.eq_false_iff.mpr fun h => by have := (flush0_12 _).mp h; dsimp only at this; omega)
    (fun _ => rfl) (fun _ _ => rfl)]
  exact after0_12 V c _

/-- The accumulation's closed form at the first point of a grid row: over the zero block. -/
theorem f0_12_A (c : Dev nD) (t : Fin cfg0.N) (h0 : t.val % 16 = 0) :
    f0_12 V c t.val t.isLt = k0_pay2 (iblk0 V c 1 t) (iblk0 V c 7 t) k0_pay5 := by
  obtain ⟨n, hn⟩ := t
  cases n with
  | zero => rfl
  | succ n =>
    show k0_pay2 _ _ (if (n + 1) % 16 = 0 then k0_pay5 else _) = _
    rw [if_pos h0]

/-- and elsewhere: over what the point before left. -/
theorem f0_12_B (c : Dev nD) (t : Fin cfg0.N) (h0 : ¬t.val % 16 = 0) :
    f0_12 V c t.val t.isLt = k0_pay2 (iblk0 V c 1 t) (iblk0 V c 7 t) (f0_12 V c (t.val - 1) (Nat.lt_of_le_of_lt (Nat.sub_le _ _) t.isLt)) := by
  obtain ⟨n, hn⟩ := t
  cases n with
  | zero => exact absurd (Nat.zero_mod _) h0
  | succ n =>
    show k0_pay2 _ _ (if (n + 1) % 16 = 0 then k0_pay5 else _) = _
    rw [if_neg h0]; rfl

/-- At the first point of a grid row output window 13's buffer holds anything: the first point of all, or the point
    before wrote the block back. -/
theorem before0_13_A (c : Dev nD) (t : Fin cfg0.N) (h0 : t.val % 16 = 0) (d) : (dat0 V c).before 13 t d = d :=
  (dat0 V c).before_out_reset 13 rfl t (by
    by_cases h : t.val = 0
    · exact .inl h
    · exact .inr ⟨h, (flush0_13 _).mpr (by dsimp only; omega)⟩) d

/-- Elsewhere in a grid row it holds what the body left at the point before: the block is not written back between. -/
theorem before0_13_B (c : Dev nD) (t : Fin cfg0.N) (h0 : ¬t.val % 16 = 0) (d) :
    (dat0 V c).before 13 t d = f0_13 V c (t.val - 1) (Nat.lt_of_le_of_lt (Nat.sub_le _ _) t.isLt) := by
  rw [Dat.before_out_kept _ 13 rfl t (by omega) (Bool.eq_false_iff.mpr fun h => by have := (flush0_13 _).mp h; dsimp only at this; omega)
    (fun _ => rfl) (fun _ _ => rfl)]
  exact after0_13 V c _

/-- The accumulation's closed form at the first point of a grid row: over the zero block. -/
theorem f0_13_A (c : Dev nD) (t : Fin cfg0.N) (h0 : t.val % 16 = 0) :
    f0_13 V c t.val t.isLt = k0_pay3 (iblk0 V c 2 t) (iblk0 V c 8 t) k0_pay6 := by
  obtain ⟨n, hn⟩ := t
  cases n with
  | zero => rfl
  | succ n =>
    show k0_pay3 _ _ (if (n + 1) % 16 = 0 then k0_pay6 else _) = _
    rw [if_pos h0]

/-- and elsewhere: over what the point before left. -/
theorem f0_13_B (c : Dev nD) (t : Fin cfg0.N) (h0 : ¬t.val % 16 = 0) :
    f0_13 V c t.val t.isLt = k0_pay3 (iblk0 V c 2 t) (iblk0 V c 8 t) (f0_13 V c (t.val - 1) (Nat.lt_of_le_of_lt (Nat.sub_le _ _) t.isLt)) := by
  obtain ⟨n, hn⟩ := t
  cases n with
  | zero => exact absurd (Nat.zero_mod _) h0
  | succ n =>
    show k0_pay3 _ _ (if (n + 1) % 16 = 0 then k0_pay6 else _) = _
    rw [if_neg h0]; rfl

/-! ## The body's triple, one per arm of the branch -/

set_option maxHeartbeats 4000000 in
/-- The kernel body on whole staging memrefs at the first point of a grid row: the inputs' at read contents, the adjacency
    output's at anything, the three feature outputs' at anything (the body clears them first); it runs to the inputs' as they were,
    the adjacency output at the merged block and each feature output at the accumulate payload over the zero block. -/
theorem sound_kernel0_A (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x10 .f32) (harg8 : arg8.IsWhole) (arg9 : Memref sig .tc .vmem S512x10 .f32) (harg9 : arg9.IsWhole) (arg10 : Memref sig .tc .vmem S512x10 .f32) (harg10 : arg10.IsWhole) (arg11 : Memref sig .tc .vmem S3x1 .f32) (harg11 : arg11.IsWhole) (arg12 : Memref sig .tc .vmem S512x512 .f32) (harg12 : arg12.IsWhole) (arg13 : Memref sig .tc .vmem S512x10 .f32) (harg13 : arg13.IsWhole) (arg14 : Memref sig .tc .vmem S512x10 .f32) (harg14 : arg14.IsWhole) (arg15 : Memref sig .tc .vmem S512x10 .f32) (harg15 : arg15.IsWhole)
    (hc : cond0 i) (x0 x1 x2 x3 x4 x5 : Vec F S512x512 .f32) (x6 x7 x8 : Vec F S512x10 .f32) (x9 : Vec F S3x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare (k0_pay7 x9 x0 x1 x2 x3 x4 x5)
            ∗ owns (c : Thread nD τ) arg13 fullShare (k0_pay1 x0 x6 k0_pay4)
            ∗ owns (c : Thread nD τ) arg14 fullShare (k0_pay2 x1 x7 k0_pay5)
            ∗ owns (c : Thread nD τ) arg15 fullShare (k0_pay3 x2 x8 k0_pay6)) -∗ K ⟨⟩))
      ⊢ wp frame (wpE (defs₀ (F := F)) Variants.none c none) E (cc0__adj_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__adj_kernel_eq_skeleton]; unfold cc0__adj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (read_writes_unit_zero _ _ hz _ _ _).trans ?_
    sl_unfold_run_names
    simp only [View.readAt_eq_ld, View.ld_unit_zero (S := S512x512) hz, View.ld_unit_zero (S := S512x10) hz, View.ld_unit_zero (S := S3x1) hz]
  isplitl [H11]
  · iexists _; isplitr
    swap; · iexact H11
    ipureintro
    refine (read_writes_unit_zero _ _ hz _ _ _).trans ?_
    sl_unfold_run_names
    simp only [View.readAt_eq_ld, View.ld_unit_zero (S := S512x512) hz, View.ld_unit_zero (S := S512x10) hz, View.ld_unit_zero (S := S3x1) hz, View.readCov_unit_zero (S := S512x10) _ hz]
  isplitl [H12]
  · iexists _; isplitr
    swap; · iexact H12
    ipureintro
    refine (read_writes_unit_zero _ _ hz _ _ _).trans ?_
    sl_unfold_run_names
    simp only [View.readAt_eq_ld, View.ld_unit_zero (S := S512x512) hz, View.ld_unit_zero (S := S512x10) hz, View.ld_unit_zero (S := S3x1) hz, View.readCov_unit_zero (S := S512x10) _ hz]
  iexists _; isplitr
  swap; · iexact H13
  ipureintro
  refine (read_writes_unit_zero _ _ hz _ _ _).trans ?_
  sl_unfold_run_names
  simp only [View.readAt_eq_ld, View.ld_unit_zero (S := S512x512) hz, View.ld_unit_zero (S := S512x10) hz, View.ld_unit_zero (S := S3x1) hz, View.readCov_unit_zero (S := S512x10) _ hz]

set_option maxHeartbeats 4000000 in
/-- The kernel body on whole staging memrefs past the first point of a grid row: the inputs' at read contents, the adjacency
    output's at anything, the three feature outputs' at what the point before left; it runs to the inputs' as they were,
    the adjacency output at the merged block and each feature output at the accumulate payload over what it held. -/
theorem sound_kernel0_B (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x10 .f32) (harg8 : arg8.IsWhole) (arg9 : Memref sig .tc .vmem S512x10 .f32) (harg9 : arg9.IsWhole) (arg10 : Memref sig .tc .vmem S512x10 .f32) (harg10 : arg10.IsWhole) (arg11 : Memref sig .tc .vmem S3x1 .f32) (harg11 : arg11.IsWhole) (arg12 : Memref sig .tc .vmem S512x512 .f32) (harg12 : arg12.IsWhole) (arg13 : Memref sig .tc .vmem S512x10 .f32) (harg13 : arg13.IsWhole) (arg14 : Memref sig .tc .vmem S512x10 .f32) (harg14 : arg14.IsWhole) (arg15 : Memref sig .tc .vmem S512x10 .f32) (harg15 : arg15.IsWhole)
    (hc : ¬cond0 i) (x0 x1 x2 x3 x4 x5 : Vec F S512x512 .f32) (x6 x7 x8 : Vec F S512x10 .f32) (x9 : Vec F S3x1 .f32) (y11 y12 y13 : Vec F S512x10 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ owns (c : Thread nD τ) arg13 fullShare y11 ∗ owns (c : Thread nD τ) arg14 fullShare y12 ∗ owns (c : Thread nD τ) arg15 fullShare y13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare (k0_pay7 x9 x0 x1 x2 x3 x4 x5)
            ∗ owns (c : Thread nD τ) arg13 fullShare (k0_pay1 x0 x6 y11)
            ∗ owns (c : Thread nD τ) arg14 fullShare (k0_pay2 x1 x7 y12)
            ∗ owns (c : Thread nD τ) arg15 fullShare (k0_pay3 x2 x8 y13)) -∗ K ⟨⟩))
      ⊢ wp frame (wpE (defs₀ (F := F)) Variants.none c none) E (cc0__adj_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__adj_kernel_eq_skeleton]; unfold cc0__adj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
  subst hf0 hf1 hf2 hf3 hf4 hf5 hf6 hf7 hf8 hf9 hf11 hf12 hf13
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (read_writes_unit_zero _ _ hz _ _ _).trans ?_
    sl_unfold_run_names
    simp only [View.readAt_eq_ld, View.ld_unit_zero (S := S512x512) hz, View.ld_unit_zero (S := S512x10) hz, View.ld_unit_zero (S := S3x1) hz]
  isplitl [H11]
  · iexists _; isplitr
    swap; · iexact H11
    ipureintro
    refine (read_writes_unit_zero _ _ hz _ _ _).trans ?_
    sl_unfold_run_names
    simp only [View.readAt_eq_ld, View.ld_unit_zero (S := S512x512) hz, View.ld_unit_zero (S := S512x10) hz, View.ld_unit_zero (S := S3x1) hz]
  isplitl [H12]
  · iexists _; isplitr
    swap; · iexact H12
    ipureintro
    refine (read_writes_unit_zero _ _ hz _ _ _).trans ?_
    sl_unfold_run_names
    simp only [View.readAt_eq_ld, View.ld_unit_zero (S := S512x512) hz, View.ld_unit_zero (S := S512x10) hz, View.ld_unit_zero (S := S3x1) hz]
  iexists _; isplitr
  swap; · iexact H13
  ipureintro
  refine (read_writes_unit_zero _ _ hz _ _ _).trans ?_
  sl_unfold_run_names
  simp only [View.readAt_eq_ld, View.ld_unit_zero (S := S512x512) hz, View.ld_unit_zero (S := S512x10) hz, View.ld_unit_zero (S := S3x1) hz]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

set_option maxHeartbeats 4000000 in
/-- The body at any point: the inputs' buffers hold their blocks; at the first point of a grid row the feature outputs'
    buffers hold anything and the body clears them, elsewhere they hold what the point before left; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  by_cases h0 : t.val % 16 = 0
  ·
    simp only [before0_11_A V c t h0, before0_12_A V c t h0, before0_13_A V c t h0]
    rw [f0_11_A V c t h0, f0_12_A V c t h0, f0_13_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_kernel0_A c Set.univ (grid0.coords t) _ _ _ _ _ _ _ _ _ _ _ _ _ _ _ _ _ _ _ _ _ _ _ _ _ _ _ _ ((hcond0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  ·
    simp only [before0_11_B V c t h0, before0_12_B V c t h0, before0_13_B V c t h0]
    rw [f0_11_B V c t h0, f0_12_B V c t h0, f0_13_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_kernel0_B c Set.univ (grid0.coords t) _ _ _ _ _ _ _ _ _ _ _ _ _ _ _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg0.lean ====
/-
  Region 0 as a segment of @main over the thread state.

  Each relation matrix stands behind two of the region's windows, so its fourteen windows are on eleven distinct
  arrays. At entry a relation matrix's full share is cut in its two halves, one per window; at exit the two halves, at
  the same contents (an input is never written), join again. Every other array is one window's, at the full share.
-/
import proofs.«160379_j10187662426197_1_alg».proof.Proof.KPdats
import proofs.«160379_j10187662426197_1_alg».proof.Proof.KBody0

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The buffers behind region 0's windows, listed: eleven distinct arrays. -/
private theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_arg2) ↦{fullShare} V main_arg2)
          ∗ (((c : Thread nD τ).loc main_arg3) ↦{fullShare} V main_arg3) ∗ (((c : Thread nD τ).loc main_arg4) ↦{fullShare} V main_arg4)
          ∗ (((c : Thread nD τ).loc main_arg5) ↦{fullShare} V main_arg5) ∗ (((c : Thread nD τ).loc main_arg6) ↦{fullShare} V main_arg6)
          ∗ (((c : Thread nD τ).loc main_arg7) ↦{fullShare} V main_arg7) ∗ (((c : Thread nD τ).loc main_v0_0) ↦{fullShare} V main_v0_0)
          ∗ (((c : Thread nD τ).loc main_v0_1) ↦{fullShare} V main_v0_1) ∗ (((c : Thread nD τ).loc main_v0_2) ↦{fullShare} V main_v0_2)
          ∗ (((c : Thread nD τ).loc main_v0_3) ↦{fullShare} V main_v0_3)) := by
  unfold Pipeline.arrBufs
  exact bigSep_eq_bigSepL_of_eq [main_arg1, main_arg2, main_arg3, main_arg4, main_arg5, main_arg6, main_arg7, main_v0_0, main_v0_1, main_v0_2, main_v0_3] (by decide) (by decide) _

variable (V : (c : Dev nD) → (b : Ref sig .tc) → Buf (Elt F) ((c : Thread nD τ).loc b))

/-- A window's array is a whole buffer: its points-to is over every element. -/
private theorem arrays0_univ (c : Dev nD) (Fn : (w : Fin cfg0.W) → Buf (Elt F) ((cfg0.win w).arr.view.loc (c : Thread nD τ))) :
    ((dat0 V c).arrays Fn : sProp 𝕄)
      = bigSep Finset.univ fun w : Fin 14 => (((c : Thread nD τ).loc (Pipeline.arrRef spec0 w)) ↦{(dat0 V c).share w} Fn w : sProp 𝕄) := by
  unfold Dat.arrays
  exact bigSep_congr fun w _ => by
    have h : (cfg0.win w).arr.view.set = Finset.univ := (arr_whole0 w).set_eq_univ
    rw [h]

/-- Region 0's windowed arrays one by one: the three relation matrices twice, at the left and the right half of the
    full share; every other window's array at the full share. -/
private theorem arrays0_eq (c : Dev nD) (Fn : (w : Fin cfg0.W) → Buf (Elt F) ((cfg0.win w).arr.view.loc (c : Thread nD τ))) :
    ((dat0 V c).arrays Fn : sProp 𝕄)
      = iprop((((c : Thread nD τ).loc main_arg1) ↦{fullShare.left} Fn 0) ∗ (((c : Thread nD τ).loc main_arg2) ↦{fullShare.left} Fn 1)
          ∗ (((c : Thread nD τ).loc main_arg3) ↦{fullShare.left} Fn 2) ∗ (((c : Thread nD τ).loc main_arg1) ↦{fullShare.right} Fn 3)
          ∗ (((c : Thread nD τ).loc main_arg2) ↦{fullShare.right} Fn 4) ∗ (((c : Thread nD τ).loc main_arg3) ↦{fullShare.right} Fn 5)
          ∗ (((c : Thread nD τ).loc main_arg4) ↦{fullShare} Fn 6) ∗ (((c : Thread nD τ).loc main_arg5) ↦{fullShare} Fn 7)
          ∗ (((c : Thread nD τ).loc main_arg6) ↦{fullShare} Fn 8) ∗ (((c : Thread nD τ).loc main_arg7) ↦{fullShare} Fn 9)
          ∗ (((c : Thread nD τ).loc main_v0_0) ↦{fullShare} Fn 10) ∗ (((c : Thread nD τ).loc main_v0_1) ↦{fullShare} Fn 11)
          ∗ (((c : Thread nD τ).loc main_v0_2) ↦{fullShare} Fn 12) ∗ (((c : Thread nD τ).loc main_v0_3) ↦{fullShare} Fn 13)) := by
  rw [arrays0_univ, bigSep_W0]; rfl

/-- ENTRY's sorting: the eleven arrays at contents V', each at the full share, are the fourteen windows' arrays at V'
    (a relation matrix's full share cut in its two halves, one per window on it). -/
private theorem arrays0_of_arrBufs (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊢ (dat0 V c).arrays (fun w => V' (Pipeline.arrRef spec0 w)) := by
  rw [arrBufs0_eq, arrays0_eq]
  iintro ⟨H1, H2, H3, H4, H5, H6, H7, Hv0, Hv1, Hv2, Hv3⟩
  ihave H1' := (pointsTo_share (PosShare.mem_left_op_right fullShare)).1 $$ H1
  ihave H2' := (pointsTo_share (PosShare.mem_left_op_right fullShare)).1 $$ H2
  ihave H3' := (pointsTo_share (PosShare.mem_left_op_right fullShare)).1 $$ H3
  icases H1' with ⟨H1l, H1r⟩
  icases H2' with ⟨H2l, H2r⟩
  icases H3' with ⟨H3l, H3r⟩
  isplitl [H1l]; · iexact H1l
  isplitl [H2l]; · iexact H2l
  isplitl [H3l]; · iexact H3l
  isplitl [H1r]; · iexact H1r
  isplitl [H2r]; · iexact H2r
  isplitl [H3r]; · iexact H3r
  isplitl [H4]; · iexact H4
  isplitl [H5]; · iexact H5
  isplitl [H6]; · iexact H6
  isplitl [H7]; · iexact H7
  isplitl [Hv0]; · iexact Hv0
  isplitl [Hv1]; · iexact Hv1
  isplitl [Hv2]; · iexact Hv2
  iexact Hv3

/-- EXIT's sorting, the other way round: a relation matrix's two halves, at the same contents, join. -/
private theorem arrBufs_of_arrays0 (c : Dev nD) (V' : (b : Ref sig .tc) → Buf (Elt F) ((c : Thread nD τ).loc b)) :
    ((dat0 V c).arrays (fun w => V' (Pipeline.arrRef spec0 w)) : sProp 𝕄)
      ⊢ Pipeline.arrBufs (Ix := Unit) (Name := ℕ) (U := UR sig nD τ) (Lvl := ℕ) spec0 c V' := by
  rw [arrBufs0_eq, arrays0_eq]
  iintro ⟨H1l, H2l, H3l, H1r, H2r, H3r, H4, H5, H6, H7, Hv0, Hv1, Hv2, Hv3⟩
  isplitl [H1l H1r]
  · iapply (pointsTo_share (PosShare.mem_left_op_right fullShare)).2; isplitl [H1l]; · iexact H1l
    iexact H1r
  isplitl [H2l H2r]
  · iapply (pointsTo_share (PosShare.mem_left_op_right fullShare)).2; isplitl [H2l]; · iexact H2l
    iexact H2r
  isplitl [H3l H3r]
  · iapply (pointsTo_share (PosShare.mem_left_op_right fullShare)).2; isplitl [H3l]; · iexact H3l
    iexact H3r
  isplitl [H4]; · iexact H4
  isplitl [H5]; · iexact H5
  isplitl [H6]; · iexact H6
  isplitl [H7]; · iexact H7
  isplitl [Hv0]; · iexact Hv0
  isplitl [Hv1]; · iexact Hv1
  isplitl [Hv2]; · iexact Hv2
  iexact Hv3

/-! ## The contents after region 0, read buffer by buffer -/

/-- Off its four output arrays, W1 is W0. -/
private theorem W1_of (c : Dev nD) (r : Ref sig .tc) (h : r ∉ ([main_v0_0, main_v0_1, main_v0_2, main_v0_3] : List (Ref sig .tc))) :
    V1 m c r = V0 m c r := by
  have h0 : (Proc.devRef .tc r : DevRef τ sig) ≠ Proc.devRef .tc main_v0_0 := StableHlo.devRef_ne_of_ne (List.ne_of_not_mem_cons h)
  have h1 : (Proc.devRef .tc r : DevRef τ sig) ≠ Proc.devRef .tc main_v0_1 :=
    StableHlo.devRef_ne_of_ne (List.ne_of_not_mem_cons (List.not_mem_of_not_mem_cons h))
  have h2 : (Proc.devRef .tc r : DevRef τ sig) ≠ Proc.devRef .tc main_v0_2 :=
    StableHlo.devRef_ne_of_ne (List.ne_of_not_mem_cons (List.not_mem_of_not_mem_cons (List.not_mem_of_not_mem_cons h)))
  have h3 : (Proc.devRef .tc r : DevRef τ sig) ≠ Proc.devRef .tc main_v0_3 :=
    StableHlo.devRef_ne_of_ne (List.ne_of_not_mem_cons (List.not_mem_of_not_mem_cons (List.not_mem_of_not_mem_cons (List.not_mem_of_not_mem_cons h))))
  show W1 m c (Proc.devRef .tc r) = W0 m c (Proc.devRef .tc r)
  unfold W1
  rw [Function.update_of_ne h3, Function.update_of_ne h2, Function.update_of_ne h1, Function.update_of_ne h0]

/-- At each output array, W1 is what the write-backs leave. -/
private theorem W1_v0_0 (c : Dev nD) : V1 m c main_v0_0 = (dat0 (V0 m) c).arrAt 10 cfg0.N := by
  show W1 m c (Proc.devRef .tc main_v0_0) = _
  unfold W1
  rw [Function.update_of_ne (StableHlo.devRef_ne_of_ne (by decide) : (Proc.devRef .tc main_v0_0 : DevRef τ sig) ≠ Proc.devRef .tc main_v0_3),
    Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1),
    Function.update_self]
private theorem W1_v0_1 (c : Dev nD) : V1 m c main_v0_1 = (dat0 (V0 m) c).arrAt 11 cfg0.N := by
  show W1 m c (Proc.devRef .tc main_v0_1) = _
  unfold W1
  rw [Function.update_of_ne (StableHlo.devRef_ne_of_ne (by decide) : (Proc.devRef .tc main_v0_1 : DevRef τ sig) ≠ Proc.devRef .tc main_v0_3),
    Function.update_of_ne (StableHlo.devRef_ne_of_ne (by decide) : (Proc.devRef .tc main_v0_1 : DevRef τ sig) ≠ Proc.devRef .tc main_v0_2),
    Function.update_self]
private theorem W1_v0_2 (c : Dev nD) : V1 m c main_v0_2 = (dat0 (V0 m) c).arrAt 12 cfg0.N := by
  show W1 m c (Proc.devRef .tc main_v0_2) = _
  unfold W1
  rw [Function.update_of_ne (StableHlo.devRef_ne_of_ne (by decide) : (Proc.devRef .tc main_v0_2 : DevRef τ sig) ≠ Proc.devRef .tc main_v0_3),
    Function.update_self]
private theorem W1_v0_3 (c : Dev nD) : V1 m c main_v0_3 = (dat0 (V0 m) c).arrAt 13 cfg0.N := by
  show W1 m c (Proc.devRef .tc main_v0_3) = _
  unfold W1
  rw [Function.update_self]

/-- At region 0's exit every window's array holds what W1 says: an input as entered, an output its write-backs. -/
private theorem hF0 (c : Dev nD) (w : Fin cfg0.W) : (dat0 (V0 m) c).arrAt w cfg0.N = V1 m c (Pipeline.arrRef spec0 w) :=
  match w with
  | ⟨0, _⟩ => ((dat0 (V0 m) c).arrAt_in 0 rfl _).trans (W1_of m c main_arg1 (by decide)).symm
  | ⟨1, _⟩ => ((dat0 (V0 m) c).arrAt_in 1 rfl _).trans (W1_of m c main_arg2 (by decide)).symm
  | ⟨2, _⟩ => ((dat0 (V0 m) c).arrAt_in 2 rfl _).trans (W1_of m c main_arg3 (by decide)).symm
  | ⟨3, _⟩ => ((dat0 (V0 m) c).arrAt_in 3 rfl _).trans (W1_of m c main_arg1 (by decide)).symm
  | ⟨4, _⟩ => ((dat0 (V0 m) c).arrAt_in 4 rfl _).trans (W1_of m c main_arg2 (by decide)).symm
  | ⟨5, _⟩ => ((dat0 (V0 m) c).arrAt_in 5 rfl _).trans (W1_of m c main_arg3 (by decide)).symm
  | ⟨6, _⟩ => ((dat0 (V0 m) c).arrAt_in 6 rfl _).trans (W1_of m c main_arg4 (by decide)).symm
  | ⟨7, _⟩ => ((dat0 (V0 m) c).arrAt_in 7 rfl _).trans (W1_of m c main_arg5 (by decide)).symm
  | ⟨8, _⟩ => ((dat0 (V0 m) c).arrAt_in 8 rfl _).trans (W1_of m c main_arg6 (by decide)).symm
  | ⟨9, _⟩ => ((dat0 (V0 m) c).arrAt_in 9 rfl _).trans (W1_of m c main_arg7 (by decide)).symm
  | ⟨10, _⟩ => (W1_v0_0 m c).symm
  | ⟨11, _⟩ => (W1_v0_1 m c).symm
  | ⟨12, _⟩ => (W1_v0_2 m c).symm
  | ⟨13, _⟩ => (W1_v0_3 m c).symm

/-- No output array of region 0 is in the unscoped rest. -/
private theorem outs_arr0 : ∀ b ∈ ([main_v0_0, main_v0_1, main_v0_2, main_v0_3] : List (Ref sig .tc)), b ∈ Finset.univ.image (Pipeline.arrRef spec0) := by decide

/-- So the rest is held at W1 as at W0. -/
private theorem unscopedRest0_W1 (c : Dev nD) :
    (Pipeline.unscopedRest (Ix := Unit) (Name := ℕ) (U := UR sig nD τ) (Lvl := ℕ) spec0 c (V1 m c) : sProp 𝕄)
      = Pipeline.unscopedRest (Ix := Unit) (Name := ℕ) (U := UR sig nD τ) (Lvl := ℕ) spec0 c (V0 m c) := by
  unfold Pipeline.unscopedRest
  exact bigSep_congr fun b hb => by
    rw [W1_of m c b fun hmem => (Finset.mem_sdiff.mp hb).2 (outs_arr0 b hmem)]

/-! ## Entry and exit: the held set against the arrays and the rest -/

/-- ENTRY: every unscoped buffer held at W0 is region 0's arrays at the entry contents and the unscoped rest at W0. -/
private theorem hentry0 (c : Dev nD) :
    (StableHlo.held (c : Thread nD τ) (Pipeline.ucRefs τ sig) (W0 m c) : sProp 𝕄)
      ⊢ iprop((pdats m 0 c).arrays ((pdats m 0 c).arrAt · 0)
          ∗ Pipeline.unscopedRest (Ix := Unit) (Name := ℕ) (U := UR sig nD τ) (Lvl := ℕ) spec0 c (V0 m c)) := by
  have hs : (unscopedBufs (Ix := Unit) (Name := ℕ) (U := UR sig nD τ) (Lvl := ℕ) c (V0 m c) : sProp 𝕄)
      = iprop(Pipeline.arrBufs spec0 c (V0 m c) ∗ Pipeline.unscopedRest spec0 c (V0 m c)) :=
    Pipeline.unscopedBufs_split₀ cfgs 0 winFacts₀0.arr_unscoped c (V0 m c)
  rw [Pipeline.unscopedBufs_held] at hs
  rw [hs]
  exact sep_mono (arrays0_of_arrBufs (V0 m) c (V0 m c)) .rfl

/-- EXIT: region 0's arrays at their final contents and the unscoped rest at W0 are every unscoped buffer held at W1. -/
private theorem hexit0 (c : Dev nD) :
    iprop((pdats m 0 c).arrays ((pdats m 0 c).arrAt · cfg0.N)
          ∗ Pipeline.unscopedRest (Ix := Unit) (Name := ℕ) (U := UR sig nD τ) (Lvl := ℕ) spec0 c (V0 m c))
      ⊢ (StableHlo.held (c : Thread nD τ) (Pipeline.ucRefs τ sig) (W1 m c) : sProp 𝕄) := by
  have hs : (unscopedBufs (Ix := Unit) (Name := ℕ) (U := UR sig nD τ) (Lvl := ℕ) c (V1 m c) : sProp 𝕄)
      = iprop(Pipeline.arrBufs spec0 c (V1 m c) ∗ Pipeline.unscopedRest spec0 c (V1 m c)) :=
    Pipeline.unscopedBufs_split₀ cfgs 0 winFacts₀0.arr_unscoped c (V1 m c)
  rw [Pipeline.unscopedBufs_held] at hs
  rw [hs, unscopedRest0_W1]
  refine sep_mono ?_ .rfl
  have hc : (fun w => (pdats m 0 c).arrAt w cfg0.N) = fun w => V1 m c (Pipeline.arrRef spec0 w) := funext (hF0 m c)
  rw [hc]
  exact arrBufs_of_arrays0 (V0 m) c (V1 m c)

/-! ## The region as a segment -/

set_option backward.isDefEq.respectTransparency.types false in
/-- Region 0 entered from every unscoped buffer at W0, left at W1. Its arrays are sorted out of the unscoped buffers
    at entry and put back at the exit contents; the generator register goes into the invariant and comes out; nothing is
    owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := T (W0 m) c
  post c := T (W1 m) c
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    iintro ⟨⟨Hub, Hp, HO⟩, -, -⟩
    ihave H := (hentry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (hexit0 m c); isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c = T (W0 m) c := rfl
theorem reg0_post (c : Dev nD) : (reg0 m).post c = T (W1 m) c := rfl

end Cert.Kernel.Hand

end
-- ==== Proof.KBody1.lean ====
/-
  Region 1: the kernel body meets its obligation at every grid point.

  The body's two conditionals depend on the point's place k in its grid row only: at k = 0 the scratch accumulator is
  cleared before the accumulate step, at k = 15 the accumulator plus the bias is stored over the output block. So there
  are three control cases (k = 0, 0 < k < 15, k = 15), each stated once over arbitrary whole memrefs and contents, and
  the obligation at a point is its case read at the point's staging memrefs, blocks and invariant.
-/
import proofs.«160379_j10187662426197_1_alg».proof.Proof.KDat1
import Idealize.ShloMosaic.Lib.Tactic
import Idealize.ShloMosaic.Lib.Ring
import Idealize.ShloMosaic.Lib.Pipeline.Value

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Tactic

variable (V : (c : Dev nD) → (b : Ref sig .tc) → Buf (Elt F) ((c : Thread nD τ).loc b))

/-! ## The body's branch conditions -/

/-- The condition of the body's first conditional: the second grid coordinate is zero. -/
private abbrev cond1_0 (i : grid1.Coords) : Prop := (Scalar.cmpi .ne (Scalar.extui (Scalar.cmpi .eq (BitVec.ofNat 32 (i 1).val) 0#32)) 0#32) = 1#1
/-- It holds at the points ≡ 0 (mod 16). -/
private theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second conditional: the second grid coordinate is fifteen. -/
private abbrev cond1_1 (i : grid1.Coords) : Prop := k1_cond2 i = 1#1
/-- It holds at the points ≡ 15 (mod 16). -/
private theorem hcond1_1 : ∀ t : Fin cfg1.N, cond1_1 (grid1.coords t) ↔ t.val % 16 = 15 :=
  (by decide +kernel : ∀ t : Fin grid1.N, cond1_1 (grid1.coords t) ↔ t.val % 16 = 15)

/-! ## The kernel body on any whole memrefs, case by case -/

/-- The zero offsets of a whole-buffer rectangle, of rank two and of rank one, are the constant zero. -/
private theorem hz2 : (![0, 0] : Fin 2 → Nat) = fun _ => 0 := funext fun a => by fin_cases a <;> rfl
private theorem hz1 : (![0] : Fin 1 → Nat) = fun _ => 0 := funext fun a => by fin_cases a <;> rfl

set_option maxHeartbeats 1000000 in
/-- The body where neither conditional is taken: the scratch holding xs ends at the accumulate payload over xs;
    the output buffer is untouched. One store through the whole-buffer rectangle leaves its payload, and each load
    through a whole-buffer rectangle reads the buffer's contents. -/
private theorem kernel1_B (c : Dev nD) (i : grid1.Coords)
    (arg2 : Memref sig .tc .vmem S512x512 .f32) (harg2 : arg2.IsWhole)
    (arg3 : Memref sig .tc .vmem S512x256 .f32) (harg3 : arg3.IsWhole)
    (arg4 : Memref sig .tc .vmem S256x128 .f32) (harg4 : arg4.IsWhole)
    (arg5 : Memref sig .tc .vmem S128 .f32) (harg5 : arg5.IsWhole)
    (arg6 : Memref sig .tc .vmem S512x128 .f32) (harg6 : arg6.IsWhole)
    (arg7 : Memref sig .tc .vmem S512x128 .f32) (harg7 : arg7.IsWhole)
    (hc0 : ¬cond1_0 i) (hc1 : ¬cond1_1 i)
    (x0 : Vec F S512x512 .f32) (x1 : Vec F S512x256 .f32) (x2 : Vec F S256x128 .f32) (x3 : Vec F S128 .f32)
    (xi4 : Vec F S512x128 .f32) (xs : Vec F S512x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (xi4)
            ∗ owns (c : Thread nD τ) arg7 fullShare (k1_pay2 x1 x2 x0 xs)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  rw [View.read_writes_eq_canon _ _ _ (fun y => ⟨_, List.Mem.head _, View.mem_set_unit_zero hz2 inb_S512x128_S512x128_0_0 y⟩), View.canon_unit_zero hz2]
  simp only [View.readAt_eq_ld, harg2.read_unread, harg3.read_unread, harg4.read_unread, harg5.read_unread, harg7.read_unread,
      View.ld_unit_zero (S := S512x512) hz2, View.ld_unit_zero (S := S512x256) hz2, View.ld_unit_zero (S := S256x128) hz2,
      View.ld_unit_zero (S := S128) hz1, View.ld_unit_zero (S := S512x128) hz2]

set_option maxHeartbeats 1000000 in
/-- The body where the first conditional is taken and the second is not: the scratch is cleared, read back as the
    zero payload, then ends at the accumulate payload over the zero payload; the output buffer is untouched. -/
private theorem kernel1_A (c : Dev nD) (i : grid1.Coords)
    (arg2 : Memref sig .tc .vmem S512x512 .f32) (harg2 : arg2.IsWhole)
    (arg3 : Memref sig .tc .vmem S512x256 .f32) (harg3 : arg3.IsWhole)
    (arg4 : Memref sig .tc .vmem S256x128 .f32) (harg4 : arg4.IsWhole)
    (arg5 : Memref sig .tc .vmem S128 .f32) (harg5 : arg5.IsWhole)
    (arg6 : Memref sig .tc .vmem S512x128 .f32) (harg6 : arg6.IsWhole)
    (arg7 : Memref sig .tc .vmem S512x128 .f32) (harg7 : arg7.IsWhole)
    (hc0 : cond1_0 i) (hc1 : ¬cond1_1 i)
    (x0 : Vec F S512x512 .f32) (x1 : Vec F S512x256 .f32) (x2 : Vec F S256x128 .f32) (x3 : Vec F S128 .f32)
    (xi4 : Vec F S512x128 .f32) (xs : Vec F S512x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (xi4)
            ∗ owns (c : Thread nD τ) arg7 fullShare (k1_pay2 x1 x2 x0 k1_pay1)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_run_names
  rw [View.read_writes_eq_canon _ _ _ (fun y => ⟨_, List.Mem.head _, View.mem_set_unit_zero hz2 inb_S512x128_S512x128_0_0 y⟩), View.canon_cons_unit_zero hz2, View.readCov_unit_zero _ hz2]
  simp only [View.readAt_eq_ld, harg2.read_unread, harg3.read_unread, harg4.read_unread, harg5.read_unread, harg7.read_unread,
      View.ld_unit_zero (S := S512x512) hz2, View.ld_unit_zero (S := S512x256) hz2, View.ld_unit_zero (S := S256x128) hz2,
      View.ld_unit_zero (S := S128) hz1, View.ld_unit_zero (S := S512x128) hz2]

set_option maxHeartbeats 1000000 in
/-- The body where the second conditional is taken and the first is not: the scratch holding xs ends at the accumulate
    payload over xs, which is read back and stored, with the bias added, over the whole output buffer. -/
private theorem kernel1_C (c : Dev nD) (i : grid1.Coords)
    (arg2 : Memref sig .tc .vmem S512x512 .f32) (harg2 : arg2.IsWhole)
    (arg3 : Memref sig .tc .vmem S512x256 .f32) (harg3 : arg3.IsWhole)
    (arg4 : Memref sig .tc .vmem S256x128 .f32) (harg4 : arg4.IsWhole)
    (arg5 : Memref sig .tc .vmem S128 .f32) (harg5 : arg5.IsWhole)
    (arg6 : Memref sig .tc .vmem S512x128 .f32) (harg6 : arg6.IsWhole)
    (arg7 : Memref sig .tc .vmem S512x128 .f32) (harg7 : arg7.IsWhole)
    (hc0 : ¬cond1_0 i) (hc1 : cond1_1 i)
    (x0 : Vec F S512x512 .f32) (x1 : Vec F S512x256 .f32) (x2 : Vec F S256x128 .f32) (x3 : Vec F S128 .f32)
    (xi4 : Vec F S512x128 .f32) (xs : Vec F S512x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay3 (k1_pay2 x1 x2 x0 xs) x3)
            ∗ owns (c : Thread nD τ) arg7 fullShare (k1_pay2 x1 x2 x0 xs)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (fun y => ⟨_, List.Mem.head _, View.mem_set_unit_zero hz2 inb_S512x128_S512x128_0_0 y⟩), View.canon_unit_zero hz2, View.readCov_unit_zero _ hz2]
    simp only [View.readAt_eq_ld, harg2.read_unread, harg3.read_unread, harg4.read_unread, harg5.read_unread, harg7.read_unread,
      View.ld_unit_zero (S := S512x512) hz2, View.ld_unit_zero (S := S512x256) hz2, View.ld_unit_zero (S := S256x128) hz2,
      View.ld_unit_zero (S := S128) hz1, View.ld_unit_zero (S := S512x128) hz2]
  iexists _; isplitr
  swap; · iexact HS
  ipureintro
  sl_unfold_run_names
  rw [View.read_writes_eq_canon _ _ _ (fun y => ⟨_, List.Mem.head _, View.mem_set_unit_zero hz2 inb_S512x128_S512x128_0_0 y⟩), View.canon_unit_zero hz2]
  simp only [View.readAt_eq_ld, harg2.read_unread, harg3.read_unread, harg4.read_unread, harg5.read_unread, harg7.read_unread,
      View.ld_unit_zero (S := S512x512) hz2, View.ld_unit_zero (S := S512x256) hz2, View.ld_unit_zero (S := S256x128) hz2,
      View.ld_unit_zero (S := S128) hz1, View.ld_unit_zero (S := S512x128) hz2]

/-! ## What the body finds in the input windows' staging buffers -/

/-- Each input window's current staging buffer holds its block at every point, fetched there or not: an input the
    body only reads keeps its block, and unfetched its block index has not moved. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
private theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
private theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The accumulator and the invariant, point by point -/

/-- At the start of a grid row the accumulator is the accumulate payload over the zero payload. -/
private theorem acc1_reset (c : Dev nD) (t : Fin cfg1.N) (h0 : t.val % 16 = 0) :
    acc1 V c t.val t.isLt = k1_pay2 (iblk1 V c 1 t) (iblk1 V c 2 t) (iblk1 V c 0 t) k1_pay1 := by
  obtain ⟨n, hn⟩ := t
  cases n with
  | zero => rfl
  | succ n => dsimp only at h0 ⊢; rw [acc1, if_pos h0]

/-- Elsewhere it is the accumulate payload over what the point before left. -/
private theorem acc1_step (c : Dev nD) (t : Fin cfg1.N) (h0 : ¬t.val % 16 = 0) :
    acc1 V c t.val t.isLt = k1_pay2 (iblk1 V c 1 t) (iblk1 V c 2 t) (iblk1 V c 0 t)
      (acc1 V c (t.val - 1) (Nat.lt_of_le_of_lt (Nat.sub_le _ _) t.isLt)) := by
  obtain ⟨n, hn⟩ := t
  cases n with
  | zero => exact absurd (Nat.zero_mod _) h0
  | succ n => dsimp only at h0 ⊢; rw [acc1, if_neg h0]; rfl

private theorem Phi1_zero (c : Dev nD) (n : ℕ) (h : n ≤ cfg1.N) (hz : n = 0) : Phi1 V c n h = Pipeline.ΦA spec1 c := by
  subst hz; rfl

/-- After point n (before point n + 1): the scratch at that point's accumulator. -/
private theorem Phi1_succ (c : Dev nD) (n : ℕ) (hn : n < cfg1.N) :
    Phi1 V c (n + 1) hn = iprop(owns (c : Thread nD τ) (Memref.whole cc1_scratch0) fullShare (acc1 V c n hn)
      ∗ Pipeline.scopedRestBut (Ix := Unit) (Name := ℕ) (U := UR sig nD τ) (Lvl := ℕ) (Val := Elt F) spec1 c [cc1_scratch0]
      ∗ ∃ r, prngReg c r) := rfl

/-- Before a point that is not the first: the scratch at the accumulator the point before left. -/
private theorem Phi1_pos (c : Dev nD) (n : ℕ) (h : n ≤ cfg1.N) (hz : n ≠ 0) :
    Phi1 V c n h = iprop(owns (c : Thread nD τ) (Memref.whole cc1_scratch0) fullShare (acc1 V c (n - 1) (by omega))
      ∗ Pipeline.scopedRestBut (Ix := Unit) (Name := ℕ) (U := UR sig nD τ) (Lvl := ℕ) (Val := Elt F) spec1 c [cc1_scratch0]
      ∗ ∃ r, prngReg c r) := by
  cases n with
  | zero => exact absurd rfl hz
  | succ n => rfl

private theorem Phi1_castSucc (c : Dev nD) (t : Fin cfg1.N) :
    (dat1 V c).Φ t.castSucc = Phi1 V c t.val (Nat.le_of_lt t.isLt) := rfl

/-- The invariant before the first point, with the scratch set apart at some contents. -/
private theorem PhiA1_eq (c : Dev nD) :
    (Pipeline.ΦA spec1 c : sProp 𝕄)
      = iprop(iprop((∃ d, owns (c : Thread nD τ) (Memref.whole cc1_scratch0) fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [owns_whole]; try rfl

/-! ## Where the windows are idle -/

private theorem liveAt1_0 : ∀ t : Fin cfg1.N, cfg1.idle 0 (grid1.coords t) = false := fun _ => rfl
private theorem liveAt1_1 : ∀ t : Fin cfg1.N, cfg1.idle 1 (grid1.coords t) = false := fun _ => rfl
private theorem liveAt1_2 : ∀ t : Fin cfg1.N, cfg1.idle 2 (grid1.coords t) = false := fun _ => rfl
private theorem liveAt1_3 : ∀ t : Fin cfg1.N, cfg1.idle 3 (grid1.coords t) = false := fun _ => rfl
/-- Where the second conditional is not taken the output window is idle and not written back. -/
private theorem idleAt1_4 : ∀ t : Fin cfg1.N, ¬cond1_1 (grid1.coords t) → cfg1.idle 4 (grid1.coords t) = true := by decide +kernel
private theorem noFlush1_4 : ∀ t : Fin cfg1.N, ¬cond1_1 (grid1.coords t) → (cfg1.win 4).flush t = false := by decide +kernel
/-- Where it is taken the output window is live. -/
private theorem liveAt1_4 : ∀ t : Fin cfg1.N, cond1_1 (grid1.coords t) → cfg1.idle 4 (grid1.coords t) = false := by decide +kernel

/-! ## The body obligation, at a generic point -/

/-- Each window's current staging memref at point t, spelled as the pipeline passes it. -/
private abbrev ms1_0 (t : Fin cfg1.N) : Memref sig .tc .vmem S512x512 .f32 := win1_0.stage (cfg1.slots t 0)
private abbrev ms1_1 (t : Fin cfg1.N) : Memref sig .tc .vmem S512x256 .f32 := win1_1.stage (cfg1.slots t 1)
private abbrev ms1_2 (t : Fin cfg1.N) : Memref sig .tc .vmem S256x128 .f32 := win1_2.stage (cfg1.slots t 2)
private abbrev ms1_3 (t : Fin cfg1.N) : Memref sig .tc .vmem S128 .f32 := win1_3.stage (cfg1.slots t 3)
private abbrev ms1_4 (t : Fin cfg1.N) : Memref sig .tc .vmem S512x128 .f32 := win1_4.stage (cfg1.slots t 4)

/-- What the body is called with at point t, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
private def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's place in its grid row says which
    conditionals are taken; the invariant hands the body the scratch at what the point before left (at anything at the
    first point) and takes it back at this point's accumulator; an idle output buffer is handed back as found, a live
    one at the bias payload of the accumulator; the core owes nothing throughout. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 256 := lt_of_lt_of_eq t.isLt (show cfg1.N = 256 from N_1)
  by_cases h0 : t.val % 16 = 0
  · have h1 : ¬t.val % 16 = 15 := by omega
    rw [Dat.leavesExact_idle (dat1 V c) 4 t (idleAt1_4 t (fun h => h1 ((hcond1_1 t).mp h))) (noFlush1_4 t (fun h => h1 ((hcond1_1 t).mp h)))]
    rw [acc1_reset V c t h0]
    by_cases hz : t.val = 0
    · rw [Phi1_castSucc V c t, Phi1_zero V c _ _ hz, PhiA1_eq]
      iintro ⟨⟨⟨⟨%ds, HS⟩, HR⟩, Hg⟩, Ho, ⟨%d0, H0⟩, ⟨%d1, H1⟩, ⟨%d2, H2⟩, ⟨%d3, H3⟩, ⟨%d4, H4⟩⟩
      iapply (kernel1_A c (grid1.coords t) _ _ _ _ _ _ _ _ _ _ _ _ ((hcond1_0 t).mpr h0) (fun h => h1 ((hcond1_1 t).mp h))
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [Phi1_castSucc V c t, Phi1_pos V c _ _ hz]
      iintro ⟨⟨HS, HR, Hg⟩, Ho, ⟨%d0, H0⟩, ⟨%d1, H1⟩, ⟨%d2, H2⟩, ⟨%d3, H3⟩, ⟨%d4, H4⟩⟩
      iapply (kernel1_A c (grid1.coords t) _ _ _ _ _ _ _ _ _ _ _ _ ((hcond1_0 t).mpr h0) (fun h => h1 ((hcond1_1 t).mp h))
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [acc1_step V c t h0]
    rw [Phi1_castSucc V c t, Phi1_pos V c _ _ hz]
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4, acc1_step V c t h0]
      iintro ⟨⟨HS, HR, Hg⟩, Ho, ⟨%d0, H0⟩, ⟨%d1, H1⟩, ⟨%d2, H2⟩, ⟨%d3, H3⟩, ⟨%d4, H4⟩⟩
      iapply (kernel1_C c (grid1.coords t) _ _ _ _ _ _ _ _ _ _ _ _ (fun h => h0 ((hcond1_0 t).mp h)) ((hcond1_1 t).mpr h1)
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      iintro ⟨⟨HS, HR, Hg⟩, Ho, ⟨%d0, H0⟩, ⟨%d1, H1⟩, ⟨%d2, H2⟩, ⟨%d3, H3⟩, ⟨%d4, H4⟩⟩
      iapply (kernel1_B c (grid1.coords t) _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg1.lean ====
/-
  Region 1 as a segment of @main over the thread state.
-/
import proofs.«160379_j10187662426197_1_alg».proof.Proof.KPdats
import proofs.«160379_j10187662426197_1_alg».proof.Proof.KBody1

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The exit contents: W2 is W1 with the output array replaced -/

/-- An input window's array is never written, and W2 differs from W1 only at the output array: at the region's
    exit the array holds what W2 reads there. -/
theorem arr_in1 (c : Dev nD) (w : Fin cfg1.W) (hin : (cfg1.win w).isOut = false)
    (hne : Pipeline.arrRef spec1 w ≠ main_v1) :
    (dat1 (V1 m) c).arrAt w cfg1.N = V2 m c (Pipeline.arrRef spec1 w) :=
  ((dat1 (V1 m) c).arrAt_in w hin _).trans
    ((A_eq1 (V1 m) c w).trans (Function.update_of_ne (StableHlo.devRef_ne_of_ne hne) _ _).symm)

/-- At region 1's exit each of its arrays holds what W2 reads there: the four inputs as entered, the output at the
    fold of its write-backs. -/
theorem hF1 (c : Dev nD) : ∀ w : Fin cfg1.W, (dat1 (V1 m) c).arrAt w cfg1.N = V2 m c (Pipeline.arrRef spec1 w)
  | ⟨0, _⟩ => arr_in1 m c 0 rfl (by decide)
  | ⟨1, _⟩ => arr_in1 m c 1 rfl (by decide)
  | ⟨2, _⟩ => arr_in1 m c 2 rfl (by decide)
  | ⟨3, _⟩ => arr_in1 m c 3 rfl (by decide)
  | ⟨4, _⟩ => by
    show _ = W2 m c (Proc.devRef .tc main_v1)
    unfold W2
    exact (Function.update_self (Proc.devRef .tc main_v1 : DevRef τ sig) _ (W1 m c)).symm
  | ⟨_ + 5, h⟩ => absurd h (Nat.not_lt.2 (Nat.le_add_left _ _))

/-- Every buffer that is no array of region 1 holds at W2 what it held at W1: W2 updates W1 at the output array only. -/
theorem hrest1 (c : Dev nD) : ∀ b, b ∉ Finset.univ.image (Pipeline.arrRef spec1) → V2 m c b = V1 m c b :=
  fun b hb => Function.update_of_ne (StableHlo.devRef_ne_of_ne fun e =>
    hb (Finset.mem_image.mpr ⟨4, Finset.mem_univ _, e.symm⟩)) _ _

/-! ## The invariant at the last point gives the scoped rest back -/

/-- After any point but the first the invariant gives back the generator register and the scoped rest: the
    accumulator scratch's named contents are forgotten, the scoped rest being that buffer at some contents beside
    the other scoped buffers. -/
theorem Phi1_out (V : (c : Dev nD) → (b : Ref sig .tc) → Buf (Elt F) ((c : Thread nD τ).loc b)) (c : Dev nD) :
    (n : ℕ) → (h : n ≤ cfg1.N) → n ≠ 0 → Phi1 V c n h
      ⊢ (iprop((∃ r, prngReg c r) ∗ Pipeline.scopedRest spec1 c) : sProp 𝕄)
  | 0, _, hz => absurd rfl hz
  | n + 1, h, _ => by
    show iprop(owns (c : Thread nD τ) (Memref.whole cc1_scratch0) fullShare (acc1 V c n h)
      ∗ Pipeline.scopedRestBut (Ix := Unit) (Name := ℕ) (U := UR sig nD τ) (Lvl := ℕ) (Val := Elt F) spec1 c [cc1_scratch0]
      ∗ ∃ r, prngReg c r) ⊢ _
    rw [scopedRest1_split, owns_whole]
    iintro ⟨HS, Hb, Hr⟩
    isplitl [Hr]; · iexact Hr
    isplitl [HS]; · iexists _; iexact HS
    iexact Hb

/-! ## Entry and exit: the arrays out of the unscoped buffers and back -/

set_option backward.isDefEq.respectTransparency.types false in
/-- ENTRY. The unscoped buffers at W1 are region 1's five arrays at the proof data's entry contents beside the
    unscoped rest; no table is prefetched; the core's owes at nothing are the first tallies'; the generator
    register goes to the invariant. -/
theorem hentry1 (c : Dev nD) :
    iprop(T (W1 m) c ∗ Pipeline.ownSems0 (fun k : PEmpty => k.elim) c ∗ levAts L lv)
      ⊢ |={Set.univ}=> (iprop((pdats m 1 c).arrays ((pdats m 1 c).arrAt · 0)
          ∗ Pipeline.prefHeld (pcfgs (F := F) 1).pre c (fun _ => fullShare) (adm (F := F) 1).1
          ∗ (pdats m 1 c).owesAt () 0 ∗ (∃ r, prngReg c r)
          ∗ Pipeline.unscopedRest (Ix := Unit) (Name := ℕ) (U := UR sig nD τ) (Lvl := ℕ) spec1 c (V1 m c)) : sProp 𝕄) := by
  rw [Pipeline.ownSems0_none]
  have hsplit := Pipeline.arrays_of_unscopedBufs (p := 1) (pcfgs (F := F)) adm (pdats m) launch1.win launch1.arr_whole c
    ((pdats m 1 c).share_full fun _ => rfl) (V1 m c) fun _ => rfl
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr
  · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr
    · ipureintro; exact fun _ _ => Or.inl trivial
    iexact HO
  isplitl [Hp]; · iexact Hp
  iexact Hrest

set_option backward.isDefEq.respectTransparency.types false in
/-- EXIT. The arrays at their final contents beside the unscoped rest at W1 are the unscoped buffers at W2 (hF1,
    hrest1); the last tallies' owes are the core's at nothing; the generator register comes back. -/
theorem hexit1 (c : Dev nD) :
    iprop((pdats m 1 c).arrays ((pdats m 1 c).arrAt · cfg1.N) ∗ (pdats m 1 c).owesAt () (Fin.last cfg1.N)
        ∗ (∃ r, prngReg c r)
        ∗ Pipeline.unscopedRest (Ix := Unit) (Name := ℕ) (U := UR sig nD τ) (Lvl := ℕ) spec1 c (V1 m c))
      ⊢ |={Set.univ}=> (T (W2 m) c : sProp 𝕄) := by
  have hjoin := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (V1 m c) (V2 m c) ((pdats m 1 c).arrAt · cfg1.N) (hF1 m c) (hrest1 m c)
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  icases HO with ⟨%W, -, HO⟩; iexists W; iexact HO

set_option backward.isDefEq.respectTransparency.types false in
/-- The invariant at the last point (the grid has 256 points, so it is past the first) gives back the generator
    register, no semaphore of the kernel's own, and the scoped rest. -/
theorem hout1 (c : Dev nD) : (pdats m 1 c).Φ (Fin.last cfg1.N)
    ⊢ (iprop((∃ r, prngReg c r) ∗ BI.emp ∗ Pipeline.scopedRest spec1 c) : sProp 𝕄) := by
  have h : (pdats m 1 c).Φ (Fin.last cfg1.N) ⊢ (iprop((∃ r, prngReg c r) ∗ Pipeline.scopedRest spec1 c) : sProp 𝕄) :=
    Phi1_out (V1 m) c (Fin.last cfg1.N).val (Nat.le_of_lt_succ (Fin.last cfg1.N).isLt)
      (by show cfg1.N ≠ 0; rw [show cfg1.N = 256 from N_1]; decide)
  iintro H
  ihave H' := h $$ H
  icases H' with ⟨Hr, Hp⟩
  isplitl [Hr]; · iexact Hr
  isplitr; · iempintro
  iexact Hp

/-! ## The region as a segment -/

set_option backward.isDefEq.respectTransparency.types false in
/-- Region 1 entered from every unscoped buffer at W1, left at W2. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := T (W1 m) c
  post c := T (W2 m) c
  X c := iprop(∃ r, prngReg c r)
  Y c := iprop(∃ r, prngReg c r)
  Z c := Pipeline.unscopedRest (Ix := Unit) (Name := ℕ) (U := UR sig nD τ) (Lvl := ℕ) spec1 c (V1 m c)
  hentry c := hentry1 m c
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact hout1 m c
  hexit c := hexit1 m c

theorem reg1_pre (c : Dev nD) : (reg1 m).pre c = T (W1 m) c := rfl
theorem reg1_post (c : Dev nD) : (reg1 m).post c = T (W2 m) c := rfl

end Cert.Kernel.Hand

end
-- ==== Proof.KBody2.lean ====
/-
  Region 2: the kernel body meets its obligation at every grid point.
-/
import proofs.«160379_j10187662426197_1_alg».proof.Proof.KDat2
import Idealize.ShloMosaic.Lib.Tactic
import Idealize.ShloMosaic.Lib.Ring
import Idealize.ShloMosaic.Lib.Pipeline.Value

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Tactic

variable (V : (c : Dev nD) → (b : Ref sig .tc) → Buf (Elt F) ((c : Thread nD τ).loc b))

/-! What the obligation is assembled from: the conditions' closed forms, the kernel's triples, the invariant's forms. -/
namespace Body2
/-! ## The conditions of the body's two conditionals, in closed form over the grid -/

/-- The condition of the body's first conditional (the second grid coordinate is zero), from the grid coordinates. -/
abbrev cond2_0 (i : grid2.Coords) : Prop :=
  (Scalar.cmpi .ne (Scalar.extui (Scalar.cmpi .eq (BitVec.ofNat 32 (i 1).val) 0#32)) 0#32) = 1#1
/-- It holds at the points ≡ 0 (mod 16). -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second conditional (the second grid coordinate is the last). -/
abbrev cond2_1 (i : grid2.Coords) : Prop := k2_cond2 i = 1#1
/-- It holds at the points ≡ 15 (mod 16). -/
theorem hcond2_1 : ∀ t : Fin cfg2.N, cond2_1 (grid2.coords t) ↔ t.val % 16 = 15 :=
  (by decide +kernel : ∀ t : Fin grid2.N, cond2_1 (grid2.coords t) ↔ t.val % 16 = 15)

/-- Where the second condition fails the output window is idle, -/
theorem idleAt2_5 : ∀ t : Fin cfg2.N, ¬cond2_1 (grid2.coords t) → cfg2.idle 5 (grid2.coords t) = true := by decide +kernel
/-- and its block is not written back there; -/
theorem noFlush2_5 : ∀ t : Fin cfg2.N, ¬cond2_1 (grid2.coords t) → (cfg2.win 5).flush t = false := by decide +kernel
/-- where it holds the window is live. -/
theorem liveAt2_5 : ∀ t : Fin cfg2.N, cond2_1 (grid2.coords t) → cfg2.idle 5 (grid2.coords t) = false := by decide +kernel

/-! ## Whole-buffer loads and stores -/

theorem zeros2 : (![0, 0] : Fin 2 → Nat) = fun _ => 0 := funext fun a => by fin_cases a <;> rfl
theorem zeros1 : (![0] : Fin 1 → Nat) = fun _ => 0 := funext fun a => by fin_cases a; rfl

/-- A load through the whole-shape rectangle of a whole buffer owned at contents `X` reads `X`. -/
theorem readAt_whole {S : Shape} {e : EltTy} {m : Memref sig .tc .vmem S e} (h : m.IsWhole) {off : Fin S.rank → Nat}
    (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- A store through the whole-shape rectangle, last, leaves its payload, whatever came before. -/
theorem read_writes_whole {S : Shape} {e : EltTy} (v : View sig .tc .vmem S e) (f : v.ty.Contents (Elt F)) {off : Fin S.rank → Nat}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

/-! ## The kernel's triple, one per control case, over any whole memrefs -/

/-- Neither conditional taken (the second coordinate in 1 … 14): the accumulator takes the accumulate payload over
    what it held; the output's buffer is not touched. -/
theorem kernel2_B (c : Dev nD) (i : grid2.Coords)
    (arg2 : Memref sig .tc .vmem S512x512 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S128x128 .f32) (harg5 : arg5.IsWhole)
    (arg6 : Memref sig .tc .vmem S128 .f32) (harg6 : arg6.IsWhole) (arg7 : Memref sig .tc .vmem S512x128 .f32) (harg7 : arg7.IsWhole)
    (arg8 : Memref sig .tc .vmem S512x128 .f32) (harg8 : arg8.IsWhole) (hc0 : ¬cond2_0 i) (hc1 : ¬cond2_1 i)
    (x0 : Vec F S512x512 .f32) (x1 : Vec F S512x128 .f32) (x3 : Vec F S128x128 .f32) (xs : Vec F S512x128 .f32)
    (E : Set ℕ) (K : PUnit → sProp 𝕄) :
    iprop(owns (c : Thread nD τ) arg2 fullShare x0 ∗ owns (c : Thread nD τ) arg3 fullShare x1 ∗ owns (c : Thread nD τ) arg5 fullShare x3
        ∗ owns (c : Thread nD τ) arg8 fullShare xs
        ∗ (iprop(owns (c : Thread nD τ) arg2 fullShare x0 ∗ owns (c : Thread nD τ) arg3 fullShare x1 ∗ owns (c : Thread nD τ) arg5 fullShare x3
            ∗ owns (c : Thread nD τ) arg8 fullShare (k2_pay2 x1 x3 x0 xs)) -∗ K ⟨⟩))
      ⊢ wp frame (wpE (defs₀ (F := F)) Variants.none c none) E
          (cc2__gc2_kernel i arg2 harg2 arg3 harg3 arg4 harg4 arg5 harg5 arg6 harg6 arg7 harg7 arg8 harg8) K := by
  simp only [cc2__gc2_kernel_eq_skeleton]; unfold cc2__gc2_kernel_skel
  unfold owns
  iintro ⟨⟨%f0, %hf0, H0⟩, ⟨%f1, %hf1, H1⟩, ⟨%f3, %hf3, H3⟩, ⟨%fs, %hfs, HS⟩, Hk⟩
  obtain rfl := harg2.eq_unread hf0; obtain rfl := harg3.eq_unread hf1; obtain rfl := harg5.eq_unread hf3
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; · ipureintro; exact harg5.read_unread _
    iexact H3
  iexists _; isplitr
  swap; · iexact HS
  ipureintro
  rw [read_writes_whole _ _ zeros2, readAt_whole harg3 zeros2, readAt_whole harg5 zeros2, readAt_whole harg2 zeros2,
    readAt_whole harg8 zeros2]

/-- The first conditional taken, the second not (the second coordinate is 0): the accumulator is cleared, then takes
    the accumulate payload over the cleared contents; the output's buffer is not touched. -/
theorem kernel2_A (c : Dev nD) (i : grid2.Coords)
    (arg2 : Memref sig .tc .vmem S512x512 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S128x128 .f32) (harg5 : arg5.IsWhole)
    (arg6 : Memref sig .tc .vmem S128 .f32) (harg6 : arg6.IsWhole) (arg7 : Memref sig .tc .vmem S512x128 .f32) (harg7 : arg7.IsWhole)
    (arg8 : Memref sig .tc .vmem S512x128 .f32) (harg8 : arg8.IsWhole) (hc0 : cond2_0 i) (hc1 : ¬cond2_1 i)
    (x0 : Vec F S512x512 .f32) (x1 : Vec F S512x128 .f32) (x3 : Vec F S128x128 .f32) (xs : Vec F S512x128 .f32)
    (E : Set ℕ) (K : PUnit → sProp 𝕄) :
    iprop(owns (c : Thread nD τ) arg2 fullShare x0 ∗ owns (c : Thread nD τ) arg3 fullShare x1 ∗ owns (c : Thread nD τ) arg5 fullShare x3
        ∗ owns (c : Thread nD τ) arg8 fullShare xs
        ∗ (iprop(owns (c : Thread nD τ) arg2 fullShare x0 ∗ owns (c : Thread nD τ) arg3 fullShare x1 ∗ owns (c : Thread nD τ) arg5 fullShare x3
            ∗ owns (c : Thread nD τ) arg8 fullShare (k2_pay2 x1 x3 x0 k2_pay1)) -∗ K ⟨⟩))
      ⊢ wp frame (wpE (defs₀ (F := F)) Variants.none c none) E
          (cc2__gc2_kernel i arg2 harg2 arg3 harg3 arg4 harg4 arg5 harg5 arg6 harg6 arg7 harg7 arg8 harg8) K := by
  simp only [cc2__gc2_kernel_eq_skeleton]; unfold cc2__gc2_kernel_skel
  unfold owns
  iintro ⟨⟨%f0, %hf0, H0⟩, ⟨%f1, %hf1, H1⟩, ⟨%f3, %hf3, H3⟩, ⟨%fs, %hfs, HS⟩, Hk⟩
  obtain rfl := harg2.eq_unread hf0; obtain rfl := harg3.eq_unread hf1; obtain rfl := harg5.eq_unread hf3
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; · ipureintro; exact harg5.read_unread _
    iexact H3
  iexists _; isplitr
  swap; · iexact HS
  ipureintro
  rw [read_writes_whole _ _ zeros2]
  sl_unfold_run_names
  rw [readAt_whole harg3 zeros2, readAt_whole harg5 zeros2, readAt_whole harg2 zeros2,
    View.readCov_unit_zero (S := S512x128) _ zeros2]

/-- The second conditional taken, the first not (the second coordinate is 15): the accumulator takes the accumulate
    payload over what it held, and the output's buffer ends at the readout payload of the new accumulator, the bias
    block and the row block. -/
theorem kernel2_C (c : Dev nD) (i : grid2.Coords)
    (arg2 : Memref sig .tc .vmem S512x512 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S128x128 .f32) (harg5 : arg5.IsWhole)
    (arg6 : Memref sig .tc .vmem S128 .f32) (harg6 : arg6.IsWhole) (arg7 : Memref sig .tc .vmem S512x128 .f32) (harg7 : arg7.IsWhole)
    (arg8 : Memref sig .tc .vmem S512x128 .f32) (harg8 : arg8.IsWhole) (hc0 : ¬cond2_0 i) (hc1 : cond2_1 i)
    (x0 : Vec F S512x512 .f32) (x1 : Vec F S512x128 .f32) (x2 : Vec F S512x128 .f32) (x3 : Vec F S128x128 .f32)
    (x4 : Vec F S128 .f32) (xo : Vec F S512x128 .f32) (xs : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare (k2_pay3 (k2_pay2 x1 x3 x0 xs) x4 x2)
            ∗ owns (c : Thread nD τ) arg8 fullShare (k2_pay2 x1 x3 x0 xs)) -∗ K ⟨⟩))
      ⊢ wp frame (wpE (defs₀ (F := F)) Variants.none c none) E
          (cc2__gc2_kernel i arg2 harg2 arg3 harg3 arg4 harg4 arg5 harg5 arg6 harg6 arg7 harg7 arg8 harg8) K := by
  simp only [cc2__gc2_kernel_eq_skeleton]; unfold cc2__gc2_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfo
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HO]
  · iexists _; isplitr
    swap; · iexact HO
    ipureintro
    rw [read_writes_whole _ _ zeros2]
    sl_unfold_run_names
    rw [View.readCov_unit_zero (S := S512x128) _ zeros2, readAt_whole harg6 zeros1, readAt_whole harg4 zeros2,
      readAt_whole harg3 zeros2, readAt_whole harg5 zeros2, readAt_whole harg2 zeros2, readAt_whole harg8 zeros2]
  iexists _; isplitr
  swap; · iexact HS
  ipureintro
  sl_unfold_run_names
  rw [read_writes_whole _ _ zeros2, readAt_whole harg3 zeros2, readAt_whole harg5 zeros2, readAt_whole harg2 zeros2,
    readAt_whole harg8 zeros2]

/-! ## The memrefs the body is called with at a point -/

/-- Each window's current staging memref at point `t`, and its wholeness. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x128 .f32 := win2_5.stage (cfg2.slots t 5)
abbrev hs2_5 (t : Fin cfg2.N) : (ms2_5 t).IsWhole := hstage2_5 ((cfg2.slots t 5).cast nbuf2_5)
/-- The accumulator scratch, a whole scoped buffer passed beside the windows. -/
abbrev scM2 : Memref sig .tc .vmem S512x128 .f32 := Memref.whole cc2_scratch0

/-! ## What the body finds in the input windows' buffers: the window's block, fetched at the point or not -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

/-- The input windows are never idle: what the body leaves in them is their block. -/
theorem leaves2_0 (c : Dev nD) (t : Fin cfg2.N) :
    (dat2 V c).leavesExact 0 t = owns (c : Thread nD τ) (ms2_0 t) fullShare (iblk2 V c 0 t) :=
  (show (dat2 V c).leavesExact 0 t = owns (c : Thread nD τ) (ms2_0 t) fullShare ((dat2 V c).after 0 t) from rfl).trans
    (by rw [after2_0])
theorem leaves2_1 (c : Dev nD) (t : Fin cfg2.N) :
    (dat2 V c).leavesExact 1 t = owns (c : Thread nD τ) (ms2_1 t) fullShare (iblk2 V c 1 t) :=
  (show (dat2 V c).leavesExact 1 t = owns (c : Thread nD τ) (ms2_1 t) fullShare ((dat2 V c).after 1 t) from rfl).trans
    (by rw [after2_1])
theorem leaves2_2 (c : Dev nD) (t : Fin cfg2.N) :
    (dat2 V c).leavesExact 2 t = owns (c : Thread nD τ) (ms2_2 t) fullShare (iblk2 V c 2 t) :=
  (show (dat2 V c).leavesExact 2 t = owns (c : Thread nD τ) (ms2_2 t) fullShare ((dat2 V c).after 2 t) from rfl).trans
    (by rw [after2_2])
theorem leaves2_3 (c : Dev nD) (t : Fin cfg2.N) :
    (dat2 V c).leavesExact 3 t = owns (c : Thread nD τ) (ms2_3 t) fullShare (iblk2 V c 3 t) :=
  (show (dat2 V c).leavesExact 3 t = owns (c : Thread nD τ) (ms2_3 t) fullShare ((dat2 V c).after 3 t) from rfl).trans
    (by rw [after2_3])
theorem leaves2_4 (c : Dev nD) (t : Fin cfg2.N) :
    (dat2 V c).leavesExact 4 t = owns (c : Thread nD τ) (ms2_4 t) fullShare (iblk2 V c 4 t) :=
  (show (dat2 V c).leavesExact 4 t = owns (c : Thread nD τ) (ms2_4 t) fullShare ((dat2 V c).after 4 t) from rfl).trans
    (by rw [after2_4])

/-! ## The accumulator, point by point -/

/-- At the start of a grid row the accumulator is the accumulate payload over the cleared contents. -/
theorem acc2_reset (c : Dev nD) (t : Fin cfg2.N) (h : t.val % 16 = 0) :
    acc2 V c t.val t.isLt = k2_pay2 (iblk2 V c 1 t) (iblk2 V c 3 t) (iblk2 V c 0 t) k2_pay1 := by
  obtain ⟨n, hn⟩ := t
  cases n with
  | zero => rfl
  | succ n => (try dsimp only at h); rw [acc2, if_pos h]

/-- Elsewhere it is the accumulate payload over what the point before left. -/
theorem acc2_step (c : Dev nD) (t : Fin cfg2.N) (h : ¬t.val % 16 = 0) :
    acc2 V c t.val t.isLt = k2_pay2 (iblk2 V c 1 t) (iblk2 V c 3 t) (iblk2 V c 0 t)
      (acc2 V c (t.val - 1) (Nat.lt_of_le_of_lt (Nat.sub_le _ _) t.isLt)) := by
  obtain ⟨n, hn⟩ := t
  cases n with
  | zero => exact absurd (Nat.zero_mod _) h
  | succ n => (try dsimp only at h); rw [acc2, if_neg h]; rfl

/-! ## The invariant, opened -/

theorem Phi2_zero (c : Dev nD) (n : ℕ) (h : n ≤ cfg2.N) (hz : n = 0) : Phi2 V c n h = Pipeline.ΦA spec2 c := by
  subst hz; rfl

/-- After point `n`: the scratch at that point's accumulator. -/
theorem Phi2_succ (c : Dev nD) (n : ℕ) (hn : n < cfg2.N) :
    Phi2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ ∃ r, prngReg c r) := rfl

/-- Before a point that is not the first: the scratch at what the point before left. -/
theorem Phi2_pos (c : Dev nD) (n : ℕ) (h : n ≤ cfg2.N) (hz : n ≠ 0) :
    Phi2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]
      ∗ ∃ r, prngReg c r) := by
  cases n with
  | zero => exact absurd rfl hz
  | succ n => rfl

theorem Phi2_castSucc (c : Dev nD) (t : Fin cfg2.N) :
    (dat2 V c).Φ t.castSucc = Phi2 V c t.val (Nat.le_of_lt t.isLt) := rfl

/-- Before the first point: the scratch at some contents, the other scoped buffers unopened, the generator register. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; try rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

/-- The body at any point. The input windows' memrefs hold their blocks; the closed forms of the two conditions say
    which control case the point is in; the invariant hands over the scratch (at anything before the first point, at
    what the point before left afterwards) and takes it back at this point's accumulator; where the second condition
    fails the output window is idle and its buffer is handed back as found, where it holds the buffer ends at the
    readout payload; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, leaves2_3, leaves2_4]
  by_cases h0 : t.val % 16 = 0
  · -- the start of a grid row
    have h1 : ¬t.val % 16 = 15 := by omega
    have hc0 : cond2_0 (grid2.coords t) := (hcond2_0 t).mpr h0
    have hc1 : ¬cond2_1 (grid2.coords t) := fun h => h1 ((hcond2_1 t).mp h)
    rw [Dat.leavesExact_idle (dat2 V c) 5 t (idleAt2_5 t hc1) (noFlush2_5 t hc1)]
    rw [acc2_reset V c t h0]
    by_cases hz : t.val = 0
    · rw [Phi2_castSucc V c t, Phi2_zero V c _ _ hz, PhiA2_eq]
      iintro ⟨⟨⟨⟨%ds, HS⟩, HR⟩, Hg⟩, Ho, ⟨%d0, H0⟩, ⟨%d1, H1⟩, ⟨%d2, H2⟩, ⟨%d3, H3⟩, ⟨%d4, H4⟩, H5⟩
      iapply (kernel2_A c (grid2.coords t) _ _ _ _ _ _ _ _ _ _ _ _ _ _ hc0 hc1 (iblk2 V c 0 t) (iblk2 V c 1 t) (iblk2 V c 3 t) ds Set.univ _)
      isplitl [H0]; · iexact H0
      isplitl [H1]; · iexact H1
      isplitl [H3]; · iexact H3
      isplitl [HS]; · iexact HS
      iintro ⟨H0, H1, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi2_castSucc V c t, Phi2_pos V c _ _ hz]
      iintro ⟨⟨HS, HR, Hg⟩, Ho, ⟨%d0, H0⟩, ⟨%d1, H1⟩, ⟨%d2, H2⟩, ⟨%d3, H3⟩, ⟨%d4, H4⟩, H5⟩
      iapply (kernel2_A c (grid2.coords t) _ _ _ _ _ _ _ _ _ _ _ _ _ _ hc0 hc1 (iblk2 V c 0 t) (iblk2 V c 1 t) (iblk2 V c 3 t) _ Set.univ _)
      isplitl [H0]; · iexact H0
      isplitl [H1]; · iexact H1
      isplitl [H3]; · iexact H3
      isplitl [HS]; · iexact HS
      iintro ⟨H0, H1, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    have hc0 : ¬cond2_0 (grid2.coords t) := fun h => h0 ((hcond2_0 t).mp h)
    rw [Phi2_castSucc V c t, Phi2_pos V c _ _ hz]
    by_cases h1 : t.val % 16 = 15
    · -- the end of a grid row
      have hc1 : cond2_1 (grid2.coords t) := (hcond2_1 t).mpr h1
      rw [show (dat2 V c).leavesExact 5 t = owns (c : Thread nD τ) (ms2_5 t) fullShare ((dat2 V c).after 5 t) from by
        unfold Dat.leavesExact; rw [liveAt2_5 t hc1], after2_5]
      rw [acc2_step V c t h0]
      iintro ⟨⟨HS, HR, Hg⟩, Ho, ⟨%d0, H0⟩, ⟨%d1, H1⟩, ⟨%d2, H2⟩, ⟨%d3, H3⟩, ⟨%d4, H4⟩, ⟨%d5, H5⟩⟩
      iapply (kernel2_C c (grid2.coords t) _ _ _ _ _ _ _ _ _ _ _ _ _ _ hc0 hc1 (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · -- inside a grid row
      have hc1 : ¬cond2_1 (grid2.coords t) := fun h => h1 ((hcond2_1 t).mp h)
      rw [Dat.leavesExact_idle (dat2 V c) 5 t (idleAt2_5 t hc1) (noFlush2_5 t hc1)]
      rw [acc2_step V c t h0]
      iintro ⟨⟨HS, HR, Hg⟩, Ho, ⟨%d0, H0⟩, ⟨%d1, H1⟩, ⟨%d2, H2⟩, ⟨%d3, H3⟩, ⟨%d4, H4⟩, H5⟩
      iapply (kernel2_B c (grid2.coords t) _ _ _ _ _ _ _ _ _ _ _ _ _ _ hc0 hc1 (iblk2 V c 0 t) (iblk2 V c 1 t) (iblk2 V c 3 t) _ Set.univ _)
      isplitl [H0]; · iexact H0
      isplitl [H1]; · iexact H1
      isplitl [H3]; · iexact H3
      isplitl [HS]; · iexact HS
      iintro ⟨H0, H1, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

end Body2

open Body2 in
/-- The library's body obligation for pipeline 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg2.lean ====
/-
  Region 2 as a segment of @main over the thread state.
-/
import proofs.«160379_j10187662426197_1_alg».proof.Proof.KPdats
import proofs.«160379_j10187662426197_1_alg».proof.Proof.KBody2

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The arrays behind region 2's windows

Six windows stand on five distinct arrays: the first layer's result is read through windows 1 and 2, each at half of
the array's share. -/

section Arrays

variable (V : (c : Dev nD) → (b : Ref sig .tc) → Buf (Elt F) ((c : Thread nD τ).loc b))

/-- The distinct buffers behind the windows, one by one, each whole at the full share. -/
private theorem arrBufs2_eq (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      = iprop((((c : Thread nD τ).loc main_v0_0) ↦{fullShare} X main_v0_0) ∗ (((c : Thread nD τ).loc main_v1) ↦{fullShare} X main_v1)
          ∗ (((c : Thread nD τ).loc main_arg10) ↦{fullShare} X main_arg10) ∗ (((c : Thread nD τ).loc main_arg11) ↦{fullShare} X main_arg11)
          ∗ (((c : Thread nD τ).loc main_v2) ↦{fullShare} X main_v2)) := by
  unfold Pipeline.arrBufs
  exact bigSep_eq_bigSepL_of_eq [main_v0_0, main_v1, main_arg10, main_arg11, main_v2] (by decide) (by decide) _

/-- The pipeline's arrays at contents G, window by window: every array is a whole buffer; the two windows on the
    first layer's result hold the left and the right half of its share, every other window the full share. -/
private theorem arrays2_eq (c : Dev nD) (G : (w : Fin cfg2.W) → Buf (Elt F) ((cfg2.win w).arr.view.loc (c : Thread nD τ))) :
    ((dat2 V c).arrays G : sProp 𝕄)
      = iprop((((c : Thread nD τ).loc main_v0_0) ↦{fullShare} G 0) ∗ (((c : Thread nD τ).loc main_v1) ↦{fullShare.left} G 1)
          ∗ (((c : Thread nD τ).loc main_v1) ↦{fullShare.right} G 2) ∗ (((c : Thread nD τ).loc main_arg10) ↦{fullShare} G 3)
          ∗ (((c : Thread nD τ).loc main_arg11) ↦{fullShare} G 4) ∗ (((c : Thread nD τ).loc main_v2) ↦{fullShare} G 5)) := by
  have h : ((dat2 V c).arrays G : sProp 𝕄)
      = bigSep Finset.univ fun w => (((c : Thread nD τ).loc (Pipeline.arrRef spec2 w)) ↦{(dat2 V c).share w} G w : sProp 𝕄) := by
    unfold Dat.arrays
    exact bigSep_congr fun w _ => by rw [(arr_whole2 w).set_eq_univ]
  rw [h, bigSep_W2]
  rfl

/-- ENTRY: the five buffers at V are the pipeline's arrays at its entry contents, the shared array's points-to split
    in its two halves. -/
private theorem arrays_entry2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrBufs2_eq, arrays2_eq]
  iintro ⟨H0, H1, H3, H4, H5⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H3]; · iexact H3
  isplitl [H4]; · iexact H4
  iexact H5

end Arrays

section Exit

variable (V : (c : Dev nD) → (b : Ref sig .tc) → Buf (Elt F) ((c : Thread nD τ).loc b))

/-- EXIT: the pipeline's arrays at contents G are the five buffers at any valuation that has them at G; the two halves
    of the shared array, at the same contents, join into its full share. -/
private theorem arrays_join2 (c : Dev nD) (G : (w : Fin cfg2.W) → Buf (Elt F) ((cfg2.win w).arr.view.loc (c : Thread nD τ)))
    (X : (b : Ref sig .tc) → Buf (Elt F) ((c : Thread nD τ).loc b))
    (h0 : G 0 = X main_v0_0) (h1 : G 1 = X main_v1) (h2 : G 2 = X main_v1) (h3 : G 3 = X main_arg10)
    (h4 : G 4 = X main_arg11) (h5 : G 5 = X main_v2) :
    ((dat2 V c).arrays G : sProp 𝕄)
      ⊢ Pipeline.arrBufs (Ix := Unit) (Name := ℕ) (U := UR sig nD τ) (Lvl := ℕ) spec2 c X := by
  rw [arrBufs2_eq, arrays2_eq, h0, h1, h2, h3, h4, h5]
  iintro ⟨H0, H1l, H1r, H3, H4, H5⟩
  isplitl [H0]; · iexact H0
  isplitl [H1l H1r]
  · iapply (pointsTo_share (PosShare.mem_left_op_right fullShare)).2
    isplitl [H1l]; · iexact H1l
    iexact H1r
  isplitl [H3]; · iexact H3
  isplitl [H4]; · iexact H4
  iexact H5

/-- An input window's array is never written: at every point it holds its entry contents, read off V. -/
private theorem arrAt2_in (c : Dev nD) (w : Fin cfg2.W) (hin : (cfg2.win w).isOut = false) (t : ℕ) :
    (dat2 V c).arrAt w t = V c (Pipeline.arrRef spec2 w) :=
  (Dat.arrAt_in (dat2 V c) w hin t).trans (A_eq2 V c w)

end Exit

variable (m : (ℓ : Loc nD τ sig) → Buf (Elt F) ℓ)

/-- The contents after region 2 differ from those before it at the output array only. -/
private theorem V3_of_ne (c : Dev nD) (b : Ref sig .tc) (h : b ≠ main_v2) : V3 m c b = V2 m c b := by
  show W3 m c _ = W2 m c _
  unfold W3
  exact Function.update_of_ne (StableHlo.devRef_ne_of_ne h) _ _
private theorem V3_out (c : Dev nD) : V3 m c main_v2 = (dat2 (V2 m) c).arrAt 5 cfg2.N := by
  show W3 m c _ = _
  unfold W3
  exact Function.update_self _ _ _

/-- EXIT, the buffers' part: the arrays as the pipeline leaves them and the unscoped rest as entered are every unscoped
    buffer held at the contents after the region. -/
private theorem held_exit2 (c : Dev nD) :
    iprop((dat2 (V2 m) c).arrays ((dat2 (V2 m) c).arrAt · cfg2.N)
        ∗ Pipeline.unscopedRest (Ix := Unit) (Name := ℕ) (U := UR sig nD τ) (Lvl := ℕ) spec2 c (V2 m c))
      ⊢ (StableHlo.held (c : Thread nD τ) (Pipeline.ucRefs τ sig) (W3 m c) : sProp 𝕄) := by
  rw [← Pipeline.unscopedBufs_held,
    show (unscopedBufs (Ix := Unit) (Name := ℕ) (U := UR sig nD τ) (Lvl := ℕ) c (V3 m c) : sProp 𝕄)
      = iprop(Pipeline.arrBufs spec2 c (V3 m c) ∗ Pipeline.unscopedRest spec2 c (V3 m c))
      from Pipeline.unscopedBufs_split₀ cfgs 2 winFacts₀2.arr_unscoped c (V3 m c)]
  refine sep_mono (arrays_join2 (V2 m) c _ (V3 m c) ?_ ?_ ?_ ?_ ?_ ?_) (Entails.of_eq ?_)
  · exact (arrAt2_in (V2 m) c 0 rfl _).trans (V3_of_ne m c main_v0_0 (by decide)).symm
  · exact (arrAt2_in (V2 m) c 1 rfl _).trans (V3_of_ne m c main_v1 (by decide)).symm
  · exact (arrAt2_in (V2 m) c 2 rfl _).trans (V3_of_ne m c main_v1 (by decide)).symm
  · exact (arrAt2_in (V2 m) c 3 rfl _).trans (V3_of_ne m c main_arg10 (by decide)).symm
  · exact (arrAt2_in (V2 m) c 4 rfl _).trans (V3_of_ne m c main_arg11 (by decide)).symm
  · exact (V3_out m c).symm
  · unfold Pipeline.unscopedRest
    exact bigSep_congr fun b hb => by
      rw [V3_of_ne m c b fun e => (Finset.mem_sdiff.mp hb).2 (Finset.mem_image.mpr ⟨5, Finset.mem_univ _, e.symm⟩)]

/-- ENTRY, the buffers' part: every unscoped buffer held at the contents before the region is the pipeline's arrays at
    its entry contents and the unscoped rest. -/
private theorem held_entry2 (c : Dev nD) :
    (StableHlo.held (c : Thread nD τ) (Pipeline.ucRefs τ sig) (W2 m c) : sProp 𝕄)
      ⊢ iprop((dat2 (V2 m) c).arrays ((dat2 (V2 m) c).arrAt · 0)
        ∗ Pipeline.unscopedRest (Ix := Unit) (Name := ℕ) (U := UR sig nD τ) (Lvl := ℕ) spec2 c (V2 m c)) := by
  rw [← Pipeline.unscopedBufs_held,
    show (unscopedBufs (Ix := Unit) (Name := ℕ) (U := UR sig nD τ) (Lvl := ℕ) c (V2 m c) : sProp 𝕄)
      = iprop(Pipeline.arrBufs spec2 c (V2 m c) ∗ Pipeline.unscopedRest spec2 c (V2 m c))
      from Pipeline.unscopedBufs_split₀ cfgs 2 winFacts₀2.arr_unscoped c (V2 m c)]
  exact sep_mono (arrays_entry2 (V2 m) c) .rfl

/-- After any point the body's invariant holds the accumulator scratch at some contents, beside the other scoped
    buffers and the generator register. -/
private theorem Phi2_pos (V : (c : Dev nD) → (b : Ref sig .tc) → Buf (Elt F) ((c : Thread nD τ).loc b)) (c : Dev nD) :
    ∀ (n : ℕ) (hn : n ≤ cfg2.N), n ≠ 0 → Phi2 V c n hn
      ⊢ iprop((∃ f : Buf (Elt F) ((c : Thread nD τ).loc cc2_scratch0), ((c : Thread nD τ).loc cc2_scratch0) ↦{fullShare} f)
        ∗ Pipeline.scopedRestBut (Ix := Unit) (Name := ℕ) (U := UR sig nD τ) (Lvl := ℕ) (Val := Elt F) spec2 c [cc2_scratch0]
        ∗ ∃ r, prngReg c r)
  | 0, _, h => absurd rfl h
  | n + 1, hn, _ => by
    show iprop(owns (c : Thread nD τ) (Memref.whole cc2_scratch0) fullShare (acc2 V c n hn)
      ∗ Pipeline.scopedRestBut (Ix := Unit) (Name := ℕ) (U := UR sig nD τ) (Lvl := ℕ) (Val := Elt F) spec2 c [cc2_scratch0]
      ∗ ∃ r, prngReg c r) ⊢ _
    rw [owns_whole]
    iintro ⟨Hs, Hrest, Hr⟩
    isplitl [Hs]; · iexists _; iexact Hs
    isplitl [Hrest]; · iexact Hrest
    iexact Hr

set_option backward.isDefEq.respectTransparency.types false in
/-- Region 2 entered from every unscoped buffer at W2, left at W3. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V2 m) c).loose
  hwaits := Pipeline.hwaits_of_owed_zero _ _ _ _ L lv 2 fun _ _ => rfl
  pre c := T (W2 m) c
  post c := T (W3 m) c
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := held_entry2 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ _ from Phi2_pos (V2 m) c cfg2.N (Nat.le_refl _)
      (fun h => by have h2 : grid2.N = 256 := N_2; have h3 : grid2.N = 0 := h; omega)).trans ?_
    show _ ⊢ iprop((∃ r, prngReg c r) ∗ BI.emp ∗ Pipeline.scopedRest (Ix := Unit) (Name := ℕ) (U := UR sig nD τ) (Lvl := ℕ) (Val := Elt F) spec2 c)
    rw [scopedRest2_split]
    iintro ⟨Hs, Hrest, Hr⟩
    isplitl [Hr]; · iexact Hr
    isplitr; · iempintro
    isplitl [Hs]; · iexact Hs
    iexact Hrest
  hexit c := by
    have hjoin := held_exit2 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

theorem reg2_pre (c : Dev nD) : (reg2 m).pre c = T (W2 m) c := rfl
theorem reg2_post (c : Dev nD) : (reg2 m).post c = T (W3 m) c := rfl

end Cert.Kernel.Hand

end
-- ==== Proof.KRun.lean ====
/-
  The run of @main: the three regions composed, every unscoped buffer read at the end.
-/
import proofs.«160379_j10187662426197_1_alg».proof.Proof.KReg0
import proofs.«160379_j10187662426197_1_alg».proof.Proof.KReg1
import proofs.«160379_j10187662426197_1_alg».proof.Proof.KReg2

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state without the owes: every unscoped buffer at W3, the generator register at some state. -/
private abbrev Tₙ (c : Dev nD) : sProp 𝕄 := iprop(StableHlo.held (c : Thread nD τ) (Pipeline.ucRefs τ sig) (W3 m c) ∗ ∃ r, prngReg c r)

/-- @main's three segments in order: a region per custom call, no host operation between them. -/
private abbrev segs : List (Seg (pcfgs (F := F)) adm (pdats m) () defs₀ 𝒱₀ L lv) :=
  [ .region (reg0 m), .region (reg1 m), .region (reg2 m) ]

/-- The thread states chain: each region is entered from the boundary contents the one before it left, and the last
    boundary's state is the last thread state beside the core owing nothing (separating conjunction reassociated). -/
private theorem chains : Seg.Chains (T (W0 m)) (segs m)
    fun c => iprop(Tₙ m c ∗ ∃ W, owes (c : Thread nD τ) (0 : CellTallies nD τ sig Unit) W) := by
  refine ⟨fun c => ?_, fun c => ?_, fun c => ?_, fun c => ?_⟩
  · show T (W0 m) c ⊢ (reg0 m).pre c
    rw [reg0_pre]
  · show (reg0 m).post c ⊢ (reg1 m).pre c
    rw [reg0_post, reg1_pre]
  · show (reg1 m).post c ⊢ (reg2 m).pre c
    rw [reg1_post, reg2_pre]
  · show (reg2 m).post c ⊢ iprop(Tₙ m c ∗ ∃ W, owes (c : Thread nD τ) (0 : CellTallies nD τ sig Unit) W)
    rw [reg2_post]
    iintro ⟨Hh, Hp, HO⟩
    isplitl [Hh Hp]
    · isplitl [Hh] <;> iassumption
    iexact HO

set_option backward.isDefEq.respectTransparency.types false in
/-- Every weakly fair execution of @main terminates, nothing faulting, with every unscoped buffer of every core at W3. -/
theorem run_all : θ_run (defs (F := F)) (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) (reg2 m) c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    (hch := chains m)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun _ h => h)

end Cert.Kernel.Hand

end
-- ==== Proof.KBounds.lean ====
/-
  The boundary contents read at one array: a region's output array holds what that region's write-backs leave,
  every other array what it held at the boundary before; in particular no region writes an argument array.
-/
import proofs.«160379_j10187662426197_1_alg».proof.Proof.KPdats

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (c : Dev nD)

/-! ## After region 0 -/

theorem V1_v0_0 : V1 m c main_v0_0 = (dat0 (V0 m) c).arrAt 10 cfg0.N := by
  show W1 m c (Proc.devRef .tc main_v0_0) = _
  unfold W1
  rw [Function.update_of_ne (StableHlo.devRef_ne_of_ne (by decide) : (Proc.devRef .tc main_v0_0 : DevRef τ sig) ≠ Proc.devRef .tc main_v0_3), Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1), Function.update_self]
theorem V1_v0_1 : V1 m c main_v0_1 = (dat0 (V0 m) c).arrAt 11 cfg0.N := by
  show W1 m c (Proc.devRef .tc main_v0_1) = _
  unfold W1
  rw [Function.update_of_ne (StableHlo.devRef_ne_of_ne (by decide) : (Proc.devRef .tc main_v0_1 : DevRef τ sig) ≠ Proc.devRef .tc main_v0_3), Function.update_of_ne (StableHlo.devRef_ne_of_ne (by decide) : (Proc.devRef .tc main_v0_1 : DevRef τ sig) ≠ Proc.devRef .tc main_v0_2), Function.update_self]
theorem V1_v0_2 : V1 m c main_v0_2 = (dat0 (V0 m) c).arrAt 12 cfg0.N := by
  show W1 m c (Proc.devRef .tc main_v0_2) = _
  unfold W1
  rw [Function.update_of_ne (StableHlo.devRef_ne_of_ne (by decide) : (Proc.devRef .tc main_v0_2 : DevRef τ sig) ≠ Proc.devRef .tc main_v0_3), Function.update_self]
theorem V1_v0_3 : V1 m c main_v0_3 = (dat0 (V0 m) c).arrAt 13 cfg0.N := by
  show W1 m c (Proc.devRef .tc main_v0_3) = _
  unfold W1
  rw [Function.update_self]
/-- Region 0 changes no array but its four outputs. -/
theorem V1_of (r : Ref sig .tc) (h0 : r ≠ main_v0_0) (h1 : r ≠ main_v0_1) (h2 : r ≠ main_v0_2) (h3 : r ≠ main_v0_3) :
    V1 m c r = V0 m c r := by
  show W1 m c (Proc.devRef .tc r) = W0 m c (Proc.devRef .tc r)
  unfold W1
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]

/-! ## After region 1 -/

theorem V2_v1 : V2 m c main_v1 = (dat1 (V1 m) c).arrAt 4 cfg1.N := by
  show W2 m c (Proc.devRef .tc main_v1) = _
  unfold W2
  rw [Function.update_self]
/-- Region 1 changes no array but its output. -/
theorem V2_of (r : Ref sig .tc) (h : r ≠ main_v1) : V2 m c r = V1 m c r := by
  show W2 m c (Proc.devRef .tc r) = W1 m c (Proc.devRef .tc r)
  unfold W2
  rw [Function.update_of_ne (StableHlo.devRef_ne_of_ne h)]

/-! ## After region 2 -/

theorem V3_v2 : V3 m c main_v2 = (dat2 (V2 m) c).arrAt 5 cfg2.N := by
  show W3 m c (Proc.devRef .tc main_v2) = _
  unfold W3
  rw [Function.update_self]
/-- Region 2 changes no array but its output. -/
theorem V3_of (r : Ref sig .tc) (h : r ≠ main_v2) : V3 m c r = V2 m c r := by
  show W3 m c (Proc.devRef .tc r) = W2 m c (Proc.devRef .tc r)
  unfold W3
  rw [Function.update_of_ne (StableHlo.devRef_ne_of_ne h)]

/-- No region writes an array other than the six results: such an array ends as launched. -/
theorem arg_eq (r : Ref sig .tc) (h0 : r ≠ main_v0_0) (h1 : r ≠ main_v0_1) (h2 : r ≠ main_v0_2) (h3 : r ≠ main_v0_3)
    (h4 : r ≠ main_v1) (h5 : r ≠ main_v2) : V3 m c r = V0 m c r := by
  rw [V3_of m c r h5, V2_of m c r h4, V1_of m c r h0 h1 h2 h3]

end Cert.Kernel.Hand

end
-- ==== Proof.KFrame.lean ====
/-
  The frame: every weakly fair execution of @main terminates, nothing faulting, and every argument array ends as
  launched — the run over the three regions, read at the twelve arguments, none of which a region writes.
-/
import proofs.«160379_j10187662426197_1_alg».proof.Proof.KRun
import proofs.«160379_j10187662426197_1_alg».proof.Proof.KBounds

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame claim, at any float instance. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := F)) _ _).mono (fun r h c =>
    ⟨(h c _ (mem_uc main_arg0 (by decide))).trans (arg_eq m c main_arg0 (by decide) (by decide) (by decide) (by decide) (by decide) (by decide)),
     (h c _ (mem_uc main_arg1 (by decide))).trans (arg_eq m c main_arg1 (by decide) (by decide) (by decide) (by decide) (by decide) (by decide)),
     (h c _ (mem_uc main_arg2 (by decide))).trans (arg_eq m c main_arg2 (by decide) (by decide) (by decide) (by decide) (by decide) (by decide)),
     (h c _ (mem_uc main_arg3 (by decide))).trans (arg_eq m c main_arg3 (by decide) (by decide) (by decide) (by decide) (by decide) (by decide)),
     (h c _ (mem_uc main_arg4 (by decide))).trans (arg_eq m c main_arg4 (by decide) (by decide) (by decide) (by decide) (by decide) (by decide)),
     (h c _ (mem_uc main_arg5 (by decide))).trans (arg_eq m c main_arg5 (by decide) (by decide) (by decide) (by decide) (by decide) (by decide)),
     (h c _ (mem_uc main_arg6 (by decide))).trans (arg_eq m c main_arg6 (by decide) (by decide) (by decide) (by decide) (by decide) (by decide)),
     (h c _ (mem_uc main_arg7 (by decide))).trans (arg_eq m c main_arg7 (by decide) (by decide) (by decide) (by decide) (by decide) (by decide)),
     (h c _ (mem_uc main_arg8 (by decide))).trans (arg_eq m c main_arg8 (by decide) (by decide) (by decide) (by decide) (by decide) (by decide)),
     (h c _ (mem_uc main_arg9 (by decide))).trans (arg_eq m c main_arg9 (by decide) (by decide) (by decide) (by decide) (by decide) (by decide)),
     (h c _ (mem_uc main_arg10 (by decide))).trans (arg_eq m c main_arg10 (by decide) (by decide) (by decide) (by decide) (by decide) (by decide)),
     (h c _ (mem_uc main_arg11 (by decide))).trans (arg_eq m c main_arg11 (by decide) (by decide) (by decide) (by decide) (by decide) (by decide))⟩)
    (run_all m ρ)

end Cert.Kernel.Hand

end
-- ==== Proof.Dat0.lean ====
/-
  Region 0 of @main (the merged adjacency and the three token features) as a pipeline: its proof data at a
  region-entry valuation V.

  At grid point (i, j) the body stores into the adjacency block (i, j) the weighted sum of the three relation
  blocks (i, j) plus the transpose of the weighted sum of their blocks (j, i), and adds A_r[i,j] · token_r[j] to
  the three 512×10 output blocks i, after clearing them when j = 0; those blocks stay in their staging buffers
  over a grid row and are written back at j = 15. Each relation matrix is read through two windows (its block
  (i, j) and its block (j, i)); each holds half of the array's share.
-/
import proofs.«160379_j10187662426197_1_alg».proof.Proof.Gen.KernelIdeal.Launch
import proofs.«160379_j10187662426197_1_alg».proof.Proof.Gen.KernelIdeal.Skeleton
import proofs.«160379_j10187662426197_1_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Output window 11 (the first token feature's block) after point n: the accumulate payload of the relation block
    and the token block at n over the zero payload at the start of a grid row, over what point n - 1 left otherwise. -/
def f0_11 (c : Dev nD) : (n : ℕ) → n < cfg0.N → Vec F S512x10 .f32
  | 0, h => k0_pay1 (iblk0 V c 0 ⟨0, h⟩) (iblk0 V c 6 ⟨0, h⟩) k0_pay4
  | n + 1, h => k0_pay1 (iblk0 V c 0 ⟨n + 1, h⟩) (iblk0 V c 6 ⟨n + 1, h⟩)
      (if (n + 1) % 16 = 0 then k0_pay4 else f0_11 c n (Nat.lt_of_succ_lt h))
/-- Output window 12 after point n, likewise. -/
def f0_12 (c : Dev nD) : (n : ℕ) → n < cfg0.N → Vec F S512x10 .f32
  | 0, h => k0_pay2 (iblk0 V c 1 ⟨0, h⟩) (iblk0 V c 7 ⟨0, h⟩) k0_pay5
  | n + 1, h => k0_pay2 (iblk0 V c 1 ⟨n + 1, h⟩) (iblk0 V c 7 ⟨n + 1, h⟩)
      (if (n + 1) % 16 = 0 then k0_pay5 else f0_12 c n (Nat.lt_of_succ_lt h))
/-- Output window 13 after point n, likewise. -/
def f0_13 (c : Dev nD) : (n : ℕ) → n < cfg0.N → Vec F S512x10 .f32
  | 0, h => k0_pay3 (iblk0 V c 2 ⟨0, h⟩) (iblk0 V c 8 ⟨0, h⟩) k0_pay6
  | n + 1, h => k0_pay3 (iblk0 V c 2 ⟨n + 1, h⟩) (iblk0 V c 8 ⟨n + 1, h⟩)
      (if (n + 1) % 16 = 0 then k0_pay6 else f0_13 c n (Nat.lt_of_succ_lt h))

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => k0_pay7 (iblk0 V c 9 t) (iblk0 V c 0 t) (iblk0 V c 1 t) (iblk0 V c 2 t) (iblk0 V c 3 t) (iblk0 V c 4 t) (iblk0 V c 5 t)
    | ⟨11, _⟩ => f0_11 V c t.val t.isLt
    | ⟨12, _⟩ => f0_12 V c t.val t.isLt
    | ⟨13, _⟩ => f0_13 V c t.val t.isLt
  Φ _ := Pipeline.ΦA spec0 c
  q w := match w with
    | ⟨0, _⟩ => fullShare.left
    | ⟨1, _⟩ => fullShare.left
    | ⟨2, _⟩ => fullShare.left
    | ⟨3, _⟩ => fullShare.right
    | ⟨4, _⟩ => fullShare.right
    | ⟨5, _⟩ => fullShare.right
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t
    = k0_pay7 (iblk0 V c 9 t) (iblk0 V c 0 t) (iblk0 V c 1 t) (iblk0 V c 2 t) (iblk0 V c 3 t) (iblk0 V c 4 t) (iblk0 V c 5 t) := by dsimp only [dat0]
theorem after0_11 (c : Dev nD) (t : Fin cfg0.N) : (dat0 V c).after 11 t = f0_11 V c t.val t.isLt := by dsimp only [dat0]
theorem after0_12 (c : Dev nD) (t : Fin cfg0.N) : (dat0 V c).after 12 t = f0_12 V c t.val t.isLt := by dsimp only [dat0]
theorem after0_13 (c : Dev nD) (t : Fin cfg0.N) : (dat0 V c).after 13 t = f0_13 V c t.val t.isLt := by dsimp only [dat0]
theorem Phi0_eq (c : Dev nD) (t : Fin (cfg0.N + 1)) : (dat0 V c).Φ t = Pipeline.ΦA spec0 c := rfl

end Cert.KernelIdeal.Hand

end
-- ==== Proof.Dat1.lean ====
/-
  Region 1 of @main (the first graph-convolution layer) as a pipeline: its proof data at a region-entry valuation V.

  At grid point (i, k) the body adds adj[i,k] · (feature[k] · W1) to a 512×128 accumulator kept in a scratch
  buffer, after clearing it when k = 0, and when k = 15 stores accumulator + bias into the output block i.
  So the scratch after point n is one application of the body's accumulate payload to the blocks at n over
  what the point before left (or over the zero payload where n starts a row of the grid), and the output
  block written back at k = 15 is the bias payload of that accumulator.
-/
import proofs.«160379_j10187662426197_1_alg».proof.Proof.Gen.KernelIdeal.Launch
import proofs.«160379_j10187662426197_1_alg».proof.Proof.Gen.KernelIdeal.Skeleton
import proofs.«160379_j10187662426197_1_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch after point n: the accumulate payload of the feature, weight and adjacency blocks at n
    over the zero payload at the start of a grid row (n ≡ 0 mod 16), over what point n - 1 left otherwise. -/
def acc1 (c : Dev nD) : (n : ℕ) → n < cfg1.N → Vec F S512x128 .f32
  | 0, h => k1_pay2 (iblk1 V c 1 ⟨0, h⟩) (iblk1 V c 2 ⟨0, h⟩) (iblk1 V c 0 ⟨0, h⟩) k1_pay1
  | n + 1, h => k1_pay2 (iblk1 V c 1 ⟨n + 1, h⟩) (iblk1 V c 2 ⟨n + 1, h⟩) (iblk1 V c 0 ⟨n + 1, h⟩)
      (if (n + 1) % 16 = 0 then k1_pay1 else acc1 c n (Nat.lt_of_succ_lt h))

/-- The body's invariant before point n: at the first point the scoped rest at anything; afterwards the scratch at
    the accumulator point n - 1 left, the other scoped buffers at anything; the generator register throughout. -/
def Phi1 (c : Dev nD) : (n : ℕ) → n ≤ cfg1.N → sProp 𝕄
  | 0, _ => Pipeline.ΦA spec1 c
  | n + 1, hn => iprop(owns (c : Thread nD τ) (Memref.whole cc1_scratch0) fullShare (acc1 V c n hn)
      ∗ Pipeline.scopedRestBut (Ix := Unit) (Name := ℕ) (U := UR sig nD τ) (Lvl := ℕ) (Val := Elt F) spec1 c [cc1_scratch0]
      ∗ ∃ r, prngReg c r)

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 3 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (acc1 V c t.val t.isLt) (iblk1 V c 3 t) := by dsimp only [dat1]
theorem Phi1_eq (c : Dev nD) (t : Fin (cfg1.N + 1)) : (dat1 V c).Φ t = Phi1 V c t.val (Nat.le_of_lt_succ t.isLt) := rfl

end Cert.KernelIdeal.Hand

end
-- ==== Proof.Dat2.lean ====
/-
  Region 2 of @main (the second graph-convolution layer and the readout) as a pipeline: its proof data at a
  region-entry valuation V.

  At grid point (i, k) the body adds adj[i,k] · (U1[k] · W2) to a 512×128 accumulator kept in a scratch buffer,
  after clearing it when k = 0, and when k = 15 stores (U1[i] + (accumulator + bias)) · ½ into the output block i.
  The first layer's result U1 is read through two windows (its block k and its block i); each holds half of the
  array's share.
-/
import proofs.«160379_j10187662426197_1_alg».proof.Proof.Gen.KernelIdeal.Launch
import proofs.«160379_j10187662426197_1_alg».proof.Proof.Gen.KernelIdeal.Skeleton
import proofs.«160379_j10187662426197_1_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator scratch after point n: the accumulate payload of the U1 (block k), weight and adjacency blocks
    at n over the zero payload at the start of a grid row (n ≡ 0 mod 16), over what point n - 1 left otherwise. -/
def acc2 (c : Dev nD) : (n : ℕ) → n < cfg2.N → Vec F S512x128 .f32
  | 0, h => k2_pay2 (iblk2 V c 1 ⟨0, h⟩) (iblk2 V c 3 ⟨0, h⟩) (iblk2 V c 0 ⟨0, h⟩) k2_pay1
  | n + 1, h => k2_pay2 (iblk2 V c 1 ⟨n + 1, h⟩) (iblk2 V c 3 ⟨n + 1, h⟩) (iblk2 V c 0 ⟨n + 1, h⟩)
      (if (n + 1) % 16 = 0 then k2_pay1 else acc2 c n (Nat.lt_of_succ_lt h))

/-- The body's invariant before point n: at the first point the scoped rest at anything; afterwards the scratch at
    the accumulator point n - 1 left, the other scoped buffers at anything; the generator register throughout. -/
def Phi2 (c : Dev nD) : (n : ℕ) → n ≤ cfg2.N → sProp 𝕄
  | 0, _ => Pipeline.ΦA spec2 c
  | n + 1, hn => iprop(owns (c : Thread nD τ) (Memref.whole cc2_scratch0) fullShare (acc2 V c n hn)
      ∗ Pipeline.scopedRestBut (Ix := Unit) (Name := ℕ) (U := UR sig nD τ) (Lvl := ℕ) (Val := Elt F) spec2 c [cc2_scratch0]
      ∗ ∃ r, prngReg c r)

/-- The proof data of pipeline 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (acc2 V c t.val t.isLt) (iblk2 V c 4 t) (iblk2 V c 2 t)
  Φ t := Phi2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = k2_pay3 (acc2 V c t.val t.isLt) (iblk2 V c 4 t) (iblk2 V c 2 t) := by dsimp only [dat2]
theorem Phi2_eq (c : Dev nD) (t : Fin (cfg2.N + 1)) : (dat2 V c).Φ t = Phi2 V c t.val (Nat.le_of_lt_succ t.isLt) := rfl

end Cert.KernelIdeal.Hand

end
-- ==== Proof.Pdats.lean ====
/-
  The run of @main as three kernel regions in a row: the unscoped buffers' contents at each boundary, every
  pipeline's proof data at its region's entry contents, and the thread state that rides between the regions.

  No host operation stands between the regions, so a boundary's contents are the previous boundary's with the
  previous region's output arrays replaced by what its write-backs leave.
-/
import proofs.«160379_j10187662426197_1_alg».proof.Proof.Dat0
import proofs.«160379_j10187662426197_1_alg».proof.Proof.Dat1
import proofs.«160379_j10187662426197_1_alg».proof.Proof.Dat2
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core c's unscoped buffers at launch. -/
abbrev W0 : Dev nD → Valuation τ sig (Elt F) := fun c b => m (c, b)
/-- The same read at the TensorCore's references (what region 0's proof data take). -/
abbrev V0 : (c : Dev nD) → (b : Ref sig .tc) → Buf (Elt F) ((c : Thread nD τ).loc b) := fun c b => W0 m c b

/-- After region 0: its four output arrays at what its write-backs leave, every other buffer as launched. -/
def W1 (c : Dev nD) : Valuation τ sig (Elt F) :=
  Function.update (Function.update (Function.update (Function.update (W0 m c)
    main_v0_0 ((dat0 (V0 m) c).arrAt 10 cfg0.N)) main_v0_1 ((dat0 (V0 m) c).arrAt 11 cfg0.N))
    main_v0_2 ((dat0 (V0 m) c).arrAt 12 cfg0.N)) main_v0_3 ((dat0 (V0 m) c).arrAt 13 cfg0.N)
abbrev V1 : (c : Dev nD) → (b : Ref sig .tc) → Buf (Elt F) ((c : Thread nD τ).loc b) := fun c b => W1 m c b

/-- After region 1: its output array at what its write-backs leave. -/
def W2 (c : Dev nD) : Valuation τ sig (Elt F) :=
  Function.update (W1 m c) main_v1 ((dat1 (V1 m) c).arrAt 4 cfg1.N)
abbrev V2 : (c : Dev nD) → (b : Ref sig .tc) → Buf (Elt F) ((c : Thread nD τ).loc b) := fun c b => W2 m c b

/-- After region 2: its output array at what its write-backs leave. -/
def W3 (c : Dev nD) : Valuation τ sig (Elt F) :=
  Function.update (W2 m c) main_v2 ((dat2 (V2 m) c).arrAt 5 cfg2.N)
abbrev V3 : (c : Dev nD) → (b : Ref sig .tc) → Buf (Elt F) ((c : Thread nD τ).loc b) := fun c b => W3 m c b

/-- No pallas_call has a prefetched table. -/
abbrev adm : (p : Fin 3) → (pcfgs (F := F) p).Adm := fun p => (cfgs p).toPCfg_adm

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the generator register at some state and the core's owes, at nothing. -/
abbrev R (c : Dev nD) : sProp 𝕄 := iprop((∃ r, prngReg c r) ∗ ∃ W, owes (c : Thread nD τ) (0 : CellTallies nD τ sig Unit) W)
/-- The thread state at a boundary whose contents are W: every unscoped buffer held at W, beside R. -/
abbrev T (W : Dev nD → Valuation τ sig (Elt F)) (c : Dev nD) : sProp 𝕄 :=
  iprop(StableHlo.held (c : Thread nD τ) (Pipeline.ucRefs τ sig) (W c) ∗ R c)

end Cert.KernelIdeal.Hand

end
-- ==== Proof.Body0.lean ====
/-
  Region 0: the kernel body meets its obligation at every grid point.
-/
import proofs.«160379_j10187662426197_1_alg».proof.Proof.Dat0
import Idealize.ShloMosaic.Lib.Tactic
import Idealize.ShloMosaic.Lib.Ring
import Idealize.ShloMosaic.Lib.Pipeline.Value

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Tactic

variable (V : (c : Dev nD) → (b : Ref sig .tc) → Buf (Elt F) ((c : Thread nD τ).loc b))

/-! ## Arithmetic and whole-buffer accesses -/

/-- The offsets of a whole-buffer access are zero. -/
theorem hz : (![0, 0] : Fin 2 → Nat) = fun _ => 0 := funext fun a => by fin_cases a <;> rfl

/-- After a last store through the whole buffer, the buffer reads as that store's payload, whatever came before. -/
theorem read_writes_unit_zero {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-! ## The branch of the body -/

/-- The body's branch condition: the second grid coordinate is zero. -/
abbrev cond0 (i : grid0.Coords) : Prop :=
  (Scalar.cmpi .ne (Scalar.extui (Scalar.cmpi .eq (BitVec.ofNat 32 (i 1).val) 0#32)) 0#32) = 1#1

/-- It holds exactly at the first point of each grid row. -/
theorem hcond0 : ∀ t : Fin cfg0.N, cond0 (grid0.coords t) ↔ t.val % 16 = 0 :=
  (by decide +kernel : ∀ t : Fin grid0.N, cond0 (grid0.coords t) ↔ t.val % 16 = 0)

/-! ## What the staging buffers hold when the body runs -/

/-- Each input's staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)

/-- The adjacency output is written back at every point, so its staging buffer holds anything when the body runs. -/
theorem before0_10 (c : Dev nD) (t : Fin cfg0.N) (d) : (dat0 V c).before 10 t d = d :=
  (dat0 V c).before_out_reset 10 rfl t (by
    by_cases h : t.val = 0
    · exact .inl h
    · exact .inr ⟨h, flush0_10 _⟩) d

/-- At the first point of a grid row output window 11's buffer holds anything: the first point of all, or the point
    before wrote the block back. -/
theorem before0_11_A (c : Dev nD) (t : Fin cfg0.N) (h0 : t.val % 16 = 0) (d) : (dat0 V c).before 11 t d = d :=
  (dat0 V c).before_out_reset 11 rfl t (by
    by_cases h : t.val = 0
    · exact .inl h
    · exact .inr ⟨h, (flush0_11 _).mpr (by dsimp only; omega)⟩) d

/-- Elsewhere in a grid row it holds what the body left at the point before: the block is not written back between. -/
theorem before0_11_B (c : Dev nD) (t : Fin cfg0.N) (h0 : ¬t.val % 16 = 0) (d) :
    (dat0 V c).before 11 t d = f0_11 V c (t.val - 1) (Nat.lt_of_le_of_lt (Nat.sub_le _ _) t.isLt) := by
  rw [Dat.before_out_kept _ 11 rfl t (by omega) (Bool.eq_false_iff.mpr fun h => by have := (flush0_11 _).mp h; dsimp only at this; omega)
    (fun _ => rfl) (fun _ _ => rfl)]
  exact after0_11 V c _

/-- The accumulation's closed form at the first point of a grid row: over the zero block. -/
theorem f0_11_A (c : Dev nD) (t : Fin cfg0.N) (h0 : t.val % 16 = 0) :
    f0_11 V c t.val t.isLt = k0_pay1 (iblk0 V c 0 t) (iblk0 V c 6 t) k0_pay4 := by
  obtain ⟨n, hn⟩ := t
  cases n with
  | zero => rfl
  | succ n =>
    show k0_pay1 _ _ (if (n + 1) % 16 = 0 then k0_pay4 else _) = _
    rw [if_pos h0]

/-- and elsewhere: over what the point before left. -/
theorem f0_11_B (c : Dev nD) (t : Fin cfg0.N) (h0 : ¬t.val % 16 = 0) :
    f0_11 V c t.val t.isLt = k0_pay1 (iblk0 V c 0 t) (iblk0 V c 6 t) (f0_11 V c (t.val - 1) (Nat.lt_of_le_of_lt (Nat.sub_le _ _) t.isLt)) := by
  obtain ⟨n, hn⟩ := t
  cases n with
  | zero => exact absurd (Nat.zero_mod _) h0
  | succ n =>
    show k0_pay1 _ _ (if (n + 1) % 16 = 0 then k0_pay4 else _) = _
    rw [if_neg h0]; rfl

/-- At the first point of a grid row output window 12's buffer holds anything: the first point of all, or the point
    before wrote the block back. -/
theorem before0_12_A (c : Dev nD) (t : Fin cfg0.N) (h0 : t.val % 16 = 0) (d) : (dat0 V c).before 12 t d = d :=
  (dat0 V c).before_out_reset 12 rfl t (by
    by_cases h : t.val = 0
    · exact .inl h
    · exact .inr ⟨h, (flush0_12 _).mpr (by dsimp only; omega)⟩) d

/-- Elsewhere in a grid row it holds what the body left at the point before: the block is not written back between. -/
theorem before0_12_B (c : Dev nD) (t : Fin cfg0.N) (h0 : ¬t.val % 16 = 0) (d) :
    (dat0 V c).before 12 t d = f0_12 V c (t.val - 1) (Nat.lt_of_le_of_lt (Nat.sub_le _ _) t.isLt) := by
  rw [Dat.before_out_kept _ 12 rfl t (by omega) (Bool.eq_false_iff.mpr fun h => by have := (flush0_12 _).mp h; dsimp only at this; omega)
    (fun _ => rfl) (fun _ _ => rfl)]
  exact after0_12 V c _

/-- The accumulation's closed form at the first point of a grid row: over the zero block. -/
theorem f0_12_A (c : Dev nD) (t : Fin cfg0.N) (h0 : t.val % 16 = 0) :
    f0_12 V c t.val t.isLt = k0_pay2 (iblk0 V c 1 t) (iblk0 V c 7 t) k0_pay5 := by
  obtain ⟨n, hn⟩ := t
  cases n with
  | zero => rfl
  | succ n =>
    show k0_pay2 _ _ (if (n + 1) % 16 = 0 then k0_pay5 else _) = _
    rw [if_pos h0]

/-- and elsewhere: over what the point before left. -/
theorem f0_12_B (c : Dev nD) (t : Fin cfg0.N) (h0 : ¬t.val % 16 = 0) :
    f0_12 V c t.val t.isLt = k0_pay2 (iblk0 V c 1 t) (iblk0 V c 7 t) (f0_12 V c (t.val - 1) (Nat.lt_of_le_of_lt (Nat.sub_le _ _) t.isLt)) := by
  obtain ⟨n, hn⟩ := t
  cases n with
  | zero => exact absurd (Nat.zero_mod _) h0
  | succ n =>
    show k0_pay2 _ _ (if (n + 1) % 16 = 0 then k0_pay5 else _) = _
    rw [if_neg h0]; rfl

/-- At the first point of a grid row output window 13's buffer holds anything: the first point of all, or the point
    before wrote the block back. -/
theorem before0_13_A (c : Dev nD) (t : Fin cfg0.N) (h0 : t.val % 16 = 0) (d) : (dat0 V c).before 13 t d = d :=
  (dat0 V c).before_out_reset 13 rfl t (by
    by_cases h : t.val = 0
    · exact .inl h
    · exact .inr ⟨h, (flush0_13 _).mpr (by dsimp only; omega)⟩) d

/-- Elsewhere in a grid row it holds what the body left at the point before: the block is not written back between. -/
theorem before0_13_B (c : Dev nD) (t : Fin cfg0.N) (h0 : ¬t.val % 16 = 0) (d) :
    (dat0 V c).before 13 t d = f0_13 V c (t.val - 1) (Nat.lt_of_le_of_lt (Nat.sub_le _ _) t.isLt) := by
  rw [Dat.before_out_kept _ 13 rfl t (by omega) (Bool.eq_false_iff.mpr fun h => by have := (flush0_13 _).mp h; dsimp only at this; omega)
    (fun _ => rfl) (fun _ _ => rfl)]
  exact after0_13 V c _

/-- The accumulation's closed form at the first point of a grid row: over the zero block. -/
theorem f0_13_A (c : Dev nD) (t : Fin cfg0.N) (h0 : t.val % 16 = 0) :
    f0_13 V c t.val t.isLt = k0_pay3 (iblk0 V c 2 t) (iblk0 V c 8 t) k0_pay6 := by
  obtain ⟨n, hn⟩ := t
  cases n with
  | zero => rfl
  | succ n =>
    show k0_pay3 _ _ (if (n + 1) % 16 = 0 then k0_pay6 else _) = _
    rw [if_pos h0]

/-- and elsewhere: over what the point before left. -/
theorem f0_13_B (c : Dev nD) (t : Fin cfg0.N) (h0 : ¬t.val % 16 = 0) :
    f0_13 V c t.val t.isLt = k0_pay3 (iblk0 V c 2 t) (iblk0 V c 8 t) (f0_13 V c (t.val - 1) (Nat.lt_of_le_of_lt (Nat.sub_le _ _) t.isLt)) := by
  obtain ⟨n, hn⟩ := t
  cases n with
  | zero => exact absurd (Nat.zero_mod _) h0
  | succ n =>
    show k0_pay3 _ _ (if (n + 1) % 16 = 0 then k0_pay6 else _) = _
    rw [if_neg h0]; rfl

/-! ## The body's triple, one per arm of the branch -/

set_option maxHeartbeats 4000000 in
/-- The kernel body on whole staging memrefs at the first point of a grid row: the inputs' at read contents, the adjacency
    output's at anything, the three feature outputs' at anything (the body clears them first); it runs to the inputs' as they were,
    the adjacency output at the merged block and each feature output at the accumulate payload over the zero block. -/
theorem sound_kernel0_A (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x10 .f32) (harg8 : arg8.IsWhole) (arg9 : Memref sig .tc .vmem S512x10 .f32) (harg9 : arg9.IsWhole) (arg10 : Memref sig .tc .vmem S512x10 .f32) (harg10 : arg10.IsWhole) (arg11 : Memref sig .tc .vmem S3x1 .f32) (harg11 : arg11.IsWhole) (arg12 : Memref sig .tc .vmem S512x512 .f32) (harg12 : arg12.IsWhole) (arg13 : Memref sig .tc .vmem S512x10 .f32) (harg13 : arg13.IsWhole) (arg14 : Memref sig .tc .vmem S512x10 .f32) (harg14 : arg14.IsWhole) (arg15 : Memref sig .tc .vmem S512x10 .f32) (harg15 : arg15.IsWhole)
    (hc : cond0 i) (x0 x1 x2 x3 x4 x5 : Vec F S512x512 .f32) (x6 x7 x8 : Vec F S512x10 .f32) (x9 : Vec F S3x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare (k0_pay7 x9 x0 x1 x2 x3 x4 x5)
            ∗ owns (c : Thread nD τ) arg13 fullShare (k0_pay1 x0 x6 k0_pay4)
            ∗ owns (c : Thread nD τ) arg14 fullShare (k0_pay2 x1 x7 k0_pay5)
            ∗ owns (c : Thread nD τ) arg15 fullShare (k0_pay3 x2 x8 k0_pay6)) -∗ K ⟨⟩))
      ⊢ wp frame (wpE (defs₀ (F := F)) Variants.none c none) E (cc0__adj_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__adj_kernel_eq_skeleton]; unfold cc0__adj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (read_writes_unit_zero _ _ hz _ _ _).trans ?_
    sl_unfold_run_names
    simp only [View.readAt_eq_ld, View.ld_unit_zero (S := S512x512) hz, View.ld_unit_zero (S := S512x10) hz, View.ld_unit_zero (S := S3x1) hz]
  isplitl [H11]
  · iexists _; isplitr
    swap; · iexact H11
    ipureintro
    refine (read_writes_unit_zero _ _ hz _ _ _).trans ?_
    sl_unfold_run_names
    simp only [View.readAt_eq_ld, View.ld_unit_zero (S := S512x512) hz, View.ld_unit_zero (S := S512x10) hz, View.ld_unit_zero (S := S3x1) hz, View.readCov_unit_zero (S := S512x10) _ hz]
  isplitl [H12]
  · iexists _; isplitr
    swap; · iexact H12
    ipureintro
    refine (read_writes_unit_zero _ _ hz _ _ _).trans ?_
    sl_unfold_run_names
    simp only [View.readAt_eq_ld, View.ld_unit_zero (S := S512x512) hz, View.ld_unit_zero (S := S512x10) hz, View.ld_unit_zero (S := S3x1) hz, View.readCov_unit_zero (S := S512x10) _ hz]
  iexists _; isplitr
  swap; · iexact H13
  ipureintro
  refine (read_writes_unit_zero _ _ hz _ _ _).trans ?_
  sl_unfold_run_names
  simp only [View.readAt_eq_ld, View.ld_unit_zero (S := S512x512) hz, View.ld_unit_zero (S := S512x10) hz, View.ld_unit_zero (S := S3x1) hz, View.readCov_unit_zero (S := S512x10) _ hz]

set_option maxHeartbeats 4000000 in
/-- The kernel body on whole staging memrefs past the first point of a grid row: the inputs' at read contents, the adjacency
    output's at anything, the three feature outputs' at what the point before left; it runs to the inputs' as they were,
    the adjacency output at the merged block and each feature output at the accumulate payload over what it held. -/
theorem sound_kernel0_B (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x10 .f32) (harg8 : arg8.IsWhole) (arg9 : Memref sig .tc .vmem S512x10 .f32) (harg9 : arg9.IsWhole) (arg10 : Memref sig .tc .vmem S512x10 .f32) (harg10 : arg10.IsWhole) (arg11 : Memref sig .tc .vmem S3x1 .f32) (harg11 : arg11.IsWhole) (arg12 : Memref sig .tc .vmem S512x512 .f32) (harg12 : arg12.IsWhole) (arg13 : Memref sig .tc .vmem S512x10 .f32) (harg13 : arg13.IsWhole) (arg14 : Memref sig .tc .vmem S512x10 .f32) (harg14 : arg14.IsWhole) (arg15 : Memref sig .tc .vmem S512x10 .f32) (harg15 : arg15.IsWhole)
    (hc : ¬cond0 i) (x0 x1 x2 x3 x4 x5 : Vec F S512x512 .f32) (x6 x7 x8 : Vec F S512x10 .f32) (x9 : Vec F S3x1 .f32) (y11 y12 y13 : Vec F S512x10 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ owns (c : Thread nD τ) arg13 fullShare y11 ∗ owns (c : Thread nD τ) arg14 fullShare y12 ∗ owns (c : Thread nD τ) arg15 fullShare y13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ owns (c : Thread nD τ) arg12 fullShare (k0_pay7 x9 x0 x1 x2 x3 x4 x5)
            ∗ owns (c : Thread nD τ) arg13 fullShare (k0_pay1 x0 x6 y11)
            ∗ owns (c : Thread nD τ) arg14 fullShare (k0_pay2 x1 x7 y12)
            ∗ owns (c : Thread nD τ) arg15 fullShare (k0_pay3 x2 x8 y13)) -∗ K ⟨⟩))
      ⊢ wp frame (wpE (defs₀ (F := F)) Variants.none c none) E (cc0__adj_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__adj_kernel_eq_skeleton]; unfold cc0__adj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
  subst hf0 hf1 hf2 hf3 hf4 hf5 hf6 hf7 hf8 hf9 hf11 hf12 hf13
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (read_writes_unit_zero _ _ hz _ _ _).trans ?_
    sl_unfold_run_names
    simp only [View.readAt_eq_ld, View.ld_unit_zero (S := S512x512) hz, View.ld_unit_zero (S := S512x10) hz, View.ld_unit_zero (S := S3x1) hz]
  isplitl [H11]
  · iexists _; isplitr
    swap; · iexact H11
    ipureintro
    refine (read_writes_unit_zero _ _ hz _ _ _).trans ?_
    sl_unfold_run_names
    simp only [View.readAt_eq_ld, View.ld_unit_zero (S := S512x512) hz, View.ld_unit_zero (S := S512x10) hz, View.ld_unit_zero (S := S3x1) hz]
  isplitl [H12]
  · iexists _; isplitr
    swap; · iexact H12
    ipureintro
    refine (read_writes_unit_zero _ _ hz _ _ _).trans ?_
    sl_unfold_run_names
    simp only [View.readAt_eq_ld, View.ld_unit_zero (S := S512x512) hz, View.ld_unit_zero (S := S512x10) hz, View.ld_unit_zero (S := S3x1) hz]
  iexists _; isplitr
  swap; · iexact H13
  ipureintro
  refine (read_writes_unit_zero _ _ hz _ _ _).trans ?_
  sl_unfold_run_names
  simp only [View.readAt_eq_ld, View.ld_unit_zero (S := S512x512) hz, View.ld_unit_zero (S := S512x10) hz, View.ld_unit_zero (S := S3x1) hz]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

set_option maxHeartbeats 4000000 in
/-- The body at any point: the inputs' buffers hold their blocks; at the first point of a grid row the feature outputs'
    buffers hold anything and the body clears them, elsewhere they hold what the point before left; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  by_cases h0 : t.val % 16 = 0
  ·
    simp only [before0_11_A V c t h0, before0_12_A V c t h0, before0_13_A V c t h0]
    rw [f0_11_A V c t h0, f0_12_A V c t h0, f0_13_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_kernel0_A c Set.univ (grid0.coords t) _ _ _ _ _ _ _ _ _ _ _ _ _ _ _ _ _ _ _ _ _ _ _ _ _ _ _ _ ((hcond0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  ·
    simp only [before0_11_B V c t h0, before0_12_B V c t h0, before0_13_B V c t h0]
    rw [f0_11_B V c t h0, f0_12_B V c t h0, f0_13_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_kernel0_B c Set.univ (grid0.coords t) _ _ _ _ _ _ _ _ _ _ _ _ _ _ _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg0.lean ====
/-
  Region 0 as a segment of @main over the thread state.

  Each relation matrix stands behind two of the region's windows, so its fourteen windows are on eleven distinct
  arrays. At entry a relation matrix's full share is cut in its two halves, one per window; at exit the two halves, at
  the same contents (an input is never written), join again. Every other array is one window's, at the full share.
-/
import proofs.«160379_j10187662426197_1_alg».proof.Proof.Pdats
import proofs.«160379_j10187662426197_1_alg».proof.Proof.Body0

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The buffers behind region 0's windows, listed: eleven distinct arrays. -/
private theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_arg2) ↦{fullShare} V main_arg2)
          ∗ (((c : Thread nD τ).loc main_arg3) ↦{fullShare} V main_arg3) ∗ (((c : Thread nD τ).loc main_arg4) ↦{fullShare} V main_arg4)
          ∗ (((c : Thread nD τ).loc main_arg5) ↦{fullShare} V main_arg5) ∗ (((c : Thread nD τ).loc main_arg6) ↦{fullShare} V main_arg6)
          ∗ (((c : Thread nD τ).loc main_arg7) ↦{fullShare} V main_arg7) ∗ (((c : Thread nD τ).loc main_v0_0) ↦{fullShare} V main_v0_0)
          ∗ (((c : Thread nD τ).loc main_v0_1) ↦{fullShare} V main_v0_1) ∗ (((c : Thread nD τ).loc main_v0_2) ↦{fullShare} V main_v0_2)
          ∗ (((c : Thread nD τ).loc main_v0_3) ↦{fullShare} V main_v0_3)) := by
  unfold Pipeline.arrBufs
  exact bigSep_eq_bigSepL_of_eq [main_arg1, main_arg2, main_arg3, main_arg4, main_arg5, main_arg6, main_arg7, main_v0_0, main_v0_1, main_v0_2, main_v0_3] (by decide) (by decide) _

variable (V : (c : Dev nD) → (b : Ref sig .tc) → Buf (Elt F) ((c : Thread nD τ).loc b))

/-- A window's array is a whole buffer: its points-to is over every element. -/
private theorem arrays0_univ (c : Dev nD) (Fn : (w : Fin cfg0.W) → Buf (Elt F) ((cfg0.win w).arr.view.loc (c : Thread nD τ))) :
    ((dat0 V c).arrays Fn : sProp 𝕄)
      = bigSep Finset.univ fun w : Fin 14 => (((c : Thread nD τ).loc (Pipeline.arrRef spec0 w)) ↦{(dat0 V c).share w} Fn w : sProp 𝕄) := by
  unfold Dat.arrays
  exact bigSep_congr fun w _ => by
    have h : (cfg0.win w).arr.view.set = Finset.univ := (arr_whole0 w).set_eq_univ
    rw [h]

/-- Region 0's windowed arrays one by one: the three relation matrices twice, at the left and the right half of the
    full share; every other window's array at the full share. -/
private theorem arrays0_eq (c : Dev nD) (Fn : (w : Fin cfg0.W) → Buf (Elt F) ((cfg0.win w).arr.view.loc (c : Thread nD τ))) :
    ((dat0 V c).arrays Fn : sProp 𝕄)
      = iprop((((c : Thread nD τ).loc main_arg1) ↦{fullShare.left} Fn 0) ∗ (((c : Thread nD τ).loc main_arg2) ↦{fullShare.left} Fn 1)
          ∗ (((c : Thread nD τ).loc main_arg3) ↦{fullShare.left} Fn 2) ∗ (((c : Thread nD τ).loc main_arg1) ↦{fullShare.right} Fn 3)
          ∗ (((c : Thread nD τ).loc main_arg2) ↦{fullShare.right} Fn 4) ∗ (((c : Thread nD τ).loc main_arg3) ↦{fullShare.right} Fn 5)
          ∗ (((c : Thread nD τ).loc main_arg4) ↦{fullShare} Fn 6) ∗ (((c : Thread nD τ).loc main_arg5) ↦{fullShare} Fn 7)
          ∗ (((c : Thread nD τ).loc main_arg6) ↦{fullShare} Fn 8) ∗ (((c : Thread nD τ).loc main_arg7) ↦{fullShare} Fn 9)
          ∗ (((c : Thread nD τ).loc main_v0_0) ↦{fullShare} Fn 10) ∗ (((c : Thread nD τ).loc main_v0_1) ↦{fullShare} Fn 11)
          ∗ (((c : Thread nD τ).loc main_v0_2) ↦{fullShare} Fn 12) ∗ (((c : Thread nD τ).loc main_v0_3) ↦{fullShare} Fn 13)) := by
  rw [arrays0_univ, bigSep_W0]; rfl

/-- ENTRY's sorting: the eleven arrays at contents V', each at the full share, are the fourteen windows' arrays at V'
    (a relation matrix's full share cut in its two halves, one per window on it). -/
private theorem arrays0_of_arrBufs (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊢ (dat0 V c).arrays (fun w => V' (Pipeline.arrRef spec0 w)) := by
  rw [arrBufs0_eq, arrays0_eq]
  iintro ⟨H1, H2, H3, H4, H5, H6, H7, Hv0, Hv1, Hv2, Hv3⟩
  ihave H1' := (pointsTo_share (PosShare.mem_left_op_right fullShare)).1 $$ H1
  ihave H2' := (pointsTo_share (PosShare.mem_left_op_right fullShare)).1 $$ H2
  ihave H3' := (pointsTo_share (PosShare.mem_left_op_right fullShare)).1 $$ H3
  icases H1' with ⟨H1l, H1r⟩
  icases H2' with ⟨H2l, H2r⟩
  icases H3' with ⟨H3l, H3r⟩
  isplitl [H1l]; · iexact H1l
  isplitl [H2l]; · iexact H2l
  isplitl [H3l]; · iexact H3l
  isplitl [H1r]; · iexact H1r
  isplitl [H2r]; · iexact H2r
  isplitl [H3r]; · iexact H3r
  isplitl [H4]; · iexact H4
  isplitl [H5]; · iexact H5
  isplitl [H6]; · iexact H6
  isplitl [H7]; · iexact H7
  isplitl [Hv0]; · iexact Hv0
  isplitl [Hv1]; · iexact Hv1
  isplitl [Hv2]; · iexact Hv2
  iexact Hv3

/-- EXIT's sorting, the other way round: a relation matrix's two halves, at the same contents, join. -/
private theorem arrBufs_of_arrays0 (c : Dev nD) (V' : (b : Ref sig .tc) → Buf (Elt F) ((c : Thread nD τ).loc b)) :
    ((dat0 V c).arrays (fun w => V' (Pipeline.arrRef spec0 w)) : sProp 𝕄)
      ⊢ Pipeline.arrBufs (Ix := Unit) (Name := ℕ) (U := UR sig nD τ) (Lvl := ℕ) spec0 c V' := by
  rw [arrBufs0_eq, arrays0_eq]
  iintro ⟨H1l, H2l, H3l, H1r, H2r, H3r, H4, H5, H6, H7, Hv0, Hv1, Hv2, Hv3⟩
  isplitl [H1l H1r]
  · iapply (pointsTo_share (PosShare.mem_left_op_right fullShare)).2; isplitl [H1l]; · iexact H1l
    iexact H1r
  isplitl [H2l H2r]
  · iapply (pointsTo_share (PosShare.mem_left_op_right fullShare)).2; isplitl [H2l]; · iexact H2l
    iexact H2r
  isplitl [H3l H3r]
  · iapply (pointsTo_share (PosShare.mem_left_op_right fullShare)).2; isplitl [H3l]; · iexact H3l
    iexact H3r
  isplitl [H4]; · iexact H4
  isplitl [H5]; · iexact H5
  isplitl [H6]; · iexact H6
  isplitl [H7]; · iexact H7
  isplitl [Hv0]; · iexact Hv0
  isplitl [Hv1]; · iexact Hv1
  isplitl [Hv2]; · iexact Hv2
  iexact Hv3

/-! ## The contents after region 0, read buffer by buffer -/

/-- Off its four output arrays, W1 is W0. -/
private theorem W1_of (c : Dev nD) (r : Ref sig .tc) (h : r ∉ ([main_v0_0, main_v0_1, main_v0_2, main_v0_3] : List (Ref sig .tc))) :
    V1 m c r = V0 m c r := by
  have h0 : (Proc.devRef .tc r : DevRef τ sig) ≠ Proc.devRef .tc main_v0_0 := StableHlo.devRef_ne_of_ne (List.ne_of_not_mem_cons h)
  have h1 : (Proc.devRef .tc r : DevRef τ sig) ≠ Proc.devRef .tc main_v0_1 :=
    StableHlo.devRef_ne_of_ne (List.ne_of_not_mem_cons (List.not_mem_of_not_mem_cons h))
  have h2 : (Proc.devRef .tc r : DevRef τ sig) ≠ Proc.devRef .tc main_v0_2 :=
    StableHlo.devRef_ne_of_ne (List.ne_of_not_mem_cons (List.not_mem_of_not_mem_cons (List.not_mem_of_not_mem_cons h)))
  have h3 : (Proc.devRef .tc r : DevRef τ sig) ≠ Proc.devRef .tc main_v0_3 :=
    StableHlo.devRef_ne_of_ne (List.ne_of_not_mem_cons (List.not_mem_of_not_mem_cons (List.not_mem_of_not_mem_cons (List.not_mem_of_not_mem_cons h))))
  show W1 m c (Proc.devRef .tc r) = W0 m c (Proc.devRef .tc r)
  unfold W1
  rw [Function.update_of_ne h3, Function.update_of_ne h2, Function.update_of_ne h1, Function.update_of_ne h0]

/-- At each output array, W1 is what the write-backs leave. -/
private theorem W1_v0_0 (c : Dev nD) : V1 m c main_v0_0 = (dat0 (V0 m) c).arrAt 10 cfg0.N := by
  show W1 m c (Proc.devRef .tc main_v0_0) = _
  unfold W1
  rw [Function.update_of_ne (StableHlo.devRef_ne_of_ne (by decide) : (Proc.devRef .tc main_v0_0 : DevRef τ sig) ≠ Proc.devRef .tc main_v0_3),
    Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1),
    Function.update_self]
private theorem W1_v0_1 (c : Dev nD) : V1 m c main_v0_1 = (dat0 (V0 m) c).arrAt 11 cfg0.N := by
  show W1 m c (Proc.devRef .tc main_v0_1) = _
  unfold W1
  rw [Function.update_of_ne (StableHlo.devRef_ne_of_ne (by decide) : (Proc.devRef .tc main_v0_1 : DevRef τ sig) ≠ Proc.devRef .tc main_v0_3),
    Function.update_of_ne (StableHlo.devRef_ne_of_ne (by decide) : (Proc.devRef .tc main_v0_1 : DevRef τ sig) ≠ Proc.devRef .tc main_v0_2),
    Function.update_self]
private theorem W1_v0_2 (c : Dev nD) : V1 m c main_v0_2 = (dat0 (V0 m) c).arrAt 12 cfg0.N := by
  show W1 m c (Proc.devRef .tc main_v0_2) = _
  unfold W1
  rw [Function.update_of_ne (StableHlo.devRef_ne_of_ne (by decide) : (Proc.devRef .tc main_v0_2 : DevRef τ sig) ≠ Proc.devRef .tc main_v0_3),
    Function.update_self]
private theorem W1_v0_3 (c : Dev nD) : V1 m c main_v0_3 = (dat0 (V0 m) c).arrAt 13 cfg0.N := by
  show W1 m c (Proc.devRef .tc main_v0_3) = _
  unfold W1
  rw [Function.update_self]

/-- At region 0's exit every window's array holds what W1 says: an input as entered, an output its write-backs. -/
private theorem hF0 (c : Dev nD) (w : Fin cfg0.W) : (dat0 (V0 m) c).arrAt w cfg0.N = V1 m c (Pipeline.arrRef spec0 w) :=
  match w with
  | ⟨0, _⟩ => ((dat0 (V0 m) c).arrAt_in 0 rfl _).trans (W1_of m c main_arg1 (by decide)).symm
  | ⟨1, _⟩ => ((dat0 (V0 m) c).arrAt_in 1 rfl _).trans (W1_of m c main_arg2 (by decide)).symm
  | ⟨2, _⟩ => ((dat0 (V0 m) c).arrAt_in 2 rfl _).trans (W1_of m c main_arg3 (by decide)).symm
  | ⟨3, _⟩ => ((dat0 (V0 m) c).arrAt_in 3 rfl _).trans (W1_of m c main_arg1 (by decide)).symm
  | ⟨4, _⟩ => ((dat0 (V0 m) c).arrAt_in 4 rfl _).trans (W1_of m c main_arg2 (by decide)).symm
  | ⟨5, _⟩ => ((dat0 (V0 m) c).arrAt_in 5 rfl _).trans (W1_of m c main_arg3 (by decide)).symm
  | ⟨6, _⟩ => ((dat0 (V0 m) c).arrAt_in 6 rfl _).trans (W1_of m c main_arg4 (by decide)).symm
  | ⟨7, _⟩ => ((dat0 (V0 m) c).arrAt_in 7 rfl _).trans (W1_of m c main_arg5 (by decide)).symm
  | ⟨8, _⟩ => ((dat0 (V0 m) c).arrAt_in 8 rfl _).trans (W1_of m c main_arg6 (by decide)).symm
  | ⟨9, _⟩ => ((dat0 (V0 m) c).arrAt_in 9 rfl _).trans (W1_of m c main_arg7 (by decide)).symm
  | ⟨10, _⟩ => (W1_v0_0 m c).symm
  | ⟨11, _⟩ => (W1_v0_1 m c).symm
  | ⟨12, _⟩ => (W1_v0_2 m c).symm
  | ⟨13, _⟩ => (W1_v0_3 m c).symm

/-- No output array of region 0 is in the unscoped rest. -/
private theorem outs_arr0 : ∀ b ∈ ([main_v0_0, main_v0_1, main_v0_2, main_v0_3] : List (Ref sig .tc)), b ∈ Finset.univ.image (Pipeline.arrRef spec0) := by decide

/-- So the rest is held at W1 as at W0. -/
private theorem unscopedRest0_W1 (c : Dev nD) :
    (Pipeline.unscopedRest (Ix := Unit) (Name := ℕ) (U := UR sig nD τ) (Lvl := ℕ) spec0 c (V1 m c) : sProp 𝕄)
      = Pipeline.unscopedRest (Ix := Unit) (Name := ℕ) (U := UR sig nD τ) (Lvl := ℕ) spec0 c (V0 m c) := by
  unfold Pipeline.unscopedRest
  exact bigSep_congr fun b hb => by
    rw [W1_of m c b fun hmem => (Finset.mem_sdiff.mp hb).2 (outs_arr0 b hmem)]

/-! ## Entry and exit: the held set against the arrays and the rest -/

/-- ENTRY: every unscoped buffer held at W0 is region 0's arrays at the entry contents and the unscoped rest at W0. -/
private theorem hentry0 (c : Dev nD) :
    (StableHlo.held (c : Thread nD τ) (Pipeline.ucRefs τ sig) (W0 m c) : sProp 𝕄)
      ⊢ iprop((pdats m 0 c).arrays ((pdats m 0 c).arrAt · 0)
          ∗ Pipeline.unscopedRest (Ix := Unit) (Name := ℕ) (U := UR sig nD τ) (Lvl := ℕ) spec0 c (V0 m c)) := by
  have hs : (unscopedBufs (Ix := Unit) (Name := ℕ) (U := UR sig nD τ) (Lvl := ℕ) c (V0 m c) : sProp 𝕄)
      = iprop(Pipeline.arrBufs spec0 c (V0 m c) ∗ Pipeline.unscopedRest spec0 c (V0 m c)) :=
    Pipeline.unscopedBufs_split₀ cfgs 0 winFacts₀0.arr_unscoped c (V0 m c)
  rw [Pipeline.unscopedBufs_held] at hs
  rw [hs]
  exact sep_mono (arrays0_of_arrBufs (V0 m) c (V0 m c)) .rfl

/-- EXIT: region 0's arrays at their final contents and the unscoped rest at W0 are every unscoped buffer held at W1. -/
private theorem hexit0 (c : Dev nD) :
    iprop((pdats m 0 c).arrays ((pdats m 0 c).arrAt · cfg0.N)
          ∗ Pipeline.unscopedRest (Ix := Unit) (Name := ℕ) (U := UR sig nD τ) (Lvl := ℕ) spec0 c (V0 m c))
      ⊢ (StableHlo.held (c : Thread nD τ) (Pipeline.ucRefs τ sig) (W1 m c) : sProp 𝕄) := by
  have hs : (unscopedBufs (Ix := Unit) (Name := ℕ) (U := UR sig nD τ) (Lvl := ℕ) c (V1 m c) : sProp 𝕄)
      = iprop(Pipeline.arrBufs spec0 c (V1 m c) ∗ Pipeline.unscopedRest spec0 c (V1 m c)) :=
    Pipeline.unscopedBufs_split₀ cfgs 0 winFacts₀0.arr_unscoped c (V1 m c)
  rw [Pipeline.unscopedBufs_held] at hs
  rw [hs, unscopedRest0_W1]
  refine sep_mono ?_ .rfl
  have hc : (fun w => (pdats m 0 c).arrAt w cfg0.N) = fun w => V1 m c (Pipeline.arrRef spec0 w) := funext (hF0 m c)
  rw [hc]
  exact arrBufs_of_arrays0 (V0 m) c (V1 m c)

/-! ## The region as a segment -/

set_option backward.isDefEq.respectTransparency.types false in
/-- Region 0 entered from every unscoped buffer at W0, left at W1. Its arrays are sorted out of the unscoped buffers
    at entry and put back at the exit contents; the generator register goes into the invariant and comes out; nothing is
    owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := T (W0 m) c
  post c := T (W1 m) c
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    iintro ⟨⟨Hub, Hp, HO⟩, -, -⟩
    ihave H := (hentry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (hexit0 m c); isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c = T (W0 m) c := rfl
theorem reg0_post (c : Dev nD) : (reg0 m).post c = T (W1 m) c := rfl

end Cert.KernelIdeal.Hand

end
-- ==== Proof.Body1.lean ====
/-
  Region 1: the kernel body meets its obligation at every grid point.

  The body's two conditionals depend on the point's place k in its grid row only: at k = 0 the scratch accumulator is
  cleared before the accumulate step, at k = 15 the accumulator plus the bias is stored over the output block. So there
  are three control cases (k = 0, 0 < k < 15, k = 15), each stated once over arbitrary whole memrefs and contents, and
  the obligation at a point is its case read at the point's staging memrefs, blocks and invariant.
-/
import proofs.«160379_j10187662426197_1_alg».proof.Proof.Dat1
import Idealize.ShloMosaic.Lib.Tactic
import Idealize.ShloMosaic.Lib.Ring
import Idealize.ShloMosaic.Lib.Pipeline.Value

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Tactic

variable (V : (c : Dev nD) → (b : Ref sig .tc) → Buf (Elt F) ((c : Thread nD τ).loc b))

/-! ## The body's branch conditions -/

/-- The condition of the body's first conditional: the second grid coordinate is zero. -/
private abbrev cond1_0 (i : grid1.Coords) : Prop := (Scalar.cmpi .ne (Scalar.extui (Scalar.cmpi .eq (BitVec.ofNat 32 (i 1).val) 0#32)) 0#32) = 1#1
/-- It holds at the points ≡ 0 (mod 16). -/
private theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second conditional: the second grid coordinate is fifteen. -/
private abbrev cond1_1 (i : grid1.Coords) : Prop := k1_cond2 i = 1#1
/-- It holds at the points ≡ 15 (mod 16). -/
private theorem hcond1_1 : ∀ t : Fin cfg1.N, cond1_1 (grid1.coords t) ↔ t.val % 16 = 15 :=
  (by decide +kernel : ∀ t : Fin grid1.N, cond1_1 (grid1.coords t) ↔ t.val % 16 = 15)

/-! ## The kernel body on any whole memrefs, case by case -/

/-- The zero offsets of a whole-buffer rectangle, of rank two and of rank one, are the constant zero. -/
private theorem hz2 : (![0, 0] : Fin 2 → Nat) = fun _ => 0 := funext fun a => by fin_cases a <;> rfl
private theorem hz1 : (![0] : Fin 1 → Nat) = fun _ => 0 := funext fun a => by fin_cases a <;> rfl

set_option maxHeartbeats 1000000 in
/-- The body where neither conditional is taken: the scratch holding xs ends at the accumulate payload over xs;
    the output buffer is untouched. One store through the whole-buffer rectangle leaves its payload, and each load
    through a whole-buffer rectangle reads the buffer's contents. -/
private theorem kernel1_B (c : Dev nD) (i : grid1.Coords)
    (arg2 : Memref sig .tc .vmem S512x512 .f32) (harg2 : arg2.IsWhole)
    (arg3 : Memref sig .tc .vmem S512x256 .f32) (harg3 : arg3.IsWhole)
    (arg4 : Memref sig .tc .vmem S256x128 .f32) (harg4 : arg4.IsWhole)
    (arg5 : Memref sig .tc .vmem S128 .f32) (harg5 : arg5.IsWhole)
    (arg6 : Memref sig .tc .vmem S512x128 .f32) (harg6 : arg6.IsWhole)
    (arg7 : Memref sig .tc .vmem S512x128 .f32) (harg7 : arg7.IsWhole)
    (hc0 : ¬cond1_0 i) (hc1 : ¬cond1_1 i)
    (x0 : Vec F S512x512 .f32) (x1 : Vec F S512x256 .f32) (x2 : Vec F S256x128 .f32) (x3 : Vec F S128 .f32)
    (xi4 : Vec F S512x128 .f32) (xs : Vec F S512x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (xi4)
            ∗ owns (c : Thread nD τ) arg7 fullShare (k1_pay2 x1 x2 x0 xs)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  rw [View.read_writes_eq_canon _ _ _ (fun y => ⟨_, List.Mem.head _, View.mem_set_unit_zero hz2 inb_S512x128_S512x128_0_0 y⟩), View.canon_unit_zero hz2]
  simp only [View.readAt_eq_ld, harg2.read_unread, harg3.read_unread, harg4.read_unread, harg5.read_unread, harg7.read_unread,
      View.ld_unit_zero (S := S512x512) hz2, View.ld_unit_zero (S := S512x256) hz2, View.ld_unit_zero (S := S256x128) hz2,
      View.ld_unit_zero (S := S128) hz1, View.ld_unit_zero (S := S512x128) hz2]

set_option maxHeartbeats 1000000 in
/-- The body where the first conditional is taken and the second is not: the scratch is cleared, read back as the
    zero payload, then ends at the accumulate payload over the zero payload; the output buffer is untouched. -/
private theorem kernel1_A (c : Dev nD) (i : grid1.Coords)
    (arg2 : Memref sig .tc .vmem S512x512 .f32) (harg2 : arg2.IsWhole)
    (arg3 : Memref sig .tc .vmem S512x256 .f32) (harg3 : arg3.IsWhole)
    (arg4 : Memref sig .tc .vmem S256x128 .f32) (harg4 : arg4.IsWhole)
    (arg5 : Memref sig .tc .vmem S128 .f32) (harg5 : arg5.IsWhole)
    (arg6 : Memref sig .tc .vmem S512x128 .f32) (harg6 : arg6.IsWhole)
    (arg7 : Memref sig .tc .vmem S512x128 .f32) (harg7 : arg7.IsWhole)
    (hc0 : cond1_0 i) (hc1 : ¬cond1_1 i)
    (x0 : Vec F S512x512 .f32) (x1 : Vec F S512x256 .f32) (x2 : Vec F S256x128 .f32) (x3 : Vec F S128 .f32)
    (xi4 : Vec F S512x128 .f32) (xs : Vec F S512x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (xi4)
            ∗ owns (c : Thread nD τ) arg7 fullShare (k1_pay2 x1 x2 x0 k1_pay1)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_run_names
  rw [View.read_writes_eq_canon _ _ _ (fun y => ⟨_, List.Mem.head _, View.mem_set_unit_zero hz2 inb_S512x128_S512x128_0_0 y⟩), View.canon_cons_unit_zero hz2, View.readCov_unit_zero _ hz2]
  simp only [View.readAt_eq_ld, harg2.read_unread, harg3.read_unread, harg4.read_unread, harg5.read_unread, harg7.read_unread,
      View.ld_unit_zero (S := S512x512) hz2, View.ld_unit_zero (S := S512x256) hz2, View.ld_unit_zero (S := S256x128) hz2,
      View.ld_unit_zero (S := S128) hz1, View.ld_unit_zero (S := S512x128) hz2]

set_option maxHeartbeats 1000000 in
/-- The body where the second conditional is taken and the first is not: the scratch holding xs ends at the accumulate
    payload over xs, which is read back and stored, with the bias added, over the whole output buffer. -/
private theorem kernel1_C (c : Dev nD) (i : grid1.Coords)
    (arg2 : Memref sig .tc .vmem S512x512 .f32) (harg2 : arg2.IsWhole)
    (arg3 : Memref sig .tc .vmem S512x256 .f32) (harg3 : arg3.IsWhole)
    (arg4 : Memref sig .tc .vmem S256x128 .f32) (harg4 : arg4.IsWhole)
    (arg5 : Memref sig .tc .vmem S128 .f32) (harg5 : arg5.IsWhole)
    (arg6 : Memref sig .tc .vmem S512x128 .f32) (harg6 : arg6.IsWhole)
    (arg7 : Memref sig .tc .vmem S512x128 .f32) (harg7 : arg7.IsWhole)
    (hc0 : ¬cond1_0 i) (hc1 : cond1_1 i)
    (x0 : Vec F S512x512 .f32) (x1 : Vec F S512x256 .f32) (x2 : Vec F S256x128 .f32) (x3 : Vec F S128 .f32)
    (xi4 : Vec F S512x128 .f32) (xs : Vec F S512x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay3 (k1_pay2 x1 x2 x0 xs) x3)
            ∗ owns (c : Thread nD τ) arg7 fullShare (k1_pay2 x1 x2 x0 xs)) -∗ K ⟨⟩))
      ⊢ wp frame (wpE (defs₀ (F := F)) Variants.none c none) E (cc1__gc1_kernel i arg2 harg2 arg3 harg3 arg4 harg4 arg5 harg5 arg6 harg6 arg7 harg7) K := by
  simp only [cc1__gc1_kernel_eq_skeleton]; unfold cc1__gc1_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (fun y => ⟨_, List.Mem.head _, View.mem_set_unit_zero hz2 inb_S512x128_S512x128_0_0 y⟩), View.canon_unit_zero hz2, View.readCov_unit_zero _ hz2]
    simp only [View.readAt_eq_ld, harg2.read_unread, harg3.read_unread, harg4.read_unread, harg5.read_unread, harg7.read_unread,
      View.ld_unit_zero (S := S512x512) hz2, View.ld_unit_zero (S := S512x256) hz2, View.ld_unit_zero (S := S256x128) hz2,
      View.ld_unit_zero (S := S128) hz1, View.ld_unit_zero (S := S512x128) hz2]
  iexists _; isplitr
  swap; · iexact HS
  ipureintro
  sl_unfold_run_names
  rw [View.read_writes_eq_canon _ _ _ (fun y => ⟨_, List.Mem.head _, View.mem_set_unit_zero hz2 inb_S512x128_S512x128_0_0 y⟩), View.canon_unit_zero hz2]
  simp only [View.readAt_eq_ld, harg2.read_unread, harg3.read_unread, harg4.read_unread, harg5.read_unread, harg7.read_unread,
      View.ld_unit_zero (S := S512x512) hz2, View.ld_unit_zero (S := S512x256) hz2, View.ld_unit_zero (S := S256x128) hz2,
      View.ld_unit_zero (S := S128) hz1, View.ld_unit_zero (S := S512x128) hz2]

/-! ## What the body finds in the input windows' staging buffers -/

/-- Each input window's current staging buffer holds its block at every point, fetched there or not: an input the
    body only reads keeps its block, and unfetched its block index has not moved. -/
private theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
private theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
private theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
private theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The accumulator and the invariant, point by point -/

/-- At the start of a grid row the accumulator is the accumulate payload over the zero payload. -/
private theorem acc1_reset (c : Dev nD) (t : Fin cfg1.N) (h0 : t.val % 16 = 0) :
    acc1 V c t.val t.isLt = k1_pay2 (iblk1 V c 1 t) (iblk1 V c 2 t) (iblk1 V c 0 t) k1_pay1 := by
  obtain ⟨n, hn⟩ := t
  cases n with
  | zero => rfl
  | succ n => dsimp only at h0 ⊢; rw [acc1, if_pos h0]

/-- Elsewhere it is the accumulate payload over what the point before left. -/
private theorem acc1_step (c : Dev nD) (t : Fin cfg1.N) (h0 : ¬t.val % 16 = 0) :
    acc1 V c t.val t.isLt = k1_pay2 (iblk1 V c 1 t) (iblk1 V c 2 t) (iblk1 V c 0 t)
      (acc1 V c (t.val - 1) (Nat.lt_of_le_of_lt (Nat.sub_le _ _) t.isLt)) := by
  obtain ⟨n, hn⟩ := t
  cases n with
  | zero => exact absurd (Nat.zero_mod _) h0
  | succ n => dsimp only at h0 ⊢; rw [acc1, if_neg h0]; rfl

private theorem Phi1_zero (c : Dev nD) (n : ℕ) (h : n ≤ cfg1.N) (hz : n = 0) : Phi1 V c n h = Pipeline.ΦA spec1 c := by
  subst hz; rfl

/-- After point n (before point n + 1): the scratch at that point's accumulator. -/
private theorem Phi1_succ (c : Dev nD) (n : ℕ) (hn : n < cfg1.N) :
    Phi1 V c (n + 1) hn = iprop(owns (c : Thread nD τ) (Memref.whole cc1_scratch0) fullShare (acc1 V c n hn)
      ∗ Pipeline.scopedRestBut (Ix := Unit) (Name := ℕ) (U := UR sig nD τ) (Lvl := ℕ) (Val := Elt F) spec1 c [cc1_scratch0]
      ∗ ∃ r, prngReg c r) := rfl

/-- Before a point that is not the first: the scratch at the accumulator the point before left. -/
private theorem Phi1_pos (c : Dev nD) (n : ℕ) (h : n ≤ cfg1.N) (hz : n ≠ 0) :
    Phi1 V c n h = iprop(owns (c : Thread nD τ) (Memref.whole cc1_scratch0) fullShare (acc1 V c (n - 1) (by omega))
      ∗ Pipeline.scopedRestBut (Ix := Unit) (Name := ℕ) (U := UR sig nD τ) (Lvl := ℕ) (Val := Elt F) spec1 c [cc1_scratch0]
      ∗ ∃ r, prngReg c r) := by
  cases n with
  | zero => exact absurd rfl hz
  | succ n => rfl

private theorem Phi1_castSucc (c : Dev nD) (t : Fin cfg1.N) :
    (dat1 V c).Φ t.castSucc = Phi1 V c t.val (Nat.le_of_lt t.isLt) := rfl

/-- The invariant before the first point, with the scratch set apart at some contents. -/
private theorem PhiA1_eq (c : Dev nD) :
    (Pipeline.ΦA spec1 c : sProp 𝕄)
      = iprop(iprop((∃ d, owns (c : Thread nD τ) (Memref.whole cc1_scratch0) fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [owns_whole]; try rfl

/-! ## Where the windows are idle -/

private theorem liveAt1_0 : ∀ t : Fin cfg1.N, cfg1.idle 0 (grid1.coords t) = false := fun _ => rfl
private theorem liveAt1_1 : ∀ t : Fin cfg1.N, cfg1.idle 1 (grid1.coords t) = false := fun _ => rfl
private theorem liveAt1_2 : ∀ t : Fin cfg1.N, cfg1.idle 2 (grid1.coords t) = false := fun _ => rfl
private theorem liveAt1_3 : ∀ t : Fin cfg1.N, cfg1.idle 3 (grid1.coords t) = false := fun _ => rfl
/-- Where the second conditional is not taken the output window is idle and not written back. -/
private theorem idleAt1_4 : ∀ t : Fin cfg1.N, ¬cond1_1 (grid1.coords t) → cfg1.idle 4 (grid1.coords t) = true := by decide +kernel
private theorem noFlush1_4 : ∀ t : Fin cfg1.N, ¬cond1_1 (grid1.coords t) → (cfg1.win 4).flush t = false := by decide +kernel
/-- Where it is taken the output window is live. -/
private theorem liveAt1_4 : ∀ t : Fin cfg1.N, cond1_1 (grid1.coords t) → cfg1.idle 4 (grid1.coords t) = false := by decide +kernel

/-! ## The body obligation, at a generic point -/

/-- Each window's current staging memref at point t, spelled as the pipeline passes it. -/
private abbrev ms1_0 (t : Fin cfg1.N) : Memref sig .tc .vmem S512x512 .f32 := win1_0.stage (cfg1.slots t 0)
private abbrev ms1_1 (t : Fin cfg1.N) : Memref sig .tc .vmem S512x256 .f32 := win1_1.stage (cfg1.slots t 1)
private abbrev ms1_2 (t : Fin cfg1.N) : Memref sig .tc .vmem S256x128 .f32 := win1_2.stage (cfg1.slots t 2)
private abbrev ms1_3 (t : Fin cfg1.N) : Memref sig .tc .vmem S128 .f32 := win1_3.stage (cfg1.slots t 3)
private abbrev ms1_4 (t : Fin cfg1.N) : Memref sig .tc .vmem S512x128 .f32 := win1_4.stage (cfg1.slots t 4)

/-- What the body is called with at point t, the windows one by one, -/
private def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
private def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the point's place in its grid row says which
    conditionals are taken; the invariant hands the body the scratch at what the point before left (at anything at the
    first point) and takes it back at this point's accumulator; an idle output buffer is handed back as found, a live
    one at the bias payload of the accumulator; the core owes nothing throughout. -/
private theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 256 := lt_of_lt_of_eq t.isLt (show cfg1.N = 256 from N_1)
  by_cases h0 : t.val % 16 = 0
  · have h1 : ¬t.val % 16 = 15 := by omega
    rw [Dat.leavesExact_idle (dat1 V c) 4 t (idleAt1_4 t (fun h => h1 ((hcond1_1 t).mp h))) (noFlush1_4 t (fun h => h1 ((hcond1_1 t).mp h)))]
    rw [acc1_reset V c t h0]
    by_cases hz : t.val = 0
    · rw [Phi1_castSucc V c t, Phi1_zero V c _ _ hz, PhiA1_eq]
      iintro ⟨⟨⟨⟨%ds, HS⟩, HR⟩, Hg⟩, Ho, ⟨%d0, H0⟩, ⟨%d1, H1⟩, ⟨%d2, H2⟩, ⟨%d3, H3⟩, ⟨%d4, H4⟩⟩
      iapply (kernel1_A c (grid1.coords t) _ _ _ _ _ _ _ _ _ _ _ _ ((hcond1_0 t).mpr h0) (fun h => h1 ((hcond1_1 t).mp h))
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [Phi1_castSucc V c t, Phi1_pos V c _ _ hz]
      iintro ⟨⟨HS, HR, Hg⟩, Ho, ⟨%d0, H0⟩, ⟨%d1, H1⟩, ⟨%d2, H2⟩, ⟨%d3, H3⟩, ⟨%d4, H4⟩⟩
      iapply (kernel1_A c (grid1.coords t) _ _ _ _ _ _ _ _ _ _ _ _ ((hcond1_0 t).mpr h0) (fun h => h1 ((hcond1_1 t).mp h))
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [acc1_step V c t h0]
    rw [Phi1_castSucc V c t, Phi1_pos V c _ _ hz]
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4, acc1_step V c t h0]
      iintro ⟨⟨HS, HR, Hg⟩, Ho, ⟨%d0, H0⟩, ⟨%d1, H1⟩, ⟨%d2, H2⟩, ⟨%d3, H3⟩, ⟨%d4, H4⟩⟩
      iapply (kernel1_C c (grid1.coords t) _ _ _ _ _ _ _ _ _ _ _ _ (fun h => h0 ((hcond1_0 t).mp h)) ((hcond1_1 t).mpr h1)
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      iintro ⟨⟨HS, HR, Hg⟩, Ho, ⟨%d0, H0⟩, ⟨%d1, H1⟩, ⟨%d2, H2⟩, ⟨%d3, H3⟩, ⟨%d4, H4⟩⟩
      iapply (kernel1_B c (grid1.coords t) _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg1.lean ====
/-
  Region 1 as a segment of @main over the thread state.
-/
import proofs.«160379_j10187662426197_1_alg».proof.Proof.Pdats
import proofs.«160379_j10187662426197_1_alg».proof.Proof.Body1

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The exit contents: W2 is W1 with the output array replaced -/

/-- An input window's array is never written, and W2 differs from W1 only at the output array: at the region's
    exit the array holds what W2 reads there. -/
theorem arr_in1 (c : Dev nD) (w : Fin cfg1.W) (hin : (cfg1.win w).isOut = false)
    (hne : Pipeline.arrRef spec1 w ≠ main_v1) :
    (dat1 (V1 m) c).arrAt w cfg1.N = V2 m c (Pipeline.arrRef spec1 w) :=
  ((dat1 (V1 m) c).arrAt_in w hin _).trans
    ((A_eq1 (V1 m) c w).trans (Function.update_of_ne (StableHlo.devRef_ne_of_ne hne) _ _).symm)

/-- At region 1's exit each of its arrays holds what W2 reads there: the four inputs as entered, the output at the
    fold of its write-backs. -/
theorem hF1 (c : Dev nD) : ∀ w : Fin cfg1.W, (dat1 (V1 m) c).arrAt w cfg1.N = V2 m c (Pipeline.arrRef spec1 w)
  | ⟨0, _⟩ => arr_in1 m c 0 rfl (by decide)
  | ⟨1, _⟩ => arr_in1 m c 1 rfl (by decide)
  | ⟨2, _⟩ => arr_in1 m c 2 rfl (by decide)
  | ⟨3, _⟩ => arr_in1 m c 3 rfl (by decide)
  | ⟨4, _⟩ => by
    show _ = W2 m c (Proc.devRef .tc main_v1)
    unfold W2
    exact (Function.update_self (Proc.devRef .tc main_v1 : DevRef τ sig) _ (W1 m c)).symm
  | ⟨_ + 5, h⟩ => absurd h (Nat.not_lt.2 (Nat.le_add_left _ _))

/-- Every buffer that is no array of region 1 holds at W2 what it held at W1: W2 updates W1 at the output array only. -/
theorem hrest1 (c : Dev nD) : ∀ b, b ∉ Finset.univ.image (Pipeline.arrRef spec1) → V2 m c b = V1 m c b :=
  fun b hb => Function.update_of_ne (StableHlo.devRef_ne_of_ne fun e =>
    hb (Finset.mem_image.mpr ⟨4, Finset.mem_univ _, e.symm⟩)) _ _

/-! ## The invariant at the last point gives the scoped rest back -/

/-- After any point but the first the invariant gives back the generator register and the scoped rest: the
    accumulator scratch's named contents are forgotten, the scoped rest being that buffer at some contents beside
    the other scoped buffers. -/
theorem Phi1_out (V : (c : Dev nD) → (b : Ref sig .tc) → Buf (Elt F) ((c : Thread nD τ).loc b)) (c : Dev nD) :
    (n : ℕ) → (h : n ≤ cfg1.N) → n ≠ 0 → Phi1 V c n h
      ⊢ (iprop((∃ r, prngReg c r) ∗ Pipeline.scopedRest spec1 c) : sProp 𝕄)
  | 0, _, hz => absurd rfl hz
  | n + 1, h, _ => by
    show iprop(owns (c : Thread nD τ) (Memref.whole cc1_scratch0) fullShare (acc1 V c n h)
      ∗ Pipeline.scopedRestBut (Ix := Unit) (Name := ℕ) (U := UR sig nD τ) (Lvl := ℕ) (Val := Elt F) spec1 c [cc1_scratch0]
      ∗ ∃ r, prngReg c r) ⊢ _
    rw [scopedRest1_split, owns_whole]
    iintro ⟨HS, Hb, Hr⟩
    isplitl [Hr]; · iexact Hr
    isplitl [HS]; · iexists _; iexact HS
    iexact Hb

/-! ## Entry and exit: the arrays out of the unscoped buffers and back -/

set_option backward.isDefEq.respectTransparency.types false in
/-- ENTRY. The unscoped buffers at W1 are region 1's five arrays at the proof data's entry contents beside the
    unscoped rest; no table is prefetched; the core's owes at nothing are the first tallies'; the generator
    register goes to the invariant. -/
theorem hentry1 (c : Dev nD) :
    iprop(T (W1 m) c ∗ Pipeline.ownSems0 (fun k : PEmpty => k.elim) c ∗ levAts L lv)
      ⊢ |={Set.univ}=> (iprop((pdats m 1 c).arrays ((pdats m 1 c).arrAt · 0)
          ∗ Pipeline.prefHeld (pcfgs (F := F) 1).pre c (fun _ => fullShare) (adm (F := F) 1).1
          ∗ (pdats m 1 c).owesAt () 0 ∗ (∃ r, prngReg c r)
          ∗ Pipeline.unscopedRest (Ix := Unit) (Name := ℕ) (U := UR sig nD τ) (Lvl := ℕ) spec1 c (V1 m c)) : sProp 𝕄) := by
  rw [Pipeline.ownSems0_none]
  have hsplit := Pipeline.arrays_of_unscopedBufs (p := 1) (pcfgs (F := F)) adm (pdats m) launch1.win launch1.arr_whole c
    ((pdats m 1 c).share_full fun _ => rfl) (V1 m c) fun _ => rfl
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr
  · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr
    · ipureintro; exact fun _ _ => Or.inl trivial
    iexact HO
  isplitl [Hp]; · iexact Hp
  iexact Hrest

set_option backward.isDefEq.respectTransparency.types false in
/-- EXIT. The arrays at their final contents beside the unscoped rest at W1 are the unscoped buffers at W2 (hF1,
    hrest1); the last tallies' owes are the core's at nothing; the generator register comes back. -/
theorem hexit1 (c : Dev nD) :
    iprop((pdats m 1 c).arrays ((pdats m 1 c).arrAt · cfg1.N) ∗ (pdats m 1 c).owesAt () (Fin.last cfg1.N)
        ∗ (∃ r, prngReg c r)
        ∗ Pipeline.unscopedRest (Ix := Unit) (Name := ℕ) (U := UR sig nD τ) (Lvl := ℕ) spec1 c (V1 m c))
      ⊢ |={Set.univ}=> (T (W2 m) c : sProp 𝕄) := by
  have hjoin := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (V1 m c) (V2 m c) ((pdats m 1 c).arrAt · cfg1.N) (hF1 m c) (hrest1 m c)
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  icases HO with ⟨%W, -, HO⟩; iexists W; iexact HO

set_option backward.isDefEq.respectTransparency.types false in
/-- The invariant at the last point (the grid has 256 points, so it is past the first) gives back the generator
    register, no semaphore of the kernel's own, and the scoped rest. -/
theorem hout1 (c : Dev nD) : (pdats m 1 c).Φ (Fin.last cfg1.N)
    ⊢ (iprop((∃ r, prngReg c r) ∗ BI.emp ∗ Pipeline.scopedRest spec1 c) : sProp 𝕄) := by
  have h : (pdats m 1 c).Φ (Fin.last cfg1.N) ⊢ (iprop((∃ r, prngReg c r) ∗ Pipeline.scopedRest spec1 c) : sProp 𝕄) :=
    Phi1_out (V1 m) c (Fin.last cfg1.N).val (Nat.le_of_lt_succ (Fin.last cfg1.N).isLt)
      (by show cfg1.N ≠ 0; rw [show cfg1.N = 256 from N_1]; decide)
  iintro H
  ihave H' := h $$ H
  icases H' with ⟨Hr, Hp⟩
  isplitl [Hr]; · iexact Hr
  isplitr; · iempintro
  iexact Hp

/-! ## The region as a segment -/

set_option backward.isDefEq.respectTransparency.types false in
/-- Region 1 entered from every unscoped buffer at W1, left at W2. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := T (W1 m) c
  post c := T (W2 m) c
  X c := iprop(∃ r, prngReg c r)
  Y c := iprop(∃ r, prngReg c r)
  Z c := Pipeline.unscopedRest (Ix := Unit) (Name := ℕ) (U := UR sig nD τ) (Lvl := ℕ) spec1 c (V1 m c)
  hentry c := hentry1 m c
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact hout1 m c
  hexit c := hexit1 m c

theorem reg1_pre (c : Dev nD) : (reg1 m).pre c = T (W1 m) c := rfl
theorem reg1_post (c : Dev nD) : (reg1 m).post c = T (W2 m) c := rfl

end Cert.KernelIdeal.Hand

end
-- ==== Proof.Body2.lean ====
/-
  Region 2: the kernel body meets its obligation at every grid point.
-/
import proofs.«160379_j10187662426197_1_alg».proof.Proof.Dat2
import Idealize.ShloMosaic.Lib.Tactic
import Idealize.ShloMosaic.Lib.Ring
import Idealize.ShloMosaic.Lib.Pipeline.Value

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Tactic

variable (V : (c : Dev nD) → (b : Ref sig .tc) → Buf (Elt F) ((c : Thread nD τ).loc b))

/-! What the obligation is assembled from: the conditions' closed forms, the kernel's triples, the invariant's forms. -/
namespace Body2
/-! ## The conditions of the body's two conditionals, in closed form over the grid -/

/-- The condition of the body's first conditional (the second grid coordinate is zero), from the grid coordinates. -/
abbrev cond2_0 (i : grid2.Coords) : Prop :=
  (Scalar.cmpi .ne (Scalar.extui (Scalar.cmpi .eq (BitVec.ofNat 32 (i 1).val) 0#32)) 0#32) = 1#1
/-- It holds at the points ≡ 0 (mod 16). -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second conditional (the second grid coordinate is the last). -/
abbrev cond2_1 (i : grid2.Coords) : Prop := k2_cond2 i = 1#1
/-- It holds at the points ≡ 15 (mod 16). -/
theorem hcond2_1 : ∀ t : Fin cfg2.N, cond2_1 (grid2.coords t) ↔ t.val % 16 = 15 :=
  (by decide +kernel : ∀ t : Fin grid2.N, cond2_1 (grid2.coords t) ↔ t.val % 16 = 15)

/-- Where the second condition fails the output window is idle, -/
theorem idleAt2_5 : ∀ t : Fin cfg2.N, ¬cond2_1 (grid2.coords t) → cfg2.idle 5 (grid2.coords t) = true := by decide +kernel
/-- and its block is not written back there; -/
theorem noFlush2_5 : ∀ t : Fin cfg2.N, ¬cond2_1 (grid2.coords t) → (cfg2.win 5).flush t = false := by decide +kernel
/-- where it holds the window is live. -/
theorem liveAt2_5 : ∀ t : Fin cfg2.N, cond2_1 (grid2.coords t) → cfg2.idle 5 (grid2.coords t) = false := by decide +kernel

/-! ## Whole-buffer loads and stores -/

theorem zeros2 : (![0, 0] : Fin 2 → Nat) = fun _ => 0 := funext fun a => by fin_cases a <;> rfl
theorem zeros1 : (![0] : Fin 1 → Nat) = fun _ => 0 := funext fun a => by fin_cases a; rfl

/-- A load through the whole-shape rectangle of a whole buffer owned at contents `X` reads `X`. -/
theorem readAt_whole {S : Shape} {e : EltTy} {m : Memref sig .tc .vmem S e} (h : m.IsWhole) {off : Fin S.rank → Nat}
    (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- A store through the whole-shape rectangle, last, leaves its payload, whatever came before. -/
theorem read_writes_whole {S : Shape} {e : EltTy} (v : View sig .tc .vmem S e) (f : v.ty.Contents (Elt F)) {off : Fin S.rank → Nat}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

/-! ## The kernel's triple, one per control case, over any whole memrefs -/

/-- Neither conditional taken (the second coordinate in 1 … 14): the accumulator takes the accumulate payload over
    what it held; the output's buffer is not touched. -/
theorem kernel2_B (c : Dev nD) (i : grid2.Coords)
    (arg2 : Memref sig .tc .vmem S512x512 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S128x128 .f32) (harg5 : arg5.IsWhole)
    (arg6 : Memref sig .tc .vmem S128 .f32) (harg6 : arg6.IsWhole) (arg7 : Memref sig .tc .vmem S512x128 .f32) (harg7 : arg7.IsWhole)
    (arg8 : Memref sig .tc .vmem S512x128 .f32) (harg8 : arg8.IsWhole) (hc0 : ¬cond2_0 i) (hc1 : ¬cond2_1 i)
    (x0 : Vec F S512x512 .f32) (x1 : Vec F S512x128 .f32) (x3 : Vec F S128x128 .f32) (xs : Vec F S512x128 .f32)
    (E : Set ℕ) (K : PUnit → sProp 𝕄) :
    iprop(owns (c : Thread nD τ) arg2 fullShare x0 ∗ owns (c : Thread nD τ) arg3 fullShare x1 ∗ owns (c : Thread nD τ) arg5 fullShare x3
        ∗ owns (c : Thread nD τ) arg8 fullShare xs
        ∗ (iprop(owns (c : Thread nD τ) arg2 fullShare x0 ∗ owns (c : Thread nD τ) arg3 fullShare x1 ∗ owns (c : Thread nD τ) arg5 fullShare x3
            ∗ owns (c : Thread nD τ) arg8 fullShare (k2_pay2 x1 x3 x0 xs)) -∗ K ⟨⟩))
      ⊢ wp frame (wpE (defs₀ (F := F)) Variants.none c none) E
          (cc2__gc2_kernel i arg2 harg2 arg3 harg3 arg4 harg4 arg5 harg5 arg6 harg6 arg7 harg7 arg8 harg8) K := by
  simp only [cc2__gc2_kernel_eq_skeleton]; unfold cc2__gc2_kernel_skel
  unfold owns
  iintro ⟨⟨%f0, %hf0, H0⟩, ⟨%f1, %hf1, H1⟩, ⟨%f3, %hf3, H3⟩, ⟨%fs, %hfs, HS⟩, Hk⟩
  obtain rfl := harg2.eq_unread hf0; obtain rfl := harg3.eq_unread hf1; obtain rfl := harg5.eq_unread hf3
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; · ipureintro; exact harg5.read_unread _
    iexact H3
  iexists _; isplitr
  swap; · iexact HS
  ipureintro
  rw [read_writes_whole _ _ zeros2, readAt_whole harg3 zeros2, readAt_whole harg5 zeros2, readAt_whole harg2 zeros2,
    readAt_whole harg8 zeros2]

/-- The first conditional taken, the second not (the second coordinate is 0): the accumulator is cleared, then takes
    the accumulate payload over the cleared contents; the output's buffer is not touched. -/
theorem kernel2_A (c : Dev nD) (i : grid2.Coords)
    (arg2 : Memref sig .tc .vmem S512x512 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S128x128 .f32) (harg5 : arg5.IsWhole)
    (arg6 : Memref sig .tc .vmem S128 .f32) (harg6 : arg6.IsWhole) (arg7 : Memref sig .tc .vmem S512x128 .f32) (harg7 : arg7.IsWhole)
    (arg8 : Memref sig .tc .vmem S512x128 .f32) (harg8 : arg8.IsWhole) (hc0 : cond2_0 i) (hc1 : ¬cond2_1 i)
    (x0 : Vec F S512x512 .f32) (x1 : Vec F S512x128 .f32) (x3 : Vec F S128x128 .f32) (xs : Vec F S512x128 .f32)
    (E : Set ℕ) (K : PUnit → sProp 𝕄) :
    iprop(owns (c : Thread nD τ) arg2 fullShare x0 ∗ owns (c : Thread nD τ) arg3 fullShare x1 ∗ owns (c : Thread nD τ) arg5 fullShare x3
        ∗ owns (c : Thread nD τ) arg8 fullShare xs
        ∗ (iprop(owns (c : Thread nD τ) arg2 fullShare x0 ∗ owns (c : Thread nD τ) arg3 fullShare x1 ∗ owns (c : Thread nD τ) arg5 fullShare x3
            ∗ owns (c : Thread nD τ) arg8 fullShare (k2_pay2 x1 x3 x0 k2_pay1)) -∗ K ⟨⟩))
      ⊢ wp frame (wpE (defs₀ (F := F)) Variants.none c none) E
          (cc2__gc2_kernel i arg2 harg2 arg3 harg3 arg4 harg4 arg5 harg5 arg6 harg6 arg7 harg7 arg8 harg8) K := by
  simp only [cc2__gc2_kernel_eq_skeleton]; unfold cc2__gc2_kernel_skel
  unfold owns
  iintro ⟨⟨%f0, %hf0, H0⟩, ⟨%f1, %hf1, H1⟩, ⟨%f3, %hf3, H3⟩, ⟨%fs, %hfs, HS⟩, Hk⟩
  obtain rfl := harg2.eq_unread hf0; obtain rfl := harg3.eq_unread hf1; obtain rfl := harg5.eq_unread hf3
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; · ipureintro; exact harg5.read_unread _
    iexact H3
  iexists _; isplitr
  swap; · iexact HS
  ipureintro
  rw [read_writes_whole _ _ zeros2]
  sl_unfold_run_names
  rw [readAt_whole harg3 zeros2, readAt_whole harg5 zeros2, readAt_whole harg2 zeros2,
    View.readCov_unit_zero (S := S512x128) _ zeros2]

/-- The second conditional taken, the first not (the second coordinate is 15): the accumulator takes the accumulate
    payload over what it held, and the output's buffer ends at the readout payload of the new accumulator, the bias
    block and the row block. -/
theorem kernel2_C (c : Dev nD) (i : grid2.Coords)
    (arg2 : Memref sig .tc .vmem S512x512 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S128x128 .f32) (harg5 : arg5.IsWhole)
    (arg6 : Memref sig .tc .vmem S128 .f32) (harg6 : arg6.IsWhole) (arg7 : Memref sig .tc .vmem S512x128 .f32) (harg7 : arg7.IsWhole)
    (arg8 : Memref sig .tc .vmem S512x128 .f32) (harg8 : arg8.IsWhole) (hc0 : ¬cond2_0 i) (hc1 : cond2_1 i)
    (x0 : Vec F S512x512 .f32) (x1 : Vec F S512x128 .f32) (x2 : Vec F S512x128 .f32) (x3 : Vec F S128x128 .f32)
    (x4 : Vec F S128 .f32) (xo : Vec F S512x128 .f32) (xs : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare (k2_pay3 (k2_pay2 x1 x3 x0 xs) x4 x2)
            ∗ owns (c : Thread nD τ) arg8 fullShare (k2_pay2 x1 x3 x0 xs)) -∗ K ⟨⟩))
      ⊢ wp frame (wpE (defs₀ (F := F)) Variants.none c none) E
          (cc2__gc2_kernel i arg2 harg2 arg3 harg3 arg4 harg4 arg5 harg5 arg6 harg6 arg7 harg7 arg8 harg8) K := by
  simp only [cc2__gc2_kernel_eq_skeleton]; unfold cc2__gc2_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfo
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HO]
  · iexists _; isplitr
    swap; · iexact HO
    ipureintro
    rw [read_writes_whole _ _ zeros2]
    sl_unfold_run_names
    rw [View.readCov_unit_zero (S := S512x128) _ zeros2, readAt_whole harg6 zeros1, readAt_whole harg4 zeros2,
      readAt_whole harg3 zeros2, readAt_whole harg5 zeros2, readAt_whole harg2 zeros2, readAt_whole harg8 zeros2]
  iexists _; isplitr
  swap; · iexact HS
  ipureintro
  sl_unfold_run_names
  rw [read_writes_whole _ _ zeros2, readAt_whole harg3 zeros2, readAt_whole harg5 zeros2, readAt_whole harg2 zeros2,
    readAt_whole harg8 zeros2]

/-! ## The memrefs the body is called with at a point -/

/-- Each window's current staging memref at point `t`, and its wholeness. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x128 .f32 := win2_5.stage (cfg2.slots t 5)
abbrev hs2_5 (t : Fin cfg2.N) : (ms2_5 t).IsWhole := hstage2_5 ((cfg2.slots t 5).cast nbuf2_5)
/-- The accumulator scratch, a whole scoped buffer passed beside the windows. -/
abbrev scM2 : Memref sig .tc .vmem S512x128 .f32 := Memref.whole cc2_scratch0

/-! ## What the body finds in the input windows' buffers: the window's block, fetched at the point or not -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

/-- The input windows are never idle: what the body leaves in them is their block. -/
theorem leaves2_0 (c : Dev nD) (t : Fin cfg2.N) :
    (dat2 V c).leavesExact 0 t = owns (c : Thread nD τ) (ms2_0 t) fullShare (iblk2 V c 0 t) :=
  (show (dat2 V c).leavesExact 0 t = owns (c : Thread nD τ) (ms2_0 t) fullShare ((dat2 V c).after 0 t) from rfl).trans
    (by rw [after2_0])
theorem leaves2_1 (c : Dev nD) (t : Fin cfg2.N) :
    (dat2 V c).leavesExact 1 t = owns (c : Thread nD τ) (ms2_1 t) fullShare (iblk2 V c 1 t) :=
  (show (dat2 V c).leavesExact 1 t = owns (c : Thread nD τ) (ms2_1 t) fullShare ((dat2 V c).after 1 t) from rfl).trans
    (by rw [after2_1])
theorem leaves2_2 (c : Dev nD) (t : Fin cfg2.N) :
    (dat2 V c).leavesExact 2 t = owns (c : Thread nD τ) (ms2_2 t) fullShare (iblk2 V c 2 t) :=
  (show (dat2 V c).leavesExact 2 t = owns (c : Thread nD τ) (ms2_2 t) fullShare ((dat2 V c).after 2 t) from rfl).trans
    (by rw [after2_2])
theorem leaves2_3 (c : Dev nD) (t : Fin cfg2.N) :
    (dat2 V c).leavesExact 3 t = owns (c : Thread nD τ) (ms2_3 t) fullShare (iblk2 V c 3 t) :=
  (show (dat2 V c).leavesExact 3 t = owns (c : Thread nD τ) (ms2_3 t) fullShare ((dat2 V c).after 3 t) from rfl).trans
    (by rw [after2_3])
theorem leaves2_4 (c : Dev nD) (t : Fin cfg2.N) :
    (dat2 V c).leavesExact 4 t = owns (c : Thread nD τ) (ms2_4 t) fullShare (iblk2 V c 4 t) :=
  (show (dat2 V c).leavesExact 4 t = owns (c : Thread nD τ) (ms2_4 t) fullShare ((dat2 V c).after 4 t) from rfl).trans
    (by rw [after2_4])

/-! ## The accumulator, point by point -/

/-- At the start of a grid row the accumulator is the accumulate payload over the cleared contents. -/
theorem acc2_reset (c : Dev nD) (t : Fin cfg2.N) (h : t.val % 16 = 0) :
    acc2 V c t.val t.isLt = k2_pay2 (iblk2 V c 1 t) (iblk2 V c 3 t) (iblk2 V c 0 t) k2_pay1 := by
  obtain ⟨n, hn⟩ := t
  cases n with
  | zero => rfl
  | succ n => (try dsimp only at h); rw [acc2, if_pos h]

/-- Elsewhere it is the accumulate payload over what the point before left. -/
theorem acc2_step (c : Dev nD) (t : Fin cfg2.N) (h : ¬t.val % 16 = 0) :
    acc2 V c t.val t.isLt = k2_pay2 (iblk2 V c 1 t) (iblk2 V c 3 t) (iblk2 V c 0 t)
      (acc2 V c (t.val - 1) (Nat.lt_of_le_of_lt (Nat.sub_le _ _) t.isLt)) := by
  obtain ⟨n, hn⟩ := t
  cases n with
  | zero => exact absurd (Nat.zero_mod _) h
  | succ n => (try dsimp only at h); rw [acc2, if_neg h]; rfl

/-! ## The invariant, opened -/

theorem Phi2_zero (c : Dev nD) (n : ℕ) (h : n ≤ cfg2.N) (hz : n = 0) : Phi2 V c n h = Pipeline.ΦA spec2 c := by
  subst hz; rfl

/-- After point `n`: the scratch at that point's accumulator. -/
theorem Phi2_succ (c : Dev nD) (n : ℕ) (hn : n < cfg2.N) :
    Phi2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ ∃ r, prngReg c r) := rfl

/-- Before a point that is not the first: the scratch at what the point before left. -/
theorem Phi2_pos (c : Dev nD) (n : ℕ) (h : n ≤ cfg2.N) (hz : n ≠ 0) :
    Phi2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]
      ∗ ∃ r, prngReg c r) := by
  cases n with
  | zero => exact absurd rfl hz
  | succ n => rfl

theorem Phi2_castSucc (c : Dev nD) (t : Fin cfg2.N) :
    (dat2 V c).Φ t.castSucc = Phi2 V c t.val (Nat.le_of_lt t.isLt) := rfl

/-- Before the first point: the scratch at some contents, the other scoped buffers unopened, the generator register. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; try rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

/-- The body at any point. The input windows' memrefs hold their blocks; the closed forms of the two conditions say
    which control case the point is in; the invariant hands over the scratch (at anything before the first point, at
    what the point before left afterwards) and takes it back at this point's accumulator; where the second condition
    fails the output window is idle and its buffer is handed back as found, where it holds the buffer ends at the
    readout payload; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, leaves2_3, leaves2_4]
  by_cases h0 : t.val % 16 = 0
  · -- the start of a grid row
    have h1 : ¬t.val % 16 = 15 := by omega
    have hc0 : cond2_0 (grid2.coords t) := (hcond2_0 t).mpr h0
    have hc1 : ¬cond2_1 (grid2.coords t) := fun h => h1 ((hcond2_1 t).mp h)
    rw [Dat.leavesExact_idle (dat2 V c) 5 t (idleAt2_5 t hc1) (noFlush2_5 t hc1)]
    rw [acc2_reset V c t h0]
    by_cases hz : t.val = 0
    · rw [Phi2_castSucc V c t, Phi2_zero V c _ _ hz, PhiA2_eq]
      iintro ⟨⟨⟨⟨%ds, HS⟩, HR⟩, Hg⟩, Ho, ⟨%d0, H0⟩, ⟨%d1, H1⟩, ⟨%d2, H2⟩, ⟨%d3, H3⟩, ⟨%d4, H4⟩, H5⟩
      iapply (kernel2_A c (grid2.coords t) _ _ _ _ _ _ _ _ _ _ _ _ _ _ hc0 hc1 (iblk2 V c 0 t) (iblk2 V c 1 t) (iblk2 V c 3 t) ds Set.univ _)
      isplitl [H0]; · iexact H0
      isplitl [H1]; · iexact H1
      isplitl [H3]; · iexact H3
      isplitl [HS]; · iexact HS
      iintro ⟨H0, H1, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Phi2_castSucc V c t, Phi2_pos V c _ _ hz]
      iintro ⟨⟨HS, HR, Hg⟩, Ho, ⟨%d0, H0⟩, ⟨%d1, H1⟩, ⟨%d2, H2⟩, ⟨%d3, H3⟩, ⟨%d4, H4⟩, H5⟩
      iapply (kernel2_A c (grid2.coords t) _ _ _ _ _ _ _ _ _ _ _ _ _ _ hc0 hc1 (iblk2 V c 0 t) (iblk2 V c 1 t) (iblk2 V c 3 t) _ Set.univ _)
      isplitl [H0]; · iexact H0
      isplitl [H1]; · iexact H1
      isplitl [H3]; · iexact H3
      isplitl [HS]; · iexact HS
      iintro ⟨H0, H1, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    have hc0 : ¬cond2_0 (grid2.coords t) := fun h => h0 ((hcond2_0 t).mp h)
    rw [Phi2_castSucc V c t, Phi2_pos V c _ _ hz]
    by_cases h1 : t.val % 16 = 15
    · -- the end of a grid row
      have hc1 : cond2_1 (grid2.coords t) := (hcond2_1 t).mpr h1
      rw [show (dat2 V c).leavesExact 5 t = owns (c : Thread nD τ) (ms2_5 t) fullShare ((dat2 V c).after 5 t) from by
        unfold Dat.leavesExact; rw [liveAt2_5 t hc1], after2_5]
      rw [acc2_step V c t h0]
      iintro ⟨⟨HS, HR, Hg⟩, Ho, ⟨%d0, H0⟩, ⟨%d1, H1⟩, ⟨%d2, H2⟩, ⟨%d3, H3⟩, ⟨%d4, H4⟩, ⟨%d5, H5⟩⟩
      iapply (kernel2_C c (grid2.coords t) _ _ _ _ _ _ _ _ _ _ _ _ _ _ hc0 hc1 (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · -- inside a grid row
      have hc1 : ¬cond2_1 (grid2.coords t) := fun h => h1 ((hcond2_1 t).mp h)
      rw [Dat.leavesExact_idle (dat2 V c) 5 t (idleAt2_5 t hc1) (noFlush2_5 t hc1)]
      rw [acc2_step V c t h0]
      iintro ⟨⟨HS, HR, Hg⟩, Ho, ⟨%d0, H0⟩, ⟨%d1, H1⟩, ⟨%d2, H2⟩, ⟨%d3, H3⟩, ⟨%d4, H4⟩, H5⟩
      iapply (kernel2_B c (grid2.coords t) _ _ _ _ _ _ _ _ _ _ _ _ _ _ hc0 hc1 (iblk2 V c 0 t) (iblk2 V c 1 t) (iblk2 V c 3 t) _ Set.univ _)
      isplitl [H0]; · iexact H0
      isplitl [H1]; · iexact H1
      isplitl [H3]; · iexact H3
      isplitl [HS]; · iexact HS
      iintro ⟨H0, H1, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

end Body2

open Body2 in
/-- The library's body obligation for pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Reg2.lean ====
/-
  Region 2 as a segment of @main over the thread state.
-/
import proofs.«160379_j10187662426197_1_alg».proof.Proof.Pdats
import proofs.«160379_j10187662426197_1_alg».proof.Proof.Body2

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The arrays behind region 2's windows

Six windows stand on five distinct arrays: the first layer's result is read through windows 1 and 2, each at half of
the array's share. -/

section Arrays

variable (V : (c : Dev nD) → (b : Ref sig .tc) → Buf (Elt F) ((c : Thread nD τ).loc b))

/-- The distinct buffers behind the windows, one by one, each whole at the full share. -/
private theorem arrBufs2_eq (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      = iprop((((c : Thread nD τ).loc main_v0_0) ↦{fullShare} X main_v0_0) ∗ (((c : Thread nD τ).loc main_v1) ↦{fullShare} X main_v1)
          ∗ (((c : Thread nD τ).loc main_arg10) ↦{fullShare} X main_arg10) ∗ (((c : Thread nD τ).loc main_arg11) ↦{fullShare} X main_arg11)
          ∗ (((c : Thread nD τ).loc main_v2) ↦{fullShare} X main_v2)) := by
  unfold Pipeline.arrBufs
  exact bigSep_eq_bigSepL_of_eq [main_v0_0, main_v1, main_arg10, main_arg11, main_v2] (by decide) (by decide) _

/-- The pipeline's arrays at contents G, window by window: every array is a whole buffer; the two windows on the
    first layer's result hold the left and the right half of its share, every other window the full share. -/
private theorem arrays2_eq (c : Dev nD) (G : (w : Fin cfg2.W) → Buf (Elt F) ((cfg2.win w).arr.view.loc (c : Thread nD τ))) :
    ((dat2 V c).arrays G : sProp 𝕄)
      = iprop((((c : Thread nD τ).loc main_v0_0) ↦{fullShare} G 0) ∗ (((c : Thread nD τ).loc main_v1) ↦{fullShare.left} G 1)
          ∗ (((c : Thread nD τ).loc main_v1) ↦{fullShare.right} G 2) ∗ (((c : Thread nD τ).loc main_arg10) ↦{fullShare} G 3)
          ∗ (((c : Thread nD τ).loc main_arg11) ↦{fullShare} G 4) ∗ (((c : Thread nD τ).loc main_v2) ↦{fullShare} G 5)) := by
  have h : ((dat2 V c).arrays G : sProp 𝕄)
      = bigSep Finset.univ fun w => (((c : Thread nD τ).loc (Pipeline.arrRef spec2 w)) ↦{(dat2 V c).share w} G w : sProp 𝕄) := by
    unfold Dat.arrays
    exact bigSep_congr fun w _ => by rw [(arr_whole2 w).set_eq_univ]
  rw [h, bigSep_W2]
  rfl

/-- ENTRY: the five buffers at V are the pipeline's arrays at its entry contents, the shared array's points-to split
    in its two halves. -/
private theorem arrays_entry2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  rw [arrBufs2_eq, arrays2_eq]
  iintro ⟨H0, H1, H3, H4, H5⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H3]; · iexact H3
  isplitl [H4]; · iexact H4
  iexact H5

end Arrays

section Exit

variable (V : (c : Dev nD) → (b : Ref sig .tc) → Buf (Elt F) ((c : Thread nD τ).loc b))

/-- EXIT: the pipeline's arrays at contents G are the five buffers at any valuation that has them at G; the two halves
    of the shared array, at the same contents, join into its full share. -/
private theorem arrays_join2 (c : Dev nD) (G : (w : Fin cfg2.W) → Buf (Elt F) ((cfg2.win w).arr.view.loc (c : Thread nD τ)))
    (X : (b : Ref sig .tc) → Buf (Elt F) ((c : Thread nD τ).loc b))
    (h0 : G 0 = X main_v0_0) (h1 : G 1 = X main_v1) (h2 : G 2 = X main_v1) (h3 : G 3 = X main_arg10)
    (h4 : G 4 = X main_arg11) (h5 : G 5 = X main_v2) :
    ((dat2 V c).arrays G : sProp 𝕄)
      ⊢ Pipeline.arrBufs (Ix := Unit) (Name := ℕ) (U := UR sig nD τ) (Lvl := ℕ) spec2 c X := by
  rw [arrBufs2_eq, arrays2_eq, h0, h1, h2, h3, h4, h5]
  iintro ⟨H0, H1l, H1r, H3, H4, H5⟩
  isplitl [H0]; · iexact H0
  isplitl [H1l H1r]
  · iapply (pointsTo_share (PosShare.mem_left_op_right fullShare)).2
    isplitl [H1l]; · iexact H1l
    iexact H1r
  isplitl [H3]; · iexact H3
  isplitl [H4]; · iexact H4
  iexact H5

/-- An input window's array is never written: at every point it holds its entry contents, read off V. -/
private theorem arrAt2_in (c : Dev nD) (w : Fin cfg2.W) (hin : (cfg2.win w).isOut = false) (t : ℕ) :
    (dat2 V c).arrAt w t = V c (Pipeline.arrRef spec2 w) :=
  (Dat.arrAt_in (dat2 V c) w hin t).trans (A_eq2 V c w)

end Exit

variable (m : (ℓ : Loc nD τ sig) → Buf (Elt F) ℓ)

/-- The contents after region 2 differ from those before it at the output array only. -/
private theorem V3_of_ne (c : Dev nD) (b : Ref sig .tc) (h : b ≠ main_v2) : V3 m c b = V2 m c b := by
  show W3 m c _ = W2 m c _
  unfold W3
  exact Function.update_of_ne (StableHlo.devRef_ne_of_ne h) _ _
private theorem V3_out (c : Dev nD) : V3 m c main_v2 = (dat2 (V2 m) c).arrAt 5 cfg2.N := by
  show W3 m c _ = _
  unfold W3
  exact Function.update_self _ _ _

/-- EXIT, the buffers' part: the arrays as the pipeline leaves them and the unscoped rest as entered are every unscoped
    buffer held at the contents after the region. -/
private theorem held_exit2 (c : Dev nD) :
    iprop((dat2 (V2 m) c).arrays ((dat2 (V2 m) c).arrAt · cfg2.N)
        ∗ Pipeline.unscopedRest (Ix := Unit) (Name := ℕ) (U := UR sig nD τ) (Lvl := ℕ) spec2 c (V2 m c))
      ⊢ (StableHlo.held (c : Thread nD τ) (Pipeline.ucRefs τ sig) (W3 m c) : sProp 𝕄) := by
  rw [← Pipeline.unscopedBufs_held,
    show (unscopedBufs (Ix := Unit) (Name := ℕ) (U := UR sig nD τ) (Lvl := ℕ) c (V3 m c) : sProp 𝕄)
      = iprop(Pipeline.arrBufs spec2 c (V3 m c) ∗ Pipeline.unscopedRest spec2 c (V3 m c))
      from Pipeline.unscopedBufs_split₀ cfgs 2 winFacts₀2.arr_unscoped c (V3 m c)]
  refine sep_mono (arrays_join2 (V2 m) c _ (V3 m c) ?_ ?_ ?_ ?_ ?_ ?_) (Entails.of_eq ?_)
  · exact (arrAt2_in (V2 m) c 0 rfl _).trans (V3_of_ne m c main_v0_0 (by decide)).symm
  · exact (arrAt2_in (V2 m) c 1 rfl _).trans (V3_of_ne m c main_v1 (by decide)).symm
  · exact (arrAt2_in (V2 m) c 2 rfl _).trans (V3_of_ne m c main_v1 (by decide)).symm
  · exact (arrAt2_in (V2 m) c 3 rfl _).trans (V3_of_ne m c main_arg10 (by decide)).symm
  · exact (arrAt2_in (V2 m) c 4 rfl _).trans (V3_of_ne m c main_arg11 (by decide)).symm
  · exact (V3_out m c).symm
  · unfold Pipeline.unscopedRest
    exact bigSep_congr fun b hb => by
      rw [V3_of_ne m c b fun e => (Finset.mem_sdiff.mp hb).2 (Finset.mem_image.mpr ⟨5, Finset.mem_univ _, e.symm⟩)]

/-- ENTRY, the buffers' part: every unscoped buffer held at the contents before the region is the pipeline's arrays at
    its entry contents and the unscoped rest. -/
private theorem held_entry2 (c : Dev nD) :
    (StableHlo.held (c : Thread nD τ) (Pipeline.ucRefs τ sig) (W2 m c) : sProp 𝕄)
      ⊢ iprop((dat2 (V2 m) c).arrays ((dat2 (V2 m) c).arrAt · 0)
        ∗ Pipeline.unscopedRest (Ix := Unit) (Name := ℕ) (U := UR sig nD τ) (Lvl := ℕ) spec2 c (V2 m c)) := by
  rw [← Pipeline.unscopedBufs_held,
    show (unscopedBufs (Ix := Unit) (Name := ℕ) (U := UR sig nD τ) (Lvl := ℕ) c (V2 m c) : sProp 𝕄)
      = iprop(Pipeline.arrBufs spec2 c (V2 m c) ∗ Pipeline.unscopedRest spec2 c (V2 m c))
      from Pipeline.unscopedBufs_split₀ cfgs 2 winFacts₀2.arr_unscoped c (V2 m c)]
  exact sep_mono (arrays_entry2 (V2 m) c) .rfl

/-- After any point the body's invariant holds the accumulator scratch at some contents, beside the other scoped
    buffers and the generator register. -/
private theorem Phi2_pos (V : (c : Dev nD) → (b : Ref sig .tc) → Buf (Elt F) ((c : Thread nD τ).loc b)) (c : Dev nD) :
    ∀ (n : ℕ) (hn : n ≤ cfg2.N), n ≠ 0 → Phi2 V c n hn
      ⊢ iprop((∃ f : Buf (Elt F) ((c : Thread nD τ).loc cc2_scratch0), ((c : Thread nD τ).loc cc2_scratch0) ↦{fullShare} f)
        ∗ Pipeline.scopedRestBut (Ix := Unit) (Name := ℕ) (U := UR sig nD τ) (Lvl := ℕ) (Val := Elt F) spec2 c [cc2_scratch0]
        ∗ ∃ r, prngReg c r)
  | 0, _, h => absurd rfl h
  | n + 1, hn, _ => by
    show iprop(owns (c : Thread nD τ) (Memref.whole cc2_scratch0) fullShare (acc2 V c n hn)
      ∗ Pipeline.scopedRestBut (Ix := Unit) (Name := ℕ) (U := UR sig nD τ) (Lvl := ℕ) (Val := Elt F) spec2 c [cc2_scratch0]
      ∗ ∃ r, prngReg c r) ⊢ _
    rw [owns_whole]
    iintro ⟨Hs, Hrest, Hr⟩
    isplitl [Hs]; · iexists _; iexact Hs
    isplitl [Hrest]; · iexact Hrest
    iexact Hr

set_option backward.isDefEq.respectTransparency.types false in
/-- Region 2 entered from every unscoped buffer at W2, left at W3. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V2 m) c).loose
  hwaits := Pipeline.hwaits_of_owed_zero _ _ _ _ L lv 2 fun _ _ => rfl
  pre c := T (W2 m) c
  post c := T (W3 m) c
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := held_entry2 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ _ from Phi2_pos (V2 m) c cfg2.N (Nat.le_refl _)
      (fun h => by have h2 : grid2.N = 256 := N_2; have h3 : grid2.N = 0 := h; omega)).trans ?_
    show _ ⊢ iprop((∃ r, prngReg c r) ∗ BI.emp ∗ Pipeline.scopedRest (Ix := Unit) (Name := ℕ) (U := UR sig nD τ) (Lvl := ℕ) (Val := Elt F) spec2 c)
    rw [scopedRest2_split]
    iintro ⟨Hs, Hrest, Hr⟩
    isplitl [Hr]; · iexact Hr
    isplitr; · iempintro
    isplitl [Hs]; · iexact Hs
    iexact Hrest
  hexit c := by
    have hjoin := held_exit2 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

theorem reg2_pre (c : Dev nD) : (reg2 m).pre c = T (W2 m) c := rfl
theorem reg2_post (c : Dev nD) : (reg2 m).post c = T (W3 m) c := rfl

end Cert.KernelIdeal.Hand

end
-- ==== Proof.Run.lean ====
/-
  The run of @main: the three regions composed, every unscoped buffer read at the end.
-/
import proofs.«160379_j10187662426197_1_alg».proof.Proof.Reg0
import proofs.«160379_j10187662426197_1_alg».proof.Proof.Reg1
import proofs.«160379_j10187662426197_1_alg».proof.Proof.Reg2

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state without the owes: every unscoped buffer at W3, the generator register at some state. -/
private abbrev Tₙ (c : Dev nD) : sProp 𝕄 := iprop(StableHlo.held (c : Thread nD τ) (Pipeline.ucRefs τ sig) (W3 m c) ∗ ∃ r, prngReg c r)

/-- @main's three segments in order: a region per custom call, no host operation between them. -/
private abbrev segs : List (Seg (pcfgs (F := F)) adm (pdats m) () defs₀ 𝒱₀ L lv) :=
  [ .region (reg0 m), .region (reg1 m), .region (reg2 m) ]

/-- The thread states chain: each region is entered from the boundary contents the one before it left, and the last
    boundary's state is the last thread state beside the core owing nothing (separating conjunction reassociated). -/
private theorem chains : Seg.Chains (T (W0 m)) (segs m)
    fun c => iprop(Tₙ m c ∗ ∃ W, owes (c : Thread nD τ) (0 : CellTallies nD τ sig Unit) W) := by
  refine ⟨fun c => ?_, fun c => ?_, fun c => ?_, fun c => ?_⟩
  · show T (W0 m) c ⊢ (reg0 m).pre c
    rw [reg0_pre]
  · show (reg0 m).post c ⊢ (reg1 m).pre c
    rw [reg0_post, reg1_pre]
  · show (reg1 m).post c ⊢ (reg2 m).pre c
    rw [reg1_post, reg2_pre]
  · show (reg2 m).post c ⊢ iprop(Tₙ m c ∗ ∃ W, owes (c : Thread nD τ) (0 : CellTallies nD τ sig Unit) W)
    rw [reg2_post]
    iintro ⟨Hh, Hp, HO⟩
    isplitl [Hh Hp]
    · isplitl [Hh] <;> iassumption
    iexact HO

set_option backward.isDefEq.respectTransparency.types false in
/-- Every weakly fair execution of @main terminates, nothing faulting, with every unscoped buffer of every core at W3. -/
theorem run_all : θ_run (defs (F := F)) (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) (reg2 m) c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    (hch := chains m)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun _ h => h)

end Cert.KernelIdeal.Hand

end
-- ==== Proof.Bounds.lean ====
/-
  The boundary contents read at one array: a region's output array holds what that region's write-backs leave,
  every other array what it held at the boundary before; in particular no region writes an argument array.
-/
import proofs.«160379_j10187662426197_1_alg».proof.Proof.Pdats

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (c : Dev nD)

/-! ## After region 0 -/

theorem V1_v0_0 : V1 m c main_v0_0 = (dat0 (V0 m) c).arrAt 10 cfg0.N := by
  show W1 m c (Proc.devRef .tc main_v0_0) = _
  unfold W1
  rw [Function.update_of_ne (StableHlo.devRef_ne_of_ne (by decide) : (Proc.devRef .tc main_v0_0 : DevRef τ sig) ≠ Proc.devRef .tc main_v0_3), Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1), Function.update_self]
theorem V1_v0_1 : V1 m c main_v0_1 = (dat0 (V0 m) c).arrAt 11 cfg0.N := by
  show W1 m c (Proc.devRef .tc main_v0_1) = _
  unfold W1
  rw [Function.update_of_ne (StableHlo.devRef_ne_of_ne (by decide) : (Proc.devRef .tc main_v0_1 : DevRef τ sig) ≠ Proc.devRef .tc main_v0_3), Function.update_of_ne (StableHlo.devRef_ne_of_ne (by decide) : (Proc.devRef .tc main_v0_1 : DevRef τ sig) ≠ Proc.devRef .tc main_v0_2), Function.update_self]
theorem V1_v0_2 : V1 m c main_v0_2 = (dat0 (V0 m) c).arrAt 12 cfg0.N := by
  show W1 m c (Proc.devRef .tc main_v0_2) = _
  unfold W1
  rw [Function.update_of_ne (StableHlo.devRef_ne_of_ne (by decide) : (Proc.devRef .tc main_v0_2 : DevRef τ sig) ≠ Proc.devRef .tc main_v0_3), Function.update_self]
theorem V1_v0_3 : V1 m c main_v0_3 = (dat0 (V0 m) c).arrAt 13 cfg0.N := by
  show W1 m c (Proc.devRef .tc main_v0_3) = _
  unfold W1
  rw [Function.update_self]
/-- Region 0 changes no array but its four outputs. -/
theorem V1_of (r : Ref sig .tc) (h0 : r ≠ main_v0_0) (h1 : r ≠ main_v0_1) (h2 : r ≠ main_v0_2) (h3 : r ≠ main_v0_3) :
    V1 m c r = V0 m c r := by
  show W1 m c (Proc.devRef .tc r) = W0 m c (Proc.devRef .tc r)
  unfold W1
  rw [Function.update_of_ne (StableHlo.devRef_ne_of_ne h3), Function.update_of_ne (StableHlo.devRef_ne_of_ne h2),
    Function.update_of_ne (StableHlo.devRef_ne_of_ne h1), Function.update_of_ne (StableHlo.devRef_ne_of_ne h0)]

/-! ## After region 1 -/

theorem V2_v1 : V2 m c main_v1 = (dat1 (V1 m) c).arrAt 4 cfg1.N := by
  show W2 m c (Proc.devRef .tc main_v1) = _
  unfold W2
  rw [Function.update_self]
/-- Region 1 changes no array but its output. -/
theorem V2_of (r : Ref sig .tc) (h : r ≠ main_v1) : V2 m c r = V1 m c r := by
  show W2 m c (Proc.devRef .tc r) = W1 m c (Proc.devRef .tc r)
  unfold W2
  rw [Function.update_of_ne (StableHlo.devRef_ne_of_ne h)]

/-! ## After region 2 -/

theorem V3_v2 : V3 m c main_v2 = (dat2 (V2 m) c).arrAt 5 cfg2.N := by
  show W3 m c (Proc.devRef .tc main_v2) = _
  unfold W3
  rw [Function.update_self]
/-- Region 2 changes no array but its output. -/
theorem V3_of (r : Ref sig .tc) (h : r ≠ main_v2) : V3 m c r = V2 m c r := by
  show W3 m c (Proc.devRef .tc r) = W2 m c (Proc.devRef .tc r)
  unfold W3
  rw [Function.update_of_ne (StableHlo.devRef_ne_of_ne h)]

/-- No region writes an array other than the six results: such an array ends as launched. -/
theorem arg_eq (r : Ref sig .tc) (h0 : r ≠ main_v0_0) (h1 : r ≠ main_v0_1) (h2 : r ≠ main_v0_2) (h3 : r ≠ main_v0_3)
    (h4 : r ≠ main_v1) (h5 : r ≠ main_v2) : V3 m c r = V0 m c r := by
  rw [V3_of m c r h5, V2_of m c r h4, V1_of m c r h0 h1 h2 h3]

end Cert.KernelIdeal.Hand

end
-- ==== Proof.Frame.lean ====
/-
  The frame: every weakly fair execution of @main terminates, nothing faulting, and every argument array ends as
  launched — the run over the three regions, read at the twelve arguments, none of which a region writes.
-/
import proofs.«160379_j10187662426197_1_alg».proof.Proof.Run
import proofs.«160379_j10187662426197_1_alg».proof.Proof.Bounds

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame claim, at any float instance. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := F)) _ _).mono (fun r h c =>
    ⟨(h c _ (mem_uc main_arg0 (by decide))).trans (arg_eq m c main_arg0 (by decide) (by decide) (by decide) (by decide) (by decide) (by decide)),
     (h c _ (mem_uc main_arg1 (by decide))).trans (arg_eq m c main_arg1 (by decide) (by decide) (by decide) (by decide) (by decide) (by decide)),
     (h c _ (mem_uc main_arg2 (by decide))).trans (arg_eq m c main_arg2 (by decide) (by decide) (by decide) (by decide) (by decide) (by decide)),
     (h c _ (mem_uc main_arg3 (by decide))).trans (arg_eq m c main_arg3 (by decide) (by decide) (by decide) (by decide) (by decide) (by decide)),
     (h c _ (mem_uc main_arg4 (by decide))).trans (arg_eq m c main_arg4 (by decide) (by decide) (by decide) (by decide) (by decide) (by decide)),
     (h c _ (mem_uc main_arg5 (by decide))).trans (arg_eq m c main_arg5 (by decide) (by decide) (by decide) (by decide) (by decide) (by decide)),
     (h c _ (mem_uc main_arg6 (by decide))).trans (arg_eq m c main_arg6 (by decide) (by decide) (by decide) (by decide) (by decide) (by decide)),
     (h c _ (mem_uc main_arg7 (by decide))).trans (arg_eq m c main_arg7 (by decide) (by decide) (by decide) (by decide) (by decide) (by decide)),
     (h c _ (mem_uc main_arg8 (by decide))).trans (arg_eq m c main_arg8 (by decide) (by decide) (by decide) (by decide) (by decide) (by decide)),
     (h c _ (mem_uc main_arg9 (by decide))).trans (arg_eq m c main_arg9 (by decide) (by decide) (by decide) (by decide) (by decide) (by decide)),
     (h c _ (mem_uc main_arg10 (by decide))).trans (arg_eq m c main_arg10 (by decide) (by decide) (by decide) (by decide) (by decide) (by decide)),
     (h c _ (mem_uc main_arg11 (by decide))).trans (arg_eq m c main_arg11 (by decide) (by decide) (by decide) (by decide) (by decide) (by decide))⟩)
    (run_all m ρ)

end Cert.KernelIdeal.Hand

end
-- ==== Proof.Spec.lean ====
/-
  The four results as functions of the twelve argument arrays over the extended reals, index by index, and the
  one law that joins the kernel's blocked accumulation to the reference's whole contraction.

  With A₁, A₂, A₃ the relation matrices, w the three merge weights, tok_r the token tables:
    tokFeat A tok (r, n)   = Σ_k A(r, k) · tok(k, n)
    merged (r, s)          = A₁(r, s) · w₀ + A₂(r, s) · w₁ + A₃(r, s) · w₂
    adj (r, s)             = merged (r, s) + merged (s, r)
    gc adj x W b (r, n)    = (Σ_k adj(r, k) · (Σ_f x(k, f) · W(f, n))) + b(n)
    out (r, n)             = (U₁(r, n) + U₂(r, n)) · ½,   U₁ = gc adj feature W₁ b₁,  U₂ = gc adj U₁ W₂ b₂.
  A contraction over 8192 = 16 · 512 indices is the sum over the 16 blocks of the sums inside each block; sums in
  the extended reals may be regrouped freely (addition there is commutative and associative), so no finiteness
  is needed.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Arr (n0 n1 : Nat) : Type := (⟨2, ![n0, n1]⟩ : Shape).Idx → EReal
/-- A rank-1 array of extended reals. -/
abbrev Arr1 (n : Nat) : Type := (⟨1, ![n]⟩ : Shape).Idx → EReal

/-- The array whose entry at (a, b) is g a b. -/
def arr2 {n0 n1 : Nat} (g : Fin n0 → Fin n1 → EReal) : Arr n0 n1 := fun i => g (i 0) (i 1)
theorem arr2_ix2 {n0 n1 : Nat} (g : Fin n0 → Fin n1 → EReal) (a : Fin n0) (b : Fin n1) : arr2 g (ix2 a b) = g a b := rfl

/-- The word of one half. -/
abbrev half : EReal := Ideal.ofBits .f32 0x3F000000#32

/-- A relation matrix times its token table. -/
def tokFeat (A : Arr 8192 8192) (tok : Arr 8192 10) (r : Fin 8192) (n : Fin 10) : EReal :=
  ∑ k : Fin 8192, A (ix2 r k) * tok (ix2 k n)

/-- The weighted sum of the three relation matrices. -/
def merged (A1 A2 A3 : Arr 8192 8192) (wb : Arr 3 1) (r s : Fin 8192) : EReal :=
  A1 (ix2 r s) * wb (ix2 0 0) + A2 (ix2 r s) * wb (ix2 1 0) + A3 (ix2 r s) * wb (ix2 2 0)

/-- The symmetrized adjacency. -/
def adjS (A1 A2 A3 : Arr 8192 8192) (wb : Arr 3 1) (r s : Fin 8192) : EReal :=
  merged A1 A2 A3 wb r s + merged A1 A2 A3 wb s r

/-- A graph-convolution layer: adj · (x · W) + b. -/
def gcS {d : Nat} (adj : Arr 8192 8192) (x : Arr 8192 d) (W : Arr d 128) (b : Arr1 128) (r : Fin 8192) (n : Fin 128) : EReal :=
  (∑ k : Fin 8192, adj (ix2 r k) * (∑ f : Fin d, x (ix2 k f) * W (ix2 f n))) + b (ix1 n)

/-- The readout: the mean of the two layers' embeddings. -/
def outS (u1 u2 : Arr 8192 128) (r : Fin 8192) (n : Fin 128) : EReal :=
  (u1 (ix2 r n) + u2 (ix2 r n)) * half

/-- The index 512 · b + k of block b, offset k. -/
def blkIx (b : Fin 16) (k : Fin 512) : Fin 8192 := ⟨512 * b.val + k.val, by omega⟩

/-- A sum over 8192 indices is the sum over its 16 blocks of 512 of the sums inside each block. -/
theorem sum_blocks (g : Fin 8192 → EReal) : (∑ b : Fin 16, ∑ k : Fin 512, g (blkIx b k)) = ∑ j : Fin 8192, g j := by
  rw [← Finset.sum_product']
  refine Finset.sum_bij' (fun p _ => blkIx p.1 p.2) (fun j _ => (⟨j.val / 512, by omega⟩, ⟨j.val % 512, Nat.mod_lt _ (by decide)⟩))
    (fun _ _ => Finset.mem_univ _) (fun _ _ => Finset.mem_univ _) ?_ ?_ (fun _ _ => rfl)
  · rintro ⟨b, k⟩ _
    refine Prod.ext (Fin.ext ?_) (Fin.ext ?_)
    · show (512 * b.val + k.val) / 512 = b.val
      omega
    · show (512 * b.val + k.val) % 512 = k.val
      omega
  · intro j _
    refine Fin.ext ?_
    show 512 * (j.val / 512) + j.val % 512 = j.val
    omega

/-- An accumulator started at 0 + d 0 and then adding d 1, …, d n holds 0 + the sum of d over 0 … n. -/
theorem fold_sum (d : ℕ → EReal) (acc : ℕ → EReal) (h0 : acc 0 = 0 + d 0) (hs : ∀ n, acc (n + 1) = acc n + d (n + 1)) (n : ℕ) :
    acc n = ∑ k ∈ Finset.range (n + 1), d k := by
  induction n with
  | zero => rw [h0, zero_add, Finset.sum_range_one]
  | succ n ih => rw [hs, ih, Finset.sum_range_succ _ (n + 1)]

end Cert.Spec

end
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.Value0a.lean ====
/-
  Region 0 at the ideal instance, the pointwise part: the payloads of the body read at an index, and the
  accumulation over one grid row.

  With the grid point t = (i, j) = (t / 16, t % 16): the accumulate payload at entry (p, n) is what the block held
  plus the row p of the 512×512 relation block against the column n of the 512×10 token block; the zero payload is 0;
  a block that is reset to zero at j = 0 and accumulated at every j holds, at j = 15, the sum over the 16 column
  blocks of the sums inside each block, which is the sum over all 8192 columns (sums in the extended reals regroup
  freely). The adjacency payload at (p, q) is the weighted sum of three blocks at (p, q) plus, through the transpose,
  the weighted sum of three other blocks at (q, p), the weights read out of the 3×1 weights block.
-/
import proofs.«160379_j10187662426197_1_alg».proof.Proof.Dat0
import proofs.«160379_j10187662426197_1_alg».proof.Proof.Spec
import proofs.«160379_j10187662426197_1_alg».proof.Proof.LibRowDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

open Cert.Spec Idealize.ShloMosaic.ValueIdx

variable (V : (c : Dev nD) → (b : Ref sig .tc) → Buf (Elt Ideal) ((c : Thread nD τ).loc b))

open Cert.LibRowDot (rowDot)

/-! ## The grid of region 0: point t is (t / 16, t % 16) -/

theorem N0_eq : cfg0.N = 256 := N_0

/-- Row 512 · (t / 16) + p of an 8192-row array: offset p inside the row block of point t. -/
def rowIx (t : Fin cfg0.N) (p : Fin 512) : Fin 8192 :=
  ⟨512 * (t.val / 16) + p.val, by have := t.isLt; have := N0_eq; omega⟩
/-- Column 512 · (t % 16) + k: offset k inside the column block of point t. -/
def colIx (t : Fin cfg0.N) (k : Fin 512) : Fin 8192 :=
  ⟨512 * (t.val % 16) + k.val, by omega⟩

/-! ## The accumulate payload and the zero payload at an index -/

/-- The accumulate payload at an index: what was there plus the block's row against the token block's column. -/
theorem pay1_apply (x : Vec Ideal S512x512 .f32) (tk prev : Vec Ideal S512x10 .f32) (p : Fin 512) (n : Fin 10) :
    (k0_pay1 (F := Ideal) x tk prev) (ix2 p n) = prev (ix2 p n) + rowDot x tk p n := by
  unfold k0_pay1
  refine (addf_apply _ _ _).trans ?_
  refine congrArg₂ (· + ·) ?_ ?_
  · exact congrFun (shapeCast_self prev _) (ix2 p n)
  · refine (Ideal.matmul_constant_zero_apply dot_S512x512_S512x10_S512x10_1_0_0_1_n_n none _ _ (ix2 p n)).trans ?_
    exact Cert.LibRowDot.sum_contr_eq_rowDot dot_S512x512_S512x10_S512x10_1_0_0_1_n_n rfl rfl rfl rfl rfl rfl _ _ (ix2 p n)

theorem pay2_apply (x : Vec Ideal S512x512 .f32) (tk prev : Vec Ideal S512x10 .f32) (p : Fin 512) (n : Fin 10) :
    (k0_pay2 (F := Ideal) x tk prev) (ix2 p n) = prev (ix2 p n) + rowDot x tk p n := by
  unfold k0_pay2
  refine (addf_apply _ _ _).trans ?_
  refine congrArg₂ (· + ·) ?_ ?_
  · exact congrFun (shapeCast_self prev _) (ix2 p n)
  · refine (Ideal.matmul_constant_zero_apply dot_S512x512_S512x10_S512x10_1_0_0_1_n_n none _ _ (ix2 p n)).trans ?_
    exact Cert.LibRowDot.sum_contr_eq_rowDot dot_S512x512_S512x10_S512x10_1_0_0_1_n_n rfl rfl rfl rfl rfl rfl _ _ (ix2 p n)

theorem pay3_apply (x : Vec Ideal S512x512 .f32) (tk prev : Vec Ideal S512x10 .f32) (p : Fin 512) (n : Fin 10) :
    (k0_pay3 (F := Ideal) x tk prev) (ix2 p n) = prev (ix2 p n) + rowDot x tk p n := by
  unfold k0_pay3
  refine (addf_apply _ _ _).trans ?_
  refine congrArg₂ (· + ·) ?_ ?_
  · exact congrFun (shapeCast_self prev _) (ix2 p n)
  · refine (Ideal.matmul_constant_zero_apply dot_S512x512_S512x10_S512x10_1_0_0_1_n_n none _ _ (ix2 p n)).trans ?_
    exact Cert.LibRowDot.sum_contr_eq_rowDot dot_S512x512_S512x10_S512x10_1_0_0_1_n_n rfl rfl rfl rfl rfl rfl _ _ (ix2 p n)

/-- The zero payloads at an index. -/
theorem pay4_apply (p : Fin 512) (n : Fin 10) : (k0_pay4 (F := Ideal)) (ix2 p n) = 0 := by
  unfold k0_pay4
  exact Ideal.ofBits_zero_f32
theorem pay5_apply (p : Fin 512) (n : Fin 10) : (k0_pay5 (F := Ideal)) (ix2 p n) = 0 := by
  unfold k0_pay5
  exact Ideal.ofBits_zero_f32
theorem pay6_apply (p : Fin 512) (n : Fin 10) : (k0_pay6 (F := Ideal)) (ix2 p n) = 0 := by
  unfold k0_pay6
  exact Ideal.ofBits_zero_f32

/-! ## An accumulator over one grid row -/

/-- A point-indexed quantity that is 0 + M n at the first point of a grid row and adds M (n + 1) to what the point
    before left elsewhere is, at offset j of row i, the sum of M over the row's points up to j. -/
theorem fold16 (f : (n : ℕ) → n < cfg0.N → EReal) (M : ℕ → EReal)
    (h0 : ∀ (n : ℕ) (h : n < cfg0.N), n % 16 = 0 → f n h = 0 + M n)
    (hs : ∀ (n : ℕ) (h : n + 1 < cfg0.N), ¬(n + 1) % 16 = 0 → f (n + 1) h = f n (Nat.lt_of_succ_lt h) + M (n + 1))
    (i : ℕ) : ∀ (j : ℕ) (_ : j < 16) (h : 16 * i + j < cfg0.N),
      f (16 * i + j) h = ∑ s ∈ Finset.range (j + 1), M (16 * i + s)
  | 0, _, h => by rw [h0 _ h (by omega), zero_add, Finset.sum_range_one]
  | j + 1, hj, h => by
    rw [Finset.sum_range_succ _ (j + 1), ← fold16 f M h0 hs i j (by omega) (by omega)]
    exact hs (16 * i + j) h (by omega)

/-- THE ACCUMULATED BLOCK AT THE LAST POINT OF A GRID ROW. A block that starts each grid row at the zero block plus the
    product of the row's first relation block and token block, and adds the next product at each later point, holds at
    the row's last point, entry (p, q), the whole contraction over the 8192 columns: the 16 blocks of 512 regrouped. -/
theorem rows_of_rec (f : (n : ℕ) → n < cfg0.N → Vec Ideal S512x10 .f32)
    (xa : Fin cfg0.N → Vec Ideal S512x512 .f32) (xt : Fin cfg0.N → Vec Ideal S512x10 .f32)
    (pay : Vec Ideal S512x512 .f32 → Vec Ideal S512x10 .f32 → Vec Ideal S512x10 .f32 → Vec Ideal S512x10 .f32)
    (z : Vec Ideal S512x10 .f32)
    (hpay : ∀ x tk prev (p : Fin 512) (n : Fin 10), pay x tk prev (ix2 p n) = prev (ix2 p n) + rowDot x tk p n)
    (hz : ∀ (p : Fin 512) (n : Fin 10), z (ix2 p n) = 0)
    (f0 : ∀ h, f 0 h = pay (xa ⟨0, h⟩) (xt ⟨0, h⟩) z)
    (fs : ∀ (n : ℕ) (h : n + 1 < cfg0.N), f (n + 1) h
      = pay (xa ⟨n + 1, h⟩) (xt ⟨n + 1, h⟩) (if (n + 1) % 16 = 0 then z else f n (Nat.lt_of_succ_lt h)))
    (A : Arr 8192 8192) (tok : Arr 8192 10)
    (hA : ∀ (t : Fin cfg0.N) (p k : Fin 512), xa t (ix2 p k) = A (ix2 (rowIx t p) (colIx t k)))
    (hT : ∀ (t : Fin cfg0.N) (k : Fin 512) (q : Fin 10), xt t (ix2 k q) = tok (ix2 (colIx t k) q))
    (t : Fin cfg0.N) (ht : t.val % 16 = 15) (p : Fin 512) (q : Fin 10) :
    f t.val t.isLt (ix2 p q) = tokFeat A tok (rowIx t p) q := by
  have hN : cfg0.N = 256 := N0_eq
  have htl := t.isLt
  let M : ℕ → EReal := fun n => if h : n < cfg0.N then rowDot (xa ⟨n, h⟩) (xt ⟨n, h⟩) p q else 0
  have hM : ∀ (n : ℕ) (h : n < cfg0.N), M n = rowDot (xa ⟨n, h⟩) (xt ⟨n, h⟩) p q := fun n h => dif_pos h
  have h0 : ∀ (n : ℕ) (h : n < cfg0.N), n % 16 = 0 → f n h (ix2 p q) = 0 + M n := by
    intro n h hn
    rw [hM n h]
    cases n with
    | zero => rw [f0 h, hpay, hz]
    | succ m => rw [fs m h, if_pos hn, hpay, hz]
  have hs : ∀ (n : ℕ) (h : n + 1 < cfg0.N), ¬(n + 1) % 16 = 0 →
      f (n + 1) h (ix2 p q) = f n (Nat.lt_of_succ_lt h) (ix2 p q) + M (n + 1) := by
    intro n h hn
    rw [hM (n + 1) h, fs n h, if_neg hn, hpay]
  have hfold := fold16 (fun n h => f n h (ix2 p q)) M h0 hs (t.val / 16) 15 (by omega) (by omega)
  have same : ∀ (u : ℕ) (hu : u < cfg0.N), u = t.val → f u hu (ix2 p q) = f t.val t.isLt (ix2 p q) :=
    fun u hu e => by subst e; rfl
  rw [← same (16 * (t.val / 16) + 15) (by omega) (by omega)]
  refine hfold.trans ?_
  rw [Finset.sum_range]
  unfold tokFeat
  refine Eq.trans ?_ (Spec.sum_blocks (fun j => A (ix2 (rowIx t p) j) * tok (ix2 j q)))
  refine Finset.sum_congr rfl fun b _ => ?_
  have hb := b.isLt
  rw [hM (16 * (t.val / 16) + b.val) (by omega)]
  unfold rowDot
  refine Finset.sum_congr rfl fun k _ => ?_
  rw [hA, hT]
  have e1 : rowIx ⟨16 * (t.val / 16) + b.val, by omega⟩ p = rowIx t p :=
    Fin.ext (by show 512 * ((16 * (t.val / 16) + b.val) / 16) + p.val = 512 * (t.val / 16) + p.val; omega)
  have e2 : colIx ⟨16 * (t.val / 16) + b.val, by omega⟩ k = blkIx b k :=
    Fin.ext (by show 512 * ((16 * (t.val / 16) + b.val) % 16) + k.val = 512 * b.val + k.val; omega)
  rw [e1, e2]

/-! ## The adjacency block: a pointwise payload -/

/-- The three merge weights read out of the 3×1 weights block. -/
theorem w0_apply (wb : Vec Ideal S3x1 .f32) (h : S3x1.Slices ![0, 0] S1x1) (hp : ∀ a, (![0, 0] : Fin 2 → Nat) a < S1x1.size a) :
    extractAt ![0, 0] (extractStridedSlice S1x1 ![0, 0] wb h) hp = wb (ix2 0 0) := by
  unfold extractAt
  refine extractStridedSlice_apply _ wb h _ (ix2 0 0) fun a => ?_
  match a with
  | ⟨0, _⟩ => rfl
  | ⟨1, _⟩ => rfl
theorem w1_apply (wb : Vec Ideal S3x1 .f32) (h : S3x1.Slices ![1, 0] S1x1) (hp : ∀ a, (![0, 0] : Fin 2 → Nat) a < S1x1.size a) :
    extractAt ![0, 0] (extractStridedSlice S1x1 ![1, 0] wb h) hp = wb (ix2 1 0) := by
  unfold extractAt
  refine extractStridedSlice_apply _ wb h _ (ix2 1 0) fun a => ?_
  match a with
  | ⟨0, _⟩ => rfl
  | ⟨1, _⟩ => rfl
theorem w2_apply (wb : Vec Ideal S3x1 .f32) (h : S3x1.Slices ![2, 0] S1x1) (hp : ∀ a, (![0, 0] : Fin 2 → Nat) a < S1x1.size a) :
    extractAt ![0, 0] (extractStridedSlice S1x1 ![2, 0] wb h) hp = wb (ix2 2 0) := by
  unfold extractAt
  refine extractStridedSlice_apply _ wb h _ (ix2 2 0) fun a => ?_
  match a with
  | ⟨0, _⟩ => rfl
  | ⟨1, _⟩ => rfl

/-- The adjacency payload at an index: the weighted sum of the three blocks at (p, q) plus the weighted sum of the
    three mirrored blocks at (q, p) (the transpose reads the mirrored entry). -/
theorem pay7_apply (wb : Vec Ideal S3x1 .f32) (a1 a2 a3 b1 b2 b3 : Vec Ideal S512x512 .f32) (p q : Fin 512) :
    (k0_pay7 (F := Ideal) wb a1 a2 a3 b1 b2 b3) (ix2 p q)
      = (a1 (ix2 p q) * wb (ix2 0 0) + a2 (ix2 p q) * wb (ix2 1 0) + a3 (ix2 p q) * wb (ix2 2 0))
        + (b1 (ix2 q p) * wb (ix2 0 0) + b2 (ix2 q p) * wb (ix2 1 0) + b3 (ix2 q p) * wb (ix2 2 0)) := by
  unfold k0_pay7
  refine (addf_apply _ _ _).trans ?_
  refine congrArg₂ (· + ·) ?_ ?_
  · show a1 (ix2 p q) * extractAt ![0, 0] (extractStridedSlice S1x1 ![0, 0] wb slices_S3x1_o0_0_S1x1) inpos_S1x1_p0_0
        + a2 (ix2 p q) * extractAt ![0, 0] (extractStridedSlice S1x1 ![1, 0] wb slices_S3x1_o1_0_S1x1) inpos_S1x1_p0_0
        + a3 (ix2 p q) * extractAt ![0, 0] (extractStridedSlice S1x1 ![2, 0] wb slices_S3x1_o2_0_S1x1) inpos_S1x1_p0_0 = _
    rw [w0_apply, w1_apply, w2_apply]
  · refine (transpose_apply [1, 0] _ transposes_S512x512_p1_0_S512x512 (ix2 p q) (ix2 q p) ?_).trans ?_
    · intro b
      match b with
      | ⟨0, _⟩ => rfl
      | ⟨1, _⟩ => rfl
    · show b1 (ix2 q p) * extractAt ![0, 0] (extractStridedSlice S1x1 ![0, 0] wb slices_S3x1_o0_0_S1x1) inpos_S1x1_p0_0
        + b2 (ix2 q p) * extractAt ![0, 0] (extractStridedSlice S1x1 ![1, 0] wb slices_S3x1_o1_0_S1x1) inpos_S1x1_p0_0
        + b3 (ix2 q p) * extractAt ![0, 0] (extractStridedSlice S1x1 ![2, 0] wb slices_S3x1_o2_0_S1x1) inpos_S1x1_p0_0 = _
      rw [w0_apply, w1_apply, w2_apply]

/-- So, when the six blocks and the weights block are read off three matrices and a weights array — the direct
    blocks at (r, s), the mirrored ones at (s, r) —, the payload at (p, q) is the symmetrized weighted sum at (r, s). -/
theorem adj_of_blocks (wb : Vec Ideal S3x1 .f32) (a1 a2 a3 b1 b2 b3 : Vec Ideal S512x512 .f32)
    (A1 A2 A3 : Arr 8192 8192) (W : Arr 3 1) (p q : Fin 512) (r s : Fin 8192)
    (h1 : a1 (ix2 p q) = A1 (ix2 r s)) (h2 : a2 (ix2 p q) = A2 (ix2 r s)) (h3 : a3 (ix2 p q) = A3 (ix2 r s))
    (g1 : b1 (ix2 q p) = A1 (ix2 s r)) (g2 : b2 (ix2 q p) = A2 (ix2 s r)) (g3 : b3 (ix2 q p) = A3 (ix2 s r))
    (hw : ∀ k : Fin 3, wb (ix2 k 0) = W (ix2 k 0)) :
    (k0_pay7 (F := Ideal) wb a1 a2 a3 b1 b2 b3) (ix2 p q) = adjS A1 A2 A3 W r s := by
  rw [pay7_apply, h1, h2, h3, g1, g2, g3, hw 0, hw 1, hw 2]
  rfl

end Cert.KernelIdeal.Hand

end
-- ==== Proof.Value0b.lean ====
/-
  Region 0 at the ideal instance, the block reads: each input window's block at the grid point t = (i, j) =
  (t / 16, t % 16), read at an index, is the region-entry array at the shifted index. A block's coordinate on an axis
  is the block index times the block size plus the coordinate inside the block; the block indices are decided once
  over the 256 grid points. Windows 0–2 read block (i, j) of the three relation matrices, windows 3–5 the mirrored
  block (j, i) of the same matrices, windows 6–8 row block j of the three token tables, window 9 the whole weights
  array.
-/
import proofs.«160379_j10187662426197_1_alg».proof.Proof.Value0a

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

open Cert.Spec Idealize.ShloMosaic.ValueIdx

variable (V : (c : Dev nD) → (b : Ref sig .tc) → Buf (Elt Ideal) ((c : Thread nD τ).loc b))

/-! ## The input blocks read at an index: the region-entry arrays at the shifted index -/

theorem idx0_0 : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)

/-- Window 0's block at point t = (i, j) is rows 512 i …, columns 512 j … of its relation matrix. -/
theorem blk0_0 (c : Dev nD) (t : Fin cfg0.N) (p k : Fin 512) :
    (iblk0 V c 0 t : Vec Ideal S512x512 .f32) (ix2 p k) = (V c main_arg1 : Arr 8192 8192) (ix2 (rowIx t p) (colIx t k)) := by
  unfold iblk0
  rw [View.read_apply]
  show V c main_arg1 _ = V c main_arg1 _
  congr 1
  funext a
  apply Fin.ext
  match a with
  | ⟨0, _⟩ => show win0_0.index t 0 * 512 + 1 * p.val = 512 * (t.val / 16) + p.val; rw [(idx0_0 t).1]; omega
  | ⟨1, _⟩ => show win0_0.index t 1 * 512 + 1 * k.val = 512 * (t.val % 16) + k.val; rw [(idx0_0 t).2]; omega

theorem idx0_1 : ∀ t : Fin cfg0.N, win0_1.index t (0 : Fin 2) = t.val / 16 ∧ win0_1.index t (1 : Fin 2) = t.val % 16 :=
  (by decide +kernel : ∀ t : Fin grid0.N, win0_1.index t (0 : Fin 2) = t.val / 16 ∧ win0_1.index t (1 : Fin 2) = t.val % 16)

/-- Window 1's block at point t = (i, j) is rows 512 i …, columns 512 j … of its relation matrix. -/
theorem blk0_1 (c : Dev nD) (t : Fin cfg0.N) (p k : Fin 512) :
    (iblk0 V c 1 t : Vec Ideal S512x512 .f32) (ix2 p k) = (V c main_arg2 : Arr 8192 8192) (ix2 (rowIx t p) (colIx t k)) := by
  unfold iblk0
  rw [View.read_apply]
  show V c main_arg2 _ = V c main_arg2 _
  congr 1
  funext a
  apply Fin.ext
  match a with
  | ⟨0, _⟩ => show win0_1.index t 0 * 512 + 1 * p.val = 512 * (t.val / 16) + p.val; rw [(idx0_1 t).1]; omega
  | ⟨1, _⟩ => show win0_1.index t 1 * 512 + 1 * k.val = 512 * (t.val % 16) + k.val; rw [(idx0_1 t).2]; omega

theorem idx0_2 : ∀ t : Fin cfg0.N, win0_2.index t (0 : Fin 2) = t.val / 16 ∧ win0_2.index t (1 : Fin 2) = t.val % 16 :=
  (by decide +kernel : ∀ t : Fin grid0.N, win0_2.index t (0 : Fin 2) = t.val / 16 ∧ win0_2.index t (1 : Fin 2) = t.val % 16)

/-- Window 2's block at point t = (i, j) is rows 512 i …, columns 512 j … of its relation matrix. -/
theorem blk0_2 (c : Dev nD) (t : Fin cfg0.N) (p k : Fin 512) :
    (iblk0 V c 2 t : Vec Ideal S512x512 .f32) (ix2 p k) = (V c main_arg3 : Arr 8192 8192) (ix2 (rowIx t p) (colIx t k)) := by
  unfold iblk0
  rw [View.read_apply]
  show V c main_arg3 _ = V c main_arg3 _
  congr 1
  funext a
  apply Fin.ext
  match a with
  | ⟨0, _⟩ => show win0_2.index t 0 * 512 + 1 * p.val = 512 * (t.val / 16) + p.val; rw [(idx0_2 t).1]; omega
  | ⟨1, _⟩ => show win0_2.index t 1 * 512 + 1 * k.val = 512 * (t.val % 16) + k.val; rw [(idx0_2 t).2]; omega

theorem idx0_3 : ∀ t : Fin cfg0.N, win0_3.index t (0 : Fin 2) = t.val % 16 ∧ win0_3.index t (1 : Fin 2) = t.val / 16 :=
  (by decide +kernel : ∀ t : Fin grid0.N, win0_3.index t (0 : Fin 2) = t.val % 16 ∧ win0_3.index t (1 : Fin 2) = t.val / 16)

/-- Window 3's block at point t = (i, j) is the mirrored block: rows 512 j …, columns 512 i … of its relation matrix. -/
theorem blk0_3 (c : Dev nD) (t : Fin cfg0.N) (k p : Fin 512) :
    (iblk0 V c 3 t : Vec Ideal S512x512 .f32) (ix2 k p) = (V c main_arg1 : Arr 8192 8192) (ix2 (colIx t k) (rowIx t p)) := by
  unfold iblk0
  rw [View.read_apply]
  show V c main_arg1 _ = V c main_arg1 _
  congr 1
  funext a
  apply Fin.ext
  match a with
  | ⟨0, _⟩ => show win0_3.index t 0 * 512 + 1 * k.val = 512 * (t.val % 16) + k.val; rw [(idx0_3 t).1]; omega
  | ⟨1, _⟩ => show win0_3.index t 1 * 512 + 1 * p.val = 512 * (t.val / 16) + p.val; rw [(idx0_3 t).2]; omega

theorem idx0_4 : ∀ t : Fin cfg0.N, win0_4.index t (0 : Fin 2) = t.val % 16 ∧ win0_4.index t (1 : Fin 2) = t.val / 16 :=
  (by decide +kernel : ∀ t : Fin grid0.N, win0_4.index t (0 : Fin 2) = t.val % 16 ∧ win0_4.index t (1 : Fin 2) = t.val / 16)

/-- Window 4's block at point t = (i, j) is the mirrored block: rows 512 j …, columns 512 i … of its relation matrix. -/
theorem blk0_4 (c : Dev nD) (t : Fin cfg0.N) (k p : Fin 512) :
    (iblk0 V c 4 t : Vec Ideal S512x512 .f32) (ix2 k p) = (V c main_arg2 : Arr 8192 8192) (ix2 (colIx t k) (rowIx t p)) := by
  unfold iblk0
  rw [View.read_apply]
  show V c main_arg2 _ = V c main_arg2 _
  congr 1
  funext a
  apply Fin.ext
  match a with
  | ⟨0, _⟩ => show win0_4.index t 0 * 512 + 1 * k.val = 512 * (t.val % 16) + k.val; rw [(idx0_4 t).1]; omega
  | ⟨1, _⟩ => show win0_4.index t 1 * 512 + 1 * p.val = 512 * (t.val / 16) + p.val; rw [(idx0_4 t).2]; omega

theorem idx0_5 : ∀ t : Fin cfg0.N, win0_5.index t (0 : Fin 2) = t.val % 16 ∧ win0_5.index t (1 : Fin 2) = t.val / 16 :=
  (by decide +kernel : ∀ t : Fin grid0.N, win0_5.index t (0 : Fin 2) = t.val % 16 ∧ win0_5.index t (1 : Fin 2) = t.val / 16)

/-- Window 5's block at point t = (i, j) is the mirrored block: rows 512 j …, columns 512 i … of its relation matrix. -/
theorem blk0_5 (c : Dev nD) (t : Fin cfg0.N) (k p : Fin 512) :
    (iblk0 V c 5 t : Vec Ideal S512x512 .f32) (ix2 k p) = (V c main_arg3 : Arr 8192 8192) (ix2 (colIx t k) (rowIx t p)) := by
  unfold iblk0
  rw [View.read_apply]
  show V c main_arg3 _ = V c main_arg3 _
  congr 1
  funext a
  apply Fin.ext
  match a with
  | ⟨0, _⟩ => show win0_5.index t 0 * 512 + 1 * k.val = 512 * (t.val % 16) + k.val; rw [(idx0_5 t).1]; omega
  | ⟨1, _⟩ => show win0_5.index t 1 * 512 + 1 * p.val = 512 * (t.val / 16) + p.val; rw [(idx0_5 t).2]; omega

theorem idx0_6 : ∀ t : Fin cfg0.N, win0_6.index t (0 : Fin 2) = t.val % 16 ∧ win0_6.index t (1 : Fin 2) = 0 :=
  (by decide +kernel : ∀ t : Fin grid0.N, win0_6.index t (0 : Fin 2) = t.val % 16 ∧ win0_6.index t (1 : Fin 2) = 0)

/-- Window 6's block at point t = (i, j) is rows 512 j … of its token table. -/
theorem blk0_6 (c : Dev nD) (t : Fin cfg0.N) (k : Fin 512) (q : Fin 10) :
    (iblk0 V c 6 t : Vec Ideal S512x10 .f32) (ix2 k q) = (V c main_arg4 : Arr 8192 10) (ix2 (colIx t k) q) := by
  unfold iblk0
  rw [View.read_apply]
  show V c main_arg4 _ = V c main_arg4 _
  congr 1
  funext a
  apply Fin.ext
  match a with
  | ⟨0, _⟩ => show win0_6.index t 0 * 512 + 1 * k.val = 512 * (t.val % 16) + k.val; rw [(idx0_6 t).1]; omega
  | ⟨1, _⟩ => show win0_6.index t 1 * 10 + 1 * q.val = q.val; rw [(idx0_6 t).2]; omega

theorem idx0_7 : ∀ t : Fin cfg0.N, win0_7.index t (0 : Fin 2) = t.val % 16 ∧ win0_7.index t (1 : Fin 2) = 0 :=
  (by decide +kernel : ∀ t : Fin grid0.N, win0_7.index t (0 : Fin 2) = t.val % 16 ∧ win0_7.index t (1 : Fin 2) = 0)

/-- Window 7's block at point t = (i, j) is rows 512 j … of its token table. -/
theorem blk0_7 (c : Dev nD) (t : Fin cfg0.N) (k : Fin 512) (q : Fin 10) :
    (iblk0 V c 7 t : Vec Ideal S512x10 .f32) (ix2 k q) = (V c main_arg5 : Arr 8192 10) (ix2 (colIx t k) q) := by
  unfold iblk0
  rw [View.read_apply]
  show V c main_arg5 _ = V c main_arg5 _
  congr 1
  funext a
  apply Fin.ext
  match a with
  | ⟨0, _⟩ => show win0_7.index t 0 * 512 + 1 * k.val = 512 * (t.val % 16) + k.val; rw [(idx0_7 t).1]; omega
  | ⟨1, _⟩ => show win0_7.index t 1 * 10 + 1 * q.val = q.val; rw [(idx0_7 t).2]; omega

theorem idx0_8 : ∀ t : Fin cfg0.N, win0_8.index t (0 : Fin 2) = t.val % 16 ∧ win0_8.index t (1 : Fin 2) = 0 :=
  (by decide +kernel : ∀ t : Fin grid0.N, win0_8.index t (0 : Fin 2) = t.val % 16 ∧ win0_8.index t (1 : Fin 2) = 0)

/-- Window 8's block at point t = (i, j) is rows 512 j … of its token table. -/
theorem blk0_8 (c : Dev nD) (t : Fin cfg0.N) (k : Fin 512) (q : Fin 10) :
    (iblk0 V c 8 t : Vec Ideal S512x10 .f32) (ix2 k q) = (V c main_arg6 : Arr 8192 10) (ix2 (colIx t k) q) := by
  unfold iblk0
  rw [View.read_apply]
  show V c main_arg6 _ = V c main_arg6 _
  congr 1
  funext a
  apply Fin.ext
  match a with
  | ⟨0, _⟩ => show win0_8.index t 0 * 512 + 1 * k.val = 512 * (t.val % 16) + k.val; rw [(idx0_8 t).1]; omega
  | ⟨1, _⟩ => show win0_8.index t 1 * 10 + 1 * q.val = q.val; rw [(idx0_8 t).2]; omega

theorem idx0_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- The weights window's block is the whole 3×1 weights array at every point. -/
theorem blk0_9 (c : Dev nD) (t : Fin cfg0.N) (r : Fin 3) :
    (iblk0 V c 9 t : Vec Ideal S3x1 .f32) (ix2 r 0) = (V c main_arg7 : Arr 3 1) (ix2 r 0) := by
  unfold iblk0
  rw [View.read_apply]
  show V c main_arg7 _ = V c main_arg7 _
  congr 1
  funext a
  apply Fin.ext
  match a with
  | ⟨0, _⟩ => show win0_9.index t 0 * 3 + 1 * r.val = r.val; rw [(idx0_9 t).1]; omega
  | ⟨1, _⟩ => show win0_9.index t 1 * 1 + 1 * 0 = 0; rw [(idx0_9 t).2]

end Cert.KernelIdeal.Hand

end
-- ==== Proof.Value0.lean ====
/-
  Region 0 at the ideal instance: what its output arrays hold when the region ends, as functions of the arrays it
  was entered with.

  Each output array ends holding one function G of the entry arrays because every point that writes a block back
  writes block t of G, and every index of the array lies in some such point's block. The adjacency block (i, j) is
  written at every point (i, j): entry (r, s) lies in the block of point (r / 512, s / 512). A token-feature block i
  is written at the last point j = 15 of grid row i, when it holds the whole contraction over the 8192 columns: row r
  lies in the block of the last point of grid row r / 512.
-/
import proofs.«160379_j10187662426197_1_alg».proof.Proof.Dat0
import proofs.«160379_j10187662426197_1_alg».proof.Proof.Spec
import proofs.«160379_j10187662426197_1_alg».proof.Proof.Value0b
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Spec Idealize.ShloMosaic.ValueIdx

variable (V : (c : Dev nD) → (b : Ref sig .tc) → Buf (Elt Ideal) ((c : Thread nD τ).loc b))

open scoped BigOperators
open Cert.LibRowDot (rowDot)

/-! ## The adjacency: output window 10, written back at every point -/

theorem idx0_10 : ∀ t : Fin cfg0.N, win0_10.index t (0 : Fin 2) = t.val / 16 ∧ win0_10.index t (1 : Fin 2) = t.val % 16 :=
  (by decide +kernel : ∀ t : Fin grid0.N, win0_10.index t (0 : Fin 2) = t.val / 16 ∧ win0_10.index t (1 : Fin 2) = t.val % 16)

/-- What point t = (i, j) writes back is block (i, j) of the symmetrized weighted sum: its three relation blocks
    (i, j) and, through the transpose, its three mirrored blocks (j, i), at the same three weights. -/
theorem flushed0_10 (c : Dev nD) (t : Fin cfg0.N) :
    (dat0 (F := Ideal) V c).flushed 10 t
      = ((cfg0.win 10).blk t).view.read (Elt Ideal)
          (arr2 (adjS (V c main_arg1) (V c main_arg2) (V c main_arg3) (V c main_arg7))) := by
  show (cfg0.win 10).cut (cfg0.grid.coords t) ((dat0 (F := Ideal) V c).after 10 t) = _
  rw [after0_10]
  funext j
  rw [View.read_apply]
  refine (congrArg (k0_pay7 (F := Ideal) (iblk0 V c 9 t) (iblk0 V c 0 t) (iblk0 V c 1 t) (iblk0 V c 2 t)
    (iblk0 V c 3 t) (iblk0 V c 4 t) (iblk0 V c 5 t)) (eq_ix2 j)).trans ?_
  refine (adj_of_blocks (iblk0 V c 9 t) (iblk0 V c 0 t) (iblk0 V c 1 t) (iblk0 V c 2 t) (iblk0 V c 3 t) (iblk0 V c 4 t)
    (iblk0 V c 5 t) (V c main_arg1) (V c main_arg2) (V c main_arg3) (V c main_arg7) (j 0) (j 1) (rowIx t (j 0)) (colIx t (j 1))
    (blk0_0 V c t (j 0) (j 1)) (blk0_1 V c t (j 0) (j 1)) (blk0_2 V c t (j 0) (j 1))
    (blk0_3 V c t (j 1) (j 0)) (blk0_4 V c t (j 1) (j 0)) (blk0_5 V c t (j 1) (j 0)) (blk0_9 V c t)).trans ?_
  have e0 : (((cfg0.win 10).blk t).view.emb j) 0 = rowIx t (j 0) :=
    Fin.ext (by show win0_10.index t 0 * 512 + 1 * (j 0).val = 512 * (t.val / 16) + (j 0).val; rw [(idx0_10 t).1]; omega)
  have e1 : (((cfg0.win 10).blk t).view.emb j) 1 = colIx t (j 1) :=
    Fin.ext (by show win0_10.index t 1 * 512 + 1 * (j 1).val = 512 * (t.val % 16) + (j 1).val; rw [(idx0_10 t).2]; omega)
  show adjS (V c main_arg1) (V c main_arg2) (V c main_arg3) (V c main_arg7) (rowIx t (j 0)) (colIx t (j 1))
    = adjS (V c main_arg1) (V c main_arg2) (V c main_arg3) (V c main_arg7)
      ((((cfg0.win 10).blk t).view.emb j) 0) ((((cfg0.win 10).blk t).view.emb j) 1)
  rw [e0, e1]

/-- An index of the array is in point t's block iff each coordinate is in the block's range on its axis. -/
theorem mem_blk0_10 (t : Fin cfg0.N) (i : S8192x8192.Idx) :
    i ∈ ((cfg0.win 10).blk t).view.set
      ↔ ∀ a : Fin 2, win0_10.index t a * S512x512.size a ≤ (i a).val ∧ (i a).val < win0_10.index t a * S512x512.size a + S512x512.size a := by
  show i ∈ ((View.whole main_v0_0).slice (win0_10.rect t)).set ↔ _
  rw [View.set_slice_whole, Rect.mem_set_unit]
  exact Iff.rfl

/-- Entry (r, s) lies in the block of point (r / 512, s / 512). -/
theorem cover0_10 (i : S8192x8192.Idx) :
    ∃ t : Fin cfg0.N, (cfg0.win 10).flush t = true ∧ i ∈ ((cfg0.win 10).blk t).view.set := by
  have h0 : (i 0).val < 8192 := (i 0).isLt
  have h1 : (i 1).val < 8192 := (i 1).isLt
  have hN := N0_eq
  have hlt : 16 * ((i 0).val / 512) + (i 1).val / 512 < cfg0.N := by omega
  refine ⟨⟨16 * ((i 0).val / 512) + (i 1).val / 512, hlt⟩, flush0_10 _, ?_⟩
  rw [mem_blk0_10]
  intro a
  match a with
  | ⟨0, _⟩ =>
    show win0_10.index ⟨16 * ((i 0).val / 512) + (i 1).val / 512, hlt⟩ 0 * 512 ≤ (i 0).val
      ∧ (i 0).val < win0_10.index ⟨16 * ((i 0).val / 512) + (i 1).val / 512, hlt⟩ 0 * 512 + 512
    rw [(idx0_10 ⟨16 * ((i 0).val / 512) + (i 1).val / 512, hlt⟩).1]
    show (16 * ((i 0).val / 512) + (i 1).val / 512) / 16 * 512 ≤ (i 0).val
      ∧ (i 0).val < (16 * ((i 0).val / 512) + (i 1).val / 512) / 16 * 512 + 512
    omega
  | ⟨1, _⟩ =>
    show win0_10.index ⟨16 * ((i 0).val / 512) + (i 1).val / 512, hlt⟩ 1 * 512 ≤ (i 1).val
      ∧ (i 1).val < win0_10.index ⟨16 * ((i 0).val / 512) + (i 1).val / 512, hlt⟩ 1 * 512 + 512
    rw [(idx0_10 ⟨16 * ((i 0).val / 512) + (i 1).val / 512, hlt⟩).2]
    show (16 * ((i 0).val / 512) + (i 1).val / 512) % 16 * 512 ≤ (i 1).val
      ∧ (i 1).val < (16 * ((i 0).val / 512) + (i 1).val / 512) % 16 * 512 + 512
    omega

/-! ## Token feature 1: output window 11 -/

theorem idx0_11 : ∀ t : Fin cfg0.N, win0_11.index t (0 : Fin 2) = t.val / 16 ∧ win0_11.index t (1 : Fin 2) = 0 :=
  (by decide +kernel : ∀ t : Fin grid0.N, win0_11.index t (0 : Fin 2) = t.val / 16 ∧ win0_11.index t (1 : Fin 2) = 0)

/-- What the last point of a grid row writes back is its row block of the relation matrix times the token table. -/
theorem flushed0_11 (c : Dev nD) (t : Fin cfg0.N) (hf : (cfg0.win 11).flush t = true) :
    (dat0 (F := Ideal) V c).flushed 11 t
      = ((cfg0.win 11).blk t).view.read (Elt Ideal) (arr2 (tokFeat (V c main_arg1) (V c main_arg4))) := by
  have ht : t.val % 16 = 15 := (flush0_11 t).mp hf
  show (cfg0.win 11).cut (cfg0.grid.coords t) ((dat0 (F := Ideal) V c).after 11 t) = _
  rw [after0_11]
  funext j
  rw [View.read_apply]
  have hj := rows_of_rec (f0_11 V c) (fun t => iblk0 V c 0 t) (fun t => iblk0 V c 6 t) (k0_pay1 (F := Ideal)) (k0_pay4 (F := Ideal))
    pay1_apply pay4_apply (fun h => rfl) (fun n h => rfl) (V c main_arg1) (V c main_arg4)
    (blk0_0 V c) (blk0_6 V c) t ht (j 0) (j 1)
  refine (congrArg (f0_11 V c t.val t.isLt) (eq_ix2 j)).trans (hj.trans ?_)
  show tokFeat (V c main_arg1) (V c main_arg4) (rowIx t (j 0)) (j 1)
    = tokFeat (V c main_arg1) (V c main_arg4) ((((cfg0.win 11).blk t).view.emb j) 0) ((((cfg0.win 11).blk t).view.emb j) 1)
  congr 1 <;> apply Fin.ext
  · show 512 * (t.val / 16) + (j 0).val = win0_11.index t 0 * 512 + 1 * (j 0).val; rw [(idx0_11 t).1]; omega
  · show (j 1).val = win0_11.index t 1 * 10 + 1 * (j 1).val; rw [(idx0_11 t).2]; omega

/-- An index of the array is in point t's block iff each coordinate is in the block's range on its axis. -/
theorem mem_blk0_11 (t : Fin cfg0.N) (i : S8192x10.Idx) :
    i ∈ ((cfg0.win 11).blk t).view.set
      ↔ ∀ a : Fin 2, win0_11.index t a * S512x10.size a ≤ (i a).val ∧ (i a).val < win0_11.index t a * S512x10.size a + S512x10.size a := by
  show i ∈ ((View.whole main_v0_1).slice (win0_11.rect t)).set ↔ _
  rw [View.set_slice_whole, Rect.mem_set_unit]
  exact Iff.rfl

/-- Row r lies in the block written back at the last point of grid row r / 512. -/
theorem cover0_11 (i : S8192x10.Idx) :
    ∃ t : Fin cfg0.N, (cfg0.win 11).flush t = true ∧ i ∈ ((cfg0.win 11).blk t).view.set := by
  have h0 : (i 0).val < 8192 := (i 0).isLt
  have h1 : (i 1).val < 10 := (i 1).isLt
  have hN := N0_eq
  have hlt : 16 * ((i 0).val / 512) + 15 < cfg0.N := by omega
  refine ⟨⟨16 * ((i 0).val / 512) + 15, hlt⟩, (flush0_11 _).mpr (by show (16 * ((i 0).val / 512) + 15) % 16 = 15; omega), ?_⟩
  rw [mem_blk0_11]
  intro a
  match a with
  | ⟨0, _⟩ =>
    show win0_11.index ⟨16 * ((i 0).val / 512) + 15, hlt⟩ 0 * 512 ≤ (i 0).val
      ∧ (i 0).val < win0_11.index ⟨16 * ((i 0).val / 512) + 15, hlt⟩ 0 * 512 + 512
    rw [(idx0_11 ⟨16 * ((i 0).val / 512) + 15, hlt⟩).1]
    show (16 * ((i 0).val / 512) + 15) / 16 * 512 ≤ (i 0).val ∧ (i 0).val < (16 * ((i 0).val / 512) + 15) / 16 * 512 + 512
    omega
  | ⟨1, _⟩ =>
    show win0_11.index ⟨16 * ((i 0).val / 512) + 15, hlt⟩ 1 * 10 ≤ (i 1).val
      ∧ (i 1).val < win0_11.index ⟨16 * ((i 0).val / 512) + 15, hlt⟩ 1 * 10 + 10
    rw [(idx0_11 ⟨16 * ((i 0).val / 512) + 15, hlt⟩).2]
    omega

/-! ## Token feature 2: output window 12 -/

theorem idx0_12 : ∀ t : Fin cfg0.N, win0_12.index t (0 : Fin 2) = t.val / 16 ∧ win0_12.index t (1 : Fin 2) = 0 :=
  (by decide +kernel : ∀ t : Fin grid0.N, win0_12.index t (0 : Fin 2) = t.val / 16 ∧ win0_12.index t (1 : Fin 2) = 0)

/-- What the last point of a grid row writes back is its row block of the relation matrix times the token table. -/
theorem flushed0_12 (c : Dev nD) (t : Fin cfg0.N) (hf : (cfg0.win 12).flush t = true) :
    (dat0 (F := Ideal) V c).flushed 12 t
      = ((cfg0.win 12).blk t).view.read (Elt Ideal) (arr2 (tokFeat (V c main_arg2) (V c main_arg5))) := by
  have ht : t.val % 16 = 15 := (flush0_12 t).mp hf
  show (cfg0.win 12).cut (cfg0.grid.coords t) ((dat0 (F := Ideal) V c).after 12 t) = _
  rw [after0_12]
  funext j
  rw [View.read_apply]
  have hj := rows_of_rec (f0_12 V c) (fun t => iblk0 V c 1 t) (fun t => iblk0 V c 7 t) (k0_pay2 (F := Ideal)) (k0_pay5 (F := Ideal))
    pay2_apply pay5_apply (fun h => rfl) (fun n h => rfl) (V c main_arg2) (V c main_arg5)
    (blk0_1 V c) (blk0_7 V c) t ht (j 0) (j 1)
  refine (congrArg (f0_12 V c t.val t.isLt) (eq_ix2 j)).trans (hj.trans ?_)
  show tokFeat (V c main_arg2) (V c main_arg5) (rowIx t (j 0)) (j 1)
    = tokFeat (V c main_arg2) (V c main_arg5) ((((cfg0.win 12).blk t).view.emb j) 0) ((((cfg0.win 12).blk t).view.emb j) 1)
  congr 1 <;> apply Fin.ext
  · show 512 * (t.val / 16) + (j 0).val = win0_12.index t 0 * 512 + 1 * (j 0).val; rw [(idx0_12 t).1]; omega
  · show (j 1).val = win0_12.index t 1 * 10 + 1 * (j 1).val; rw [(idx0_12 t).2]; omega

/-- An index of the array is in point t's block iff each coordinate is in the block's range on its axis. -/
theorem mem_blk0_12 (t : Fin cfg0.N) (i : S8192x10.Idx) :
    i ∈ ((cfg0.win 12).blk t).view.set
      ↔ ∀ a : Fin 2, win0_12.index t a * S512x10.size a ≤ (i a).val ∧ (i a).val < win0_12.index t a * S512x10.size a + S512x10.size a := by
  show i ∈ ((View.whole main_v0_2).slice (win0_12.rect t)).set ↔ _
  rw [View.set_slice_whole, Rect.mem_set_unit]
  exact Iff.rfl

/-- Row r lies in the block written back at the last point of grid row r / 512. -/
theorem cover0_12 (i : S8192x10.Idx) :
    ∃ t : Fin cfg0.N, (cfg0.win 12).flush t = true ∧ i ∈ ((cfg0.win 12).blk t).view.set := by
  have h0 : (i 0).val < 8192 := (i 0).isLt
  have h1 : (i 1).val < 10 := (i 1).isLt
  have hN := N0_eq
  have hlt : 16 * ((i 0).val / 512) + 15 < cfg0.N := by omega
  refine ⟨⟨16 * ((i 0).val / 512) + 15, hlt⟩, (flush0_12 _).mpr (by show (16 * ((i 0).val / 512) + 15) % 16 = 15; omega), ?_⟩
  rw [mem_blk0_12]
  intro a
  match a with
  | ⟨0, _⟩ =>
    show win0_12.index ⟨16 * ((i 0).val / 512) + 15, hlt⟩ 0 * 512 ≤ (i 0).val
      ∧ (i 0).val < win0_12.index ⟨16 * ((i 0).val / 512) + 15, hlt⟩ 0 * 512 + 512
    rw [(idx0_12 ⟨16 * ((i 0).val / 512) + 15, hlt⟩).1]
    show (16 * ((i 0).val / 512) + 15) / 16 * 512 ≤ (i 0).val ∧ (i 0).val < (16 * ((i 0).val / 512) + 15) / 16 * 512 + 512
    omega
  | ⟨1, _⟩ =>
    show win0_12.index ⟨16 * ((i 0).val / 512) + 15, hlt⟩ 1 * 10 ≤ (i 1).val
      ∧ (i 1).val < win0_12.index ⟨16 * ((i 0).val / 512) + 15, hlt⟩ 1 * 10 + 10
    rw [(idx0_12 ⟨16 * ((i 0).val / 512) + 15, hlt⟩).2]
    omega

/-! ## Token feature 3: output window 13 -/

theorem idx0_13 : ∀ t : Fin cfg0.N, win0_13.index t (0 : Fin 2) = t.val / 16 ∧ win0_13.index t (1 : Fin 2) = 0 :=
  (by decide +kernel : ∀ t : Fin grid0.N, win0_13.index t (0 : Fin 2) = t.val / 16 ∧ win0_13.index t (1 : Fin 2) = 0)

/-- What the last point of a grid row writes back is its row block of the relation matrix times the token table. -/
theorem flushed0_13 (c : Dev nD) (t : Fin cfg0.N) (hf : (cfg0.win 13).flush t = true) :
    (dat0 (F := Ideal) V c).flushed 13 t
      = ((cfg0.win 13).blk t).view.read (Elt Ideal) (arr2 (tokFeat (V c main_arg3) (V c main_arg6))) := by
  have ht : t.val % 16 = 15 := (flush0_13 t).mp hf
  show (cfg0.win 13).cut (cfg0.grid.coords t) ((dat0 (F := Ideal) V c).after 13 t) = _
  rw [after0_13]
  funext j
  rw [View.read_apply]
  have hj := rows_of_rec (f0_13 V c) (fun t => iblk0 V c 2 t) (fun t => iblk0 V c 8 t) (k0_pay3 (F := Ideal)) (k0_pay6 (F := Ideal))
    pay3_apply pay6_apply (fun h => rfl) (fun n h => rfl) (V c main_arg3) (V c main_arg6)
    (blk0_2 V c) (blk0_8 V c) t ht (j 0) (j 1)
  refine (congrArg (f0_13 V c t.val t.isLt) (eq_ix2 j)).trans (hj.trans ?_)
  show tokFeat (V c main_arg3) (V c main_arg6) (rowIx t (j 0)) (j 1)
    = tokFeat (V c main_arg3) (V c main_arg6) ((((cfg0.win 13).blk t).view.emb j) 0) ((((cfg0.win 13).blk t).view.emb j) 1)
  congr 1 <;> apply Fin.ext
  · show 512 * (t.val / 16) + (j 0).val = win0_13.index t 0 * 512 + 1 * (j 0).val; rw [(idx0_13 t).1]; omega
  · show (j 1).val = win0_13.index t 1 * 10 + 1 * (j 1).val; rw [(idx0_13 t).2]; omega

/-- An index of the array is in point t's block iff each coordinate is in the block's range on its axis. -/
theorem mem_blk0_13 (t : Fin cfg0.N) (i : S8192x10.Idx) :
    i ∈ ((cfg0.win 13).blk t).view.set
      ↔ ∀ a : Fin 2, win0_13.index t a * S512x10.size a ≤ (i a).val ∧ (i a).val < win0_13.index t a * S512x10.size a + S512x10.size a := by
  show i ∈ ((View.whole main_v0_3).slice (win0_13.rect t)).set ↔ _
  rw [View.set_slice_whole, Rect.mem_set_unit]
  exact Iff.rfl

/-- Row r lies in the block written back at the last point of grid row r / 512. -/
theorem cover0_13 (i : S8192x10.Idx) :
    ∃ t : Fin cfg0.N, (cfg0.win 13).flush t = true ∧ i ∈ ((cfg0.win 13).blk t).view.set := by
  have h0 : (i 0).val < 8192 := (i 0).isLt
  have h1 : (i 1).val < 10 := (i 1).isLt
  have hN := N0_eq
  have hlt : 16 * ((i 0).val / 512) + 15 < cfg0.N := by omega
  refine ⟨⟨16 * ((i 0).val / 512) + 15, hlt⟩, (flush0_13 _).mpr (by show (16 * ((i 0).val / 512) + 15) % 16 = 15; omega), ?_⟩
  rw [mem_blk0_13]
  intro a
  match a with
  | ⟨0, _⟩ =>
    show win0_13.index ⟨16 * ((i 0).val / 512) + 15, hlt⟩ 0 * 512 ≤ (i 0).val
      ∧ (i 0).val < win0_13.index ⟨16 * ((i 0).val / 512) + 15, hlt⟩ 0 * 512 + 512
    rw [(idx0_13 ⟨16 * ((i 0).val / 512) + 15, hlt⟩).1]
    show (16 * ((i 0).val / 512) + 15) / 16 * 512 ≤ (i 0).val ∧ (i 0).val < (16 * ((i 0).val / 512) + 15) / 16 * 512 + 512
    omega
  | ⟨1, _⟩ =>
    show win0_13.index ⟨16 * ((i 0).val / 512) + 15, hlt⟩ 1 * 10 ≤ (i 1).val
      ∧ (i 1).val < win0_13.index ⟨16 * ((i 0).val / 512) + 15, hlt⟩ 1 * 10 + 10
    rw [(idx0_13 ⟨16 * ((i 0).val / 512) + 15, hlt⟩).2]
    omega

/-! ## The four arrays when region 0 ends -/

/-- The adjacency array when region 0 ends. -/
theorem final0_adj (c : Dev nD) :
    (dat0 (F := Ideal) V c).arrAt 10 cfg0.N = arr2 (adjS (V c main_arg1) (V c main_arg2) (V c main_arg3) (V c main_arg7)) :=
  (dat0 (F := Ideal) V c).arrAt_eq_of_cover 10 (arr2 (adjS (V c main_arg1) (V c main_arg2) (V c main_arg3) (V c main_arg7)))
    (fun t _ => flushed0_10 V c t) cover0_10
/-- The three token-feature arrays when region 0 ends. -/
theorem final0_f1 (c : Dev nD) :
    (dat0 (F := Ideal) V c).arrAt 11 cfg0.N = arr2 (tokFeat (V c main_arg1) (V c main_arg4)) :=
  (dat0 (F := Ideal) V c).arrAt_eq_of_cover 11 (arr2 (tokFeat (V c main_arg1) (V c main_arg4))) (flushed0_11 V c) cover0_11
theorem final0_f2 (c : Dev nD) :
    (dat0 (F := Ideal) V c).arrAt 12 cfg0.N = arr2 (tokFeat (V c main_arg2) (V c main_arg5)) :=
  (dat0 (F := Ideal) V c).arrAt_eq_of_cover 12 (arr2 (tokFeat (V c main_arg2) (V c main_arg5))) (flushed0_12 V c) cover0_12
theorem final0_f3 (c : Dev nD) :
    (dat0 (F := Ideal) V c).arrAt 13 cfg0.N = arr2 (tokFeat (V c main_arg3) (V c main_arg6)) :=
  (dat0 (F := Ideal) V c).arrAt_eq_of_cover 13 (arr2 (tokFeat (V c main_arg3) (V c main_arg6))) (flushed0_13 V c) cover0_13

end Cert.KernelIdeal.Hand

end
-- ==== Proof.Value1.lean ====
/-
  Region 1 at the ideal instance: what its output arrays hold when the region ends, as functions of the arrays it
  was entered with.
-/
import proofs.«160379_j10187662426197_1_alg».proof.Proof.Dat1
import proofs.«160379_j10187662426197_1_alg».proof.Proof.Spec
import proofs.«160379_j10187662426197_1_alg».proof.Proof.LibRowDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Spec Idealize.ShloMosaic.ValueIdx Cert.LibRowDot
open scoped BigOperators

variable (V : (c : Dev nD) → (b : Ref sig .tc) → Buf (Elt Ideal) ((c : Thread nD τ).loc b))

/-- The zero payload at an index. -/
private theorem pay1_apply (p : Fin 512) (q : Fin 128) : k1_pay1 (F := Ideal) (ix2 p q) = 0 := by
  unfold k1_pay1
  rw [shapeCast_self]
  exact Ideal.ofBits_zero_f32

/-- The first product of a step: a row of the feature block against a column of the weights. -/
private theorem mm_fw (a : FVec Ideal S512x256 .bf16) (w : FVec Ideal S256x128 .bf16) (j : S512x128.Idx) :
    FloatOps.matmul dot_S512x256_S256x128_S512x128_1_0_0_1_n_n none a w (constant S512x128 .f32 0x00000000#32) j
      = rowDot a w (j 0) (j 1) := by
  rw [Ideal.matmul_constant_zero_apply]
  exact sum_contr_eq_rowDot dot_S512x256_S256x128_S512x128_1_0_0_1_n_n rfl rfl rfl rfl rfl rfl a w j

/-- The second product of a step: a row of the adjacency block against a column of the first product. -/
private theorem mm_adj (a : FVec Ideal S512x512 .bf16) (w : FVec Ideal S512x128 .bf16) (j : S512x128.Idx) :
    FloatOps.matmul dot_S512x512_S512x128_S512x128_1_0_0_1_n_n none a w (constant S512x128 .f32 0x00000000#32) j
      = rowDot a w (j 0) (j 1) := by
  rw [Ideal.matmul_constant_zero_apply]
  exact sum_contr_eq_rowDot dot_S512x512_S512x128_S512x128_1_0_0_1_n_n rfl rfl rfl rfl rfl rfl a w j

/-- One accumulation step at an index: what was there plus adjacency block times (feature block times weights). -/
private theorem pay2_apply (x3 : Vec Ideal S512x256 .f32) (x5 : Vec Ideal S256x128 .f32) (x9 : Vec Ideal S512x512 .f32)
    (x12 : Vec Ideal S512x128 .f32) (p : Fin 512) (q : Fin 128) :
    k1_pay2 (F := Ideal) x3 x5 x9 x12 (ix2 p q)
      = x12 (ix2 p q) + ∑ k : Fin 512, x9 (ix2 p k) * ∑ f : Fin 256, x3 (ix2 k f) * x5 (ix2 f q) := by
  unfold k1_pay2
  rw [shapeCast_self]
  refine (addf_apply _ _ _).trans ?_
  refine congrArg (x12 (ix2 p q) + ·) ?_
  refine (mm_adj _ _ _).trans ?_
  unfold rowDot
  refine Finset.sum_congr rfl fun k _ => ?_
  refine congrArg₂ (· * ·) ?_ ?_
  · rw [shapeCast_self]; rfl
  · exact (mm_fw _ _ _).trans rfl

/-- The bias payload at an index: the accumulator plus the bias of the column. -/
private theorem pay3_apply (x21 : Vec Ideal S512x128 .f32) (x22 : Vec Ideal S128 .f32) (p : Fin 512) (q : Fin 128) :
    k1_pay3 (F := Ideal) x21 x22 (ix2 p q) = x21 (ix2 p q) + x22 (ix1 q) := by
  unfold k1_pay3
  refine (addf_apply _ _ _).trans ?_
  refine congrArg (x21 (ix2 p q) + ·) ?_
  refine (broadcastTo_apply _ _ (ix2 p q) (ix2 (0 : Fin 1) q) (fun a => by match a with | ⟨0, _⟩ => rfl | ⟨1, _⟩ => rfl)).trans ?_
  refine shapeCast_apply _ _ (ix2 (0 : Fin 1) q) (ix1 q) ?_
  rw [Shape.rowMajor_val_one, Shape.rowMajor_val_two]
  show q.val = 0 * 128 + q.val
  omega

/-- The adjacency, feature, weight and bias blocks of a point, at their literal types. -/
private abbrev adjB (c : Dev nD) (t : Fin cfg1.N) : Vec Ideal S512x512 .f32 := iblk1 V c 0 t
private abbrev featB (c : Dev nD) (t : Fin cfg1.N) : Vec Ideal S512x256 .f32 := iblk1 V c 1 t
private abbrev wB (c : Dev nD) (t : Fin cfg1.N) : Vec Ideal S256x128 .f32 := iblk1 V c 2 t
private abbrev bB (c : Dev nD) (t : Fin cfg1.N) : Vec Ideal S128 .f32 := iblk1 V c 3 t

/-- The four arrays the region reads, at their literal types. -/
private abbrev adjA (c : Dev nD) : Arr 8192 8192 := V c main_v0_0
private abbrev featA (c : Dev nD) : Arr 8192 256 := V c main_arg0
private abbrev wA (c : Dev nD) : Arr 256 128 := V c main_arg8
private abbrev bA (c : Dev nD) : Arr1 128 := V c main_arg9

/-- Point t = 16·i + k reads the adjacency's block (i, k), the feature's block (k, 0), the whole weights and bias,
    and writes the output's block (i, 0). -/
private theorem idx_adj : ∀ t : Fin cfg1.N, win1_0.index t (0 : Fin 2) = t.val / 16 ∧ win1_0.index t (1 : Fin 2) = t.val % 16 :=
  (by decide +kernel : ∀ t : Fin grid1.N, win1_0.index t (0 : Fin 2) = t.val / 16 ∧ win1_0.index t (1 : Fin 2) = t.val % 16)
private theorem idx_feat : ∀ t : Fin cfg1.N, win1_1.index t (0 : Fin 2) = t.val % 16 ∧ win1_1.index t (1 : Fin 2) = 0 :=
  (by decide +kernel : ∀ t : Fin grid1.N, win1_1.index t (0 : Fin 2) = t.val % 16 ∧ win1_1.index t (1 : Fin 2) = 0)
private theorem idx_w : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
private theorem idx_b : ∀ t : Fin cfg1.N, win1_3.index t (0 : Fin 1) = 0 :=
  (by decide +kernel : ∀ t : Fin grid1.N, win1_3.index t (0 : Fin 1) = 0)
private theorem idx_out : ∀ t : Fin cfg1.N, win1_4.index t (0 : Fin 2) = t.val / 16 ∧ win1_4.index t (1 : Fin 2) = 0 :=
  (by decide +kernel : ∀ t : Fin grid1.N, win1_4.index t (0 : Fin 2) = t.val / 16 ∧ win1_4.index t (1 : Fin 2) = 0)

/-- The adjacency block at a point, at an index, is the adjacency at the shifted index. -/
private theorem adjB_apply (c : Dev nD) (t : Fin cfg1.N) (p q : Fin 512) (i : S8192x8192.Idx)
    (h0 : (i 0).val = 512 * (t.val / 16) + p.val) (h1 : (i 1).val = 512 * (t.val % 16) + q.val) :
    adjB V c t (ix2 p q) = adjA V c i := by
  unfold adjB iblk1
  rw [View.read_apply]
  show V c main_v0_0 _ = V c main_v0_0 _
  congr 1
  funext a
  apply Fin.ext
  match a with
  | ⟨0, _⟩ => show win1_0.index t 0 * 512 + 1 * p.val = (i 0).val; rw [(idx_adj t).1, h0]; omega
  | ⟨1, _⟩ => show win1_0.index t 1 * 512 + 1 * q.val = (i 1).val; rw [(idx_adj t).2, h1]; omega

/-- The feature block at a point, at an index, is the feature array at the shifted row. -/
private theorem featB_apply (c : Dev nD) (t : Fin cfg1.N) (p : Fin 512) (f : Fin 256) (i : S8192x256.Idx)
    (h0 : (i 0).val = 512 * (t.val % 16) + p.val) (h1 : (i 1).val = f.val) :
    featB V c t (ix2 p f) = featA V c i := by
  unfold featB iblk1
  rw [View.read_apply]
  show V c main_arg0 _ = V c main_arg0 _
  congr 1
  funext a
  apply Fin.ext
  match a with
  | ⟨0, _⟩ => show win1_1.index t 0 * 512 + 1 * p.val = (i 0).val; rw [(idx_feat t).1, h0]; omega
  | ⟨1, _⟩ => show win1_1.index t 1 * 256 + 1 * f.val = (i 1).val; rw [(idx_feat t).2, h1]; omega

/-- The weight block at every point is the weight array. -/
private theorem wB_apply (c : Dev nD) (t : Fin cfg1.N) (f : Fin 256) (q : Fin 128) :
    wB V c t (ix2 f q) = wA V c (ix2 f q) := by
  unfold wB iblk1
  rw [View.read_apply]
  show V c main_arg8 _ = V c main_arg8 _
  congr 1
  funext a
  apply Fin.ext
  match a with
  | ⟨0, _⟩ => show win1_2.index t 0 * 256 + 1 * f.val = f.val; rw [(idx_w t).1]; omega
  | ⟨1, _⟩ => show win1_2.index t 1 * 128 + 1 * q.val = q.val; rw [(idx_w t).2]; omega

/-- The bias block at every point is the bias array. -/
private theorem bB_apply (c : Dev nD) (t : Fin cfg1.N) (q : Fin 128) :
    bB V c t (ix1 q) = bA V c (ix1 q) := by
  unfold bB iblk1
  rw [View.read_apply]
  show V c main_arg9 _ = V c main_arg9 _
  congr 1
  funext a
  apply Fin.ext
  match a with
  | ⟨0, _⟩ => show win1_3.index t 0 * 128 + 1 * q.val = q.val; rw [idx_b t]; omega

/-- The reference's summand at contraction index j, for row r and column n. -/
private def term (c : Dev nD) (r : Fin 8192) (n : Fin 128) (j : Fin 8192) : EReal :=
  adjA V c (ix2 r j) * ∑ f : Fin 256, featA V c (ix2 j f) * wA V c (ix2 f n)

/-- What the step at point t = 16·i + s adds at (p, q): the reference's summands over block s of the contraction
    index, for row 512·i + p. -/
private theorem step_sum (c : Dev nD) (t : Fin cfg1.N) (i s : Fin 16) (hi : t.val / 16 = i.val) (hs : t.val % 16 = s.val)
    (p : Fin 512) (q : Fin 128) :
    (∑ k : Fin 512, adjB V c t (ix2 p k) * ∑ f : Fin 256, featB V c t (ix2 k f) * wB V c t (ix2 f q))
      = ∑ k : Fin 512, term V c (blkIx i p) q (blkIx s k) := by
  refine Finset.sum_congr rfl fun k _ => ?_
  unfold term
  refine congrArg₂ (· * ·) ?_ ?_
  · exact adjB_apply V c t p k (ix2 (blkIx i p) (blkIx s k))
      (by show 512 * i.val + p.val = _; rw [hi]) (by show 512 * s.val + k.val = _; rw [hs])
  · refine Finset.sum_congr rfl fun f _ => ?_
    refine congrArg₂ (· * ·) ?_ ?_
    · exact featB_apply V c t k f (ix2 (blkIx s k) f) (by show 512 * s.val + k.val = _; rw [hs]) rfl
    · exact wB_apply V c t f q

/-- The accumulator's recursion: each point applies the step to what the point before left, or to zero where the
    point starts a row of the grid. -/
private theorem acc1_succ (c : Dev nD) (n : ℕ) (h : n + 1 < cfg1.N) :
    acc1 V c (n + 1) h = k1_pay2 (featB V c ⟨n + 1, h⟩) (wB V c ⟨n + 1, h⟩) (adjB V c ⟨n + 1, h⟩)
      (if (n + 1) % 16 = 0 then k1_pay1 (F := Ideal) else acc1 V c n (Nat.lt_of_succ_lt h)) := rfl

private theorem acc1_start (c : Dev nD) (n : ℕ) (h : n < cfg1.N) (hn : n % 16 = 0) :
    acc1 V c n h = k1_pay2 (featB V c ⟨n, h⟩) (wB V c ⟨n, h⟩) (adjB V c ⟨n, h⟩) (k1_pay1 (F := Ideal)) := by
  cases n with
  | zero => rfl
  | succ n => rw [acc1_succ, if_pos hn]

private theorem acc1_next (c : Dev nD) (n : ℕ) (h : n + 1 < cfg1.N) (hn : ¬(n + 1) % 16 = 0) :
    acc1 V c (n + 1) h = k1_pay2 (featB V c ⟨n + 1, h⟩) (wB V c ⟨n + 1, h⟩) (adjB V c ⟨n + 1, h⟩)
      (acc1 V c n (Nat.lt_of_succ_lt h)) := by
  rw [acc1_succ, if_neg hn]

/-- The addend of grid column u in grid row i at (p, q); zero past the grid. -/
private def addend (c : Dev nD) (i : Fin 16) (p : Fin 512) (q : Fin 128) (u : ℕ) : EReal :=
  if hu : u < 16 then ∑ k : Fin 512, term V c (blkIx i p) q (blkIx ⟨u, hu⟩ k) else 0

private theorem hN1 : cfg1.N = 256 := N_1

/-- After point 16·i + s the accumulator holds, at (p, q), the addends of columns 0 … s of grid row i. -/
private theorem acc1_sum (c : Dev nD) (i : Fin 16) (p : Fin 512) (q : Fin 128) :
    ∀ (s : ℕ) (hs : s < 16) (h : 16 * i.val + s < cfg1.N),
      acc1 V c (16 * i.val + s) h (ix2 p q) = ∑ u ∈ Finset.range (s + 1), addend V c i p q u
  | 0, hs, h => by
    rw [Finset.sum_range_one]
    refine (congrFun (acc1_start V c (16 * i.val + 0) h (by omega)) (ix2 p q)).trans ?_
    refine (pay2_apply (featB V c ⟨16 * i.val + 0, h⟩) (wB V c ⟨16 * i.val + 0, h⟩) (adjB V c ⟨16 * i.val + 0, h⟩)
      (k1_pay1 (F := Ideal)) p q).trans ?_
    rw [pay1_apply, zero_add]
    unfold addend
    rw [dif_pos hs]
    exact step_sum V c ⟨16 * i.val + 0, h⟩ i ⟨0, hs⟩ (by show (16 * i.val + 0) / 16 = i.val; omega)
      (by show (16 * i.val + 0) % 16 = 0; omega) p q
  | s + 1, hs, h => by
    have hN := hN1
    rw [Finset.sum_range_succ _ (s + 1), ← acc1_sum c i p q s (by omega) (by omega)]
    refine (congrFun (acc1_next V c (16 * i.val + s) h (by omega)) (ix2 p q)).trans ?_
    refine (pay2_apply (featB V c ⟨16 * i.val + s + 1, h⟩) (wB V c ⟨16 * i.val + s + 1, h⟩) (adjB V c ⟨16 * i.val + s + 1, h⟩)
      (acc1 V c (16 * i.val + s) (Nat.lt_of_succ_lt h)) p q).trans ?_
    refine congrArg (acc1 V c (16 * i.val + s) (Nat.lt_of_succ_lt h) (ix2 p q) + ·) ?_
    unfold addend
    rw [dif_pos hs]
    exact step_sum V c ⟨16 * i.val + s + 1, h⟩ i ⟨s + 1, hs⟩ (by show (16 * i.val + s + 1) / 16 = i.val; omega)
      (by show (16 * i.val + s + 1) % 16 = s + 1; omega) p q

/-- At the point that ends grid row i the accumulator holds the whole contraction for row 512·i + p. -/
private theorem acc1_flush (c : Dev nD) (t : Fin cfg1.N) (h15 : t.val % 16 = 15) (i : Fin 16) (hi : t.val / 16 = i.val)
    (p : Fin 512) (q : Fin 128) :
    acc1 V c t.val t.isLt (ix2 p q) = ∑ j : Fin 8192, term V c (blkIx i p) q j := by
  have hN := hN1
  have ht : 16 * i.val + 15 = t.val := by omega
  have same : ∀ (u : ℕ) (hu : u < cfg1.N), u = t.val → acc1 V c u hu = acc1 V c t.val t.isLt :=
    fun u hu e => by subst e; rfl
  have e : acc1 V c (16 * i.val + 15) (by omega) (ix2 p q) = ∑ u ∈ Finset.range 16, addend V c i p q u :=
    acc1_sum V c i p q 15 (by omega) (by omega)
  rw [← same (16 * i.val + 15) (by omega) ht, e, ← sum_blocks, Finset.sum_range]
  refine Finset.sum_congr rfl fun u _ => ?_
  unfold addend
  rw [dif_pos u.isLt]

/-- The block written back at the end of grid row i, at (p, q), is the reference at row 512·i + p, column q. -/
private theorem out_apply (c : Dev nD) (t : Fin cfg1.N) (h15 : t.val % 16 = 15) (i : Fin 16) (hi : t.val / 16 = i.val)
    (p : Fin 512) (q : Fin 128) :
    k1_pay3 (acc1 V c t.val t.isLt) (bB V c t) (ix2 p q)
      = arr2 (gcS (adjA V c) (featA V c) (wA V c) (bA V c)) (ix2 (blkIx i p) q) := by
  refine (pay3_apply (acc1 V c t.val t.isLt) (bB V c t) p q).trans ?_
  rw [arr2_ix2]
  unfold gcS
  refine congrArg₂ (· + ·) ?_ (bB_apply V c t q)
  exact acc1_flush V c t h15 i hi p q

/-- The first layer's result array over the extended reals. -/
private abbrev gc1 (c : Dev nD) : Arr 8192 128 := arr2 (gcS (adjA V c) (featA V c) (wA V c) (bA V c))

/-- What the point ending a grid row writes back, index by index, is the result read through the point's block. -/
private theorem out_blk (c : Dev nD) (t : Fin cfg1.N) (h15 : t.val % 16 = 15) (y : S512x128.Idx) :
    k1_pay3 (acc1 V c t.val t.isLt) (bB V c t) y = gc1 V c (((cfg1.win 4).blk t).view.emb y) := by
  have hN := hN1
  have hlt : t.val / 16 < 16 := by have := t.isLt; omega
  obtain ⟨p, q, rfl⟩ : ∃ (p : Fin 512) (q : Fin 128), y = ix2 p q := ⟨y 0, y 1, eq_ix2 y⟩
  refine (out_apply V c t h15 ⟨t.val / 16, hlt⟩ rfl p q).trans ?_
  refine congrArg (gc1 V c) ?_
  funext a
  apply Fin.ext
  match a with
  | ⟨0, _⟩ => show 512 * (t.val / 16) + p.val = win1_4.index t 0 * 512 + 1 * p.val; rw [(idx_out t).1]; omega
  | ⟨1, _⟩ => show q.val = win1_4.index t 1 * 128 + 1 * q.val; rw [(idx_out t).2]; omega

/-- Every write-back of the output window writes the result read through its block. -/
private theorem flushed_eq (c : Dev nD) (t : Fin cfg1.N) (hf : (cfg1.win 4).flush t = true) :
    (dat1 V c).flushed 4 t = ((cfg1.win 4).blk t).view.read (Elt Ideal) (gc1 V c) := by
  have h15 : t.val % 16 = 15 := (flush1_4 t).mp hf
  show (cfg1.win 4).cut (cfg1.grid.coords t) ((dat1 V c).after 4 t) = _
  rw [after1_4]
  funext y
  rw [View.read_apply]
  exact out_blk V c t h15 y

/-- Row r of the output lies in the block written back at the end of grid row r / 512. -/
private theorem mem_blk_out (i : S8192x128.Idx) (t : Fin cfg1.N) (ht : t.val / 16 = (i 0).val / 512) :
    i ∈ ((cfg1.win 4).blk t).view.set := by
  have h0 : (i 0).val < 8192 := (i 0).isLt
  have h1 : (i 1).val < 128 := (i 1).isLt
  show i ∈ ((View.whole main_v1).slice (win1_4.rect t)).set
  rw [View.set_slice_whole, Rect.mem_set_unit]
  intro a
  match a with
  | ⟨0, _⟩ =>
    show win1_4.index t 0 * 512 ≤ (i 0).val ∧ (i 0).val < win1_4.index t 0 * 512 + 512
    rw [(idx_out t).1, ht]
    omega
  | ⟨1, _⟩ =>
    show win1_4.index t 1 * 128 ≤ (i 1).val ∧ (i 1).val < win1_4.index t 1 * 128 + 128
    rw [(idx_out t).2]
    omega

private theorem cover (i : S8192x128.Idx) :
    ∃ t : Fin cfg1.N, (cfg1.win 4).flush t = true ∧ i ∈ ((cfg1.win 4).blk t).view.set := by
  have hN := hN1
  have h0 : (i 0).val < 8192 := (i 0).isLt
  exact ⟨⟨16 * ((i 0).val / 512) + 15, by omega⟩,
    (flush1_4 _).mpr (by show (16 * ((i 0).val / 512) + 15) % 16 = 15; omega),
    mem_blk_out i _ (by show (16 * ((i 0).val / 512) + 15) / 16 = (i 0).val / 512; omega)⟩

/-- The first layer's output array when region 1 ends: adj · (feature · W₁) + b₁ of the arrays at entry. -/
theorem final1 (c : Dev nD) :
    (dat1 (F := Ideal) V c).arrAt 4 cfg1.N = arr2 (gcS (V c main_v0_0) (V c main_arg0) (V c main_arg8) (V c main_arg9)) :=
  (dat1 (F := Ideal) V c).arrAt_eq_of_cover 4 (gc1 V c) (flushed_eq V c) cover

end Cert.KernelIdeal.Hand

end
-- ==== Proof.Value2.lean ====
/-
  Region 2 at the ideal instance: what its output arrays hold when the region ends, as functions of the arrays it
  was entered with.
-/
import proofs.«160379_j10187662426197_1_alg».proof.Proof.Dat2
import proofs.«160379_j10187662426197_1_alg».proof.Proof.Spec
import proofs.«160379_j10187662426197_1_alg».proof.Proof.LibRowDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Spec Idealize.ShloMosaic.ValueIdx
open scoped BigOperators

/-! ## The three payloads read at an index -/

/-- The cleared accumulator is zero at every index. -/
theorem k2pay1_apply (p : Fin 512) (q : Fin 128) : k2_pay1 (F := Ideal) (ix2 p q) = 0 := by
  unfold k2_pay1
  exact (congrFun (shapeCast_self _ _) (ix2 p q)).trans Ideal.ofBits_zero_f32

/-- One accumulation step at (p, q): the previous value plus row p of the adjacency block against column q of the
    product of the U₁ block and the weights; both contractions are plain row-by-column sums. -/
theorem k2pay2_apply (u : Vec Ideal S512x128 .f32) (w : Vec Ideal S128x128 .f32) (a : Vec Ideal S512x512 .f32)
    (prev : Vec Ideal S512x128 .f32) (p : Fin 512) (q : Fin 128) :
    k2_pay2 u w a prev (ix2 p q)
      = prev (ix2 p q) + ∑ s : Fin 512, a (ix2 p s) * ∑ f : Fin 128, u (ix2 s f) * w (ix2 f q) := by
  unfold k2_pay2
  refine (congrFun (shapeCast_self _ _) (ix2 p q)).trans ?_
  refine (addf_apply _ _ _).trans ?_
  refine congrArg (prev (ix2 p q) + ·) ?_
  refine (Ideal.matmul_constant_zero_apply dot_S512x512_S512x128_S512x128_1_0_0_1_n_n none _ _ (ix2 p q)).trans ?_
  refine (Cert.LibRowDot.sum_contr_eq_rowDot (n := 512) (d := 512) (h := 128)
    dot_S512x512_S512x128_S512x128_1_0_0_1_n_n rfl rfl rfl rfl rfl rfl _ _ (ix2 p q)).trans ?_
  unfold Cert.LibRowDot.rowDot
  refine Finset.sum_congr rfl fun s _ => ?_
  refine congrArg₂ (· * ·) (congrFun (shapeCast_self a _) (ix2 p s)) ?_
  refine (Ideal.matmul_constant_zero_apply dot_S512x128_S128x128_S512x128_1_0_0_1_n_n none _ _ (ix2 s q)).trans ?_
  refine (Cert.LibRowDot.sum_contr_eq_rowDot (n := 512) (d := 128) (h := 128)
    dot_S512x128_S128x128_S512x128_1_0_0_1_n_n rfl rfl rfl rfl rfl rfl _ _ (ix2 s q)).trans ?_
  unfold Cert.LibRowDot.rowDot
  refine Finset.sum_congr rfl fun f _ => ?_
  exact congrArg (· * w (ix2 f q)) (congrFun (shapeCast_self u _) (ix2 s f))

/-- The readout at (p, q): (U₁ + (accumulator + bias along the row)) · ½. -/
theorem k2pay3_apply (acc : Vec Ideal S512x128 .f32) (b : Vec Ideal S128 .f32) (u : Vec Ideal S512x128 .f32)
    (p : Fin 512) (q : Fin 128) :
    k2_pay3 acc b u (ix2 p q) = (u (ix2 p q) + (acc (ix2 p q) + b (ix1 q))) * half := by
  unfold k2_pay3
  refine (mulf_apply _ _ _).trans ?_
  refine congrArg₂ (· * ·) ?_ rfl
  refine (addf_apply _ _ _).trans ?_
  refine congrArg₂ (· + ·) (congrFun (shapeCast_self u _) (ix2 p q)) ?_
  refine (addf_apply _ _ _).trans ?_
  refine congrArg (acc (ix2 p q) + ·) ?_
  refine (broadcastTo_apply _ _ (ix2 p q) (ix2 (0 : Fin 1) q) ?_).trans ?_
  · intro a
    match a with
    | ⟨0, _⟩ => rfl
    | ⟨1, _⟩ => rfl
  · refine (shapeCast_addUnit_apply (n := 1) ![128] b _ (ix2 (0 : Fin 1) q)).trans ?_
    exact congrArg b (funext fun a => by match a with | ⟨0, _⟩ => rfl)

variable (V : (c : Dev nD) → (b : Ref sig .tc) → Buf (Elt Ideal) ((c : Thread nD τ).loc b))

/-! ## Where each window's block sits in its array -/

theorem idx2_0 : ∀ t : Fin cfg2.N, win2_0.index t (0 : Fin 2) = t.val / 16 ∧ win2_0.index t (1 : Fin 2) = t.val % 16 :=
  (by decide +kernel : ∀ t : Fin grid2.N, win2_0.index t (0 : Fin 2) = t.val / 16 ∧ win2_0.index t (1 : Fin 2) = t.val % 16)
theorem idx2_1 : ∀ t : Fin cfg2.N, win2_1.index t (0 : Fin 2) = t.val % 16 ∧ win2_1.index t (1 : Fin 2) = 0 :=
  (by decide +kernel : ∀ t : Fin grid2.N, win2_1.index t (0 : Fin 2) = t.val % 16 ∧ win2_1.index t (1 : Fin 2) = 0)
theorem idx2_2 : ∀ t : Fin cfg2.N, win2_2.index t (0 : Fin 2) = t.val / 16 ∧ win2_2.index t (1 : Fin 2) = 0 :=
  (by decide +kernel : ∀ t : Fin grid2.N, win2_2.index t (0 : Fin 2) = t.val / 16 ∧ win2_2.index t (1 : Fin 2) = 0)
theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx2_4 : ∀ t : Fin cfg2.N, win2_4.index t (0 : Fin 1) = 0 :=
  (by decide +kernel : ∀ t : Fin grid2.N, win2_4.index t (0 : Fin 1) = 0)
theorem idx2_5 : ∀ t : Fin cfg2.N, win2_5.index t (0 : Fin 2) = t.val / 16 ∧ win2_5.index t (1 : Fin 2) = 0 :=
  (by decide +kernel : ∀ t : Fin grid2.N, win2_5.index t (0 : Fin 2) = t.val / 16 ∧ win2_5.index t (1 : Fin 2) = 0)

/-! ## Each input block is its array at the shifted index -/

/-- The adjacency block at point t: rows 512·(t / 16) + p, columns 512·(t % 16) + s. -/
theorem adj_blk (c : Dev nD) (t : Fin cfg2.N) (p s : Fin 512) (r j : Fin 8192)
    (hr : r.val = 512 * (t.val / 16) + p.val) (hj : j.val = 512 * (t.val % 16) + s.val) :
    (iblk2 V c 0 t : Vec Ideal S512x512 .f32) (ix2 p s) = (V c main_v0_0 : Arr 8192 8192) (ix2 r j) := by
  unfold iblk2
  rw [View.read_apply]
  show V c main_v0_0 _ = V c main_v0_0 _
  congr 1
  funext a
  apply Fin.ext
  match a with
  | ⟨0, _⟩ => show win2_0.index t 0 * 512 + 1 * p.val = r.val; rw [(idx2_0 t).1, hr]; omega
  | ⟨1, _⟩ => show win2_0.index t 1 * 512 + 1 * s.val = j.val; rw [(idx2_0 t).2, hj]; omega

/-- The U₁ block of the contraction: rows 512·(t % 16) + s. -/
theorem u1k_blk (c : Dev nD) (t : Fin cfg2.N) (s : Fin 512) (f : Fin 128) (j : Fin 8192)
    (hj : j.val = 512 * (t.val % 16) + s.val) :
    (iblk2 V c 1 t : Vec Ideal S512x128 .f32) (ix2 s f) = (V c main_v1 : Arr 8192 128) (ix2 j f) := by
  unfold iblk2
  rw [View.read_apply]
  show V c main_v1 _ = V c main_v1 _
  congr 1
  funext a
  apply Fin.ext
  match a with
  | ⟨0, _⟩ => show win2_1.index t 0 * 512 + 1 * s.val = j.val; rw [(idx2_1 t).1, hj]; omega
  | ⟨1, _⟩ => show win2_1.index t 1 * 128 + 1 * f.val = f.val; rw [(idx2_1 t).2]; omega

/-- The U₁ block of the output rows: rows 512·(t / 16) + p. -/
theorem u1i_blk (c : Dev nD) (t : Fin cfg2.N) (p : Fin 512) (q : Fin 128) (r : Fin 8192)
    (hr : r.val = 512 * (t.val / 16) + p.val) :
    (iblk2 V c 2 t : Vec Ideal S512x128 .f32) (ix2 p q) = (V c main_v1 : Arr 8192 128) (ix2 r q) := by
  unfold iblk2
  rw [View.read_apply]
  show V c main_v1 _ = V c main_v1 _
  congr 1
  funext a
  apply Fin.ext
  match a with
  | ⟨0, _⟩ => show win2_2.index t 0 * 512 + 1 * p.val = r.val; rw [(idx2_2 t).1, hr]; omega
  | ⟨1, _⟩ => show win2_2.index t 1 * 128 + 1 * q.val = q.val; rw [(idx2_2 t).2]; omega

/-- The weights' block is the whole array. -/
theorem w2_blk (c : Dev nD) (t : Fin cfg2.N) (f q : Fin 128) :
    (iblk2 V c 3 t : Vec Ideal S128x128 .f32) (ix2 f q) = (V c main_arg10 : Arr 128 128) (ix2 f q) := by
  unfold iblk2
  rw [View.read_apply]
  show V c main_arg10 _ = V c main_arg10 _
  congr 1
  funext a
  apply Fin.ext
  match a with
  | ⟨0, _⟩ => show win2_3.index t 0 * 128 + 1 * f.val = f.val; rw [(idx2_3 t).1]; omega
  | ⟨1, _⟩ => show win2_3.index t 1 * 128 + 1 * q.val = q.val; rw [(idx2_3 t).2]; omega

/-- The bias's block is the whole array. -/
theorem b2_blk (c : Dev nD) (t : Fin cfg2.N) (q : Fin 128) :
    (iblk2 V c 4 t : Vec Ideal S128 .f32) (ix1 q) = (V c main_arg11 : Arr1 128) (ix1 q) := by
  unfold iblk2
  rw [View.read_apply]
  show V c main_arg11 _ = V c main_arg11 _
  congr 1
  funext a
  apply Fin.ext
  match a with
  | ⟨0, _⟩ => show win2_4.index t 0 * 128 + 1 * q.val = q.val; rw [idx2_4 t]; omega

/-! ## The accumulator over a grid row is the whole contraction -/

/-- Column j's share of entry (r, n) of adj · (x · W). -/
def term2 (adj : Arr 8192 8192) (x : Arr 8192 128) (W : Arr 128 128) (r : Fin 8192) (n : Fin 128) (j : Fin 8192) : EReal :=
  adj (ix2 r j) * ∑ f : Fin 128, x (ix2 j f) * W (ix2 f n)

/-- The same over the arrays region 2 is entered with. -/
def colTerm (c : Dev nD) (r : Fin 8192) (n : Fin 128) (j : Fin 8192) : EReal :=
  term2 (V c main_v0_0) (V c main_v1) (V c main_arg10) r n j

/-- One accumulation step at point t, over the entry arrays: block t % 16 of the contraction is added. -/
theorem pay2_at (c : Dev nD) (t : Fin cfg2.N) (prev : Vec Ideal S512x128 .f32) (p : Fin 512) (q : Fin 128)
    (r : Fin 8192) (hr : r.val = 512 * (t.val / 16) + p.val) (b : Fin 16) (hb : b.val = t.val % 16) :
    k2_pay2 (iblk2 V c 1 t) (iblk2 V c 3 t) (iblk2 V c 0 t) prev (ix2 p q)
      = prev (ix2 p q) + ∑ s : Fin 512, colTerm V c r q (blkIx b s) := by
  refine (k2pay2_apply (iblk2 V c 1 t) (iblk2 V c 3 t) (iblk2 V c 0 t) prev p q).trans ?_
  refine congrArg (prev (ix2 p q) + ·) (Finset.sum_congr rfl fun s _ => ?_)
  have hj : (blkIx b s).val = 512 * (t.val % 16) + s.val := by show 512 * b.val + s.val = _; rw [hb]
  unfold colTerm term2
  refine congrArg₂ (· * ·) (adj_blk V c t p s r (blkIx b s) hr hj) ?_
  refine Finset.sum_congr rfl fun f _ => ?_
  exact congrArg₂ (· * ·) (u1k_blk V c t s f (blkIx b s) hj) (w2_blk V c t f q)

/-- At the first point of a grid row the accumulator restarts from the cleared payload. -/
theorem acc2_reset (c : Dev nD) : ∀ (n : ℕ) (h : n < cfg2.N), n % 16 = 0 →
    acc2 V c n h = k2_pay2 (iblk2 V c 1 ⟨n, h⟩) (iblk2 V c 3 ⟨n, h⟩) (iblk2 V c 0 ⟨n, h⟩) (k2_pay1 (F := Ideal))
  | 0, h, _ => by rw [acc2]
  | n + 1, h, hm => by rw [acc2, if_pos hm]

/-- At every other point it steps from what the point before left. -/
theorem acc2_step (c : Dev nD) (n : ℕ) (h : n + 1 < cfg2.N) (hm : ¬(n + 1) % 16 = 0) :
    acc2 V c (n + 1) h = k2_pay2 (iblk2 V c 1 ⟨n + 1, h⟩) (iblk2 V c 3 ⟨n + 1, h⟩) (iblk2 V c 0 ⟨n + 1, h⟩)
      (acc2 V c n (Nat.lt_of_succ_lt h)) := by
  rw [acc2, if_neg hm]

/-- Block k's share of entry (r, n): the sum of term2 inside the block (zero past the sixteen blocks). -/
def dsum (c : Dev nD) (r : Fin 8192) (n : Fin 128) (k : ℕ) : EReal :=
  if hk : k < 16 then ∑ s : Fin 512, colTerm V c r n (blkIx ⟨k, hk⟩ s) else 0

theorem dsum_of_lt (c : Dev nD) (r : Fin 8192) (n : Fin 128) (k : ℕ) (hk : k < 16) :
    dsum V c r n k = ∑ s : Fin 512, colTerm V c r n (blkIx ⟨k, hk⟩ s) := dif_pos hk

/-- After point 16·i + j the accumulator at (p, q) holds blocks 0 … j of row 512·i + p's contraction:
    by induction on j along the grid row. -/
theorem acc2_fold (c : Dev nD) (i : ℕ) (p : Fin 512) (q : Fin 128) (r : Fin 8192) (hr : r.val = 512 * i + p.val) :
    ∀ (j : ℕ) (hj : j < 16) (h : 16 * i + j < cfg2.N),
      acc2 V c (16 * i + j) h (ix2 p q) = ∑ k ∈ Finset.range (j + 1), dsum V c r q k
  | 0, hj, h => by
    rw [acc2_reset V c (16 * i + 0) h (by omega)]
    refine (pay2_at V c ⟨16 * i + 0, h⟩ (k2_pay1 (F := Ideal)) p q r
      (by show r.val = 512 * ((16 * i + 0) / 16) + p.val; omega) ⟨0, hj⟩
      (by show 0 = (16 * i + 0) % 16; omega)).trans ?_
    rw [k2pay1_apply, zero_add, Finset.sum_range_one, dsum_of_lt V c r q 0 hj]
  | j + 1, hj, h => by
    have hne : ¬(16 * i + j + 1) % 16 = 0 := by omega
    show acc2 V c (16 * i + j + 1) h (ix2 p q) = _
    rw [acc2_step V c (16 * i + j) h hne]
    refine (pay2_at V c ⟨16 * i + j + 1, h⟩ (acc2 V c (16 * i + j) (Nat.lt_of_succ_lt h)) p q r
      (by show r.val = 512 * ((16 * i + j + 1) / 16) + p.val; omega) ⟨j + 1, hj⟩
      (by show j + 1 = (16 * i + j + 1) % 16; omega)).trans ?_
    rw [acc2_fold c i p q r hr j (Nat.lt_of_succ_lt hj) (Nat.lt_of_succ_lt h), Finset.sum_range_succ _ (j + 1),
      dsum_of_lt V c r q (j + 1) hj]

/-- At the last point of a grid row the accumulator holds the whole contraction over the 8192 columns. -/
theorem acc2_flush (c : Dev nD) (t : Fin cfg2.N) (h15 : t.val % 16 = 15) (p : Fin 512) (q : Fin 128) (r : Fin 8192)
    (hr : r.val = 512 * (t.val / 16) + p.val) :
    acc2 V c t.val t.isLt (ix2 p q) = ∑ j : Fin 8192, colTerm V c r q j := by
  have e : 16 * (t.val / 16) + 15 = t.val := by omega
  have h' : 16 * (t.val / 16) + 15 < cfg2.N := by rw [e]; exact t.isLt
  have same : ∀ (u : ℕ) (hu : u < cfg2.N), u = t.val → acc2 V c u hu = acc2 V c t.val t.isLt :=
    fun u hu e => by subst e; rfl
  rw [← same _ h' e, acc2_fold V c (t.val / 16) p q r hr 15 (by decide) h', Finset.sum_range]
  refine Eq.trans (Finset.sum_congr rfl fun b _ => ?_) (sum_blocks (colTerm V c r q))
  exact dsum_of_lt V c r q b.val b.isLt

/-! ## The block written back, and the whole array -/

/-- What the last point of a grid row stores at (p, q) is the readout of row 512·(t / 16) + p. -/
theorem after5_at (c : Dev nD) (t : Fin cfg2.N) (h15 : t.val % 16 = 15) (p : Fin 512) (q : Fin 128) (r : Fin 8192)
    (hr : r.val = 512 * (t.val / 16) + p.val) :
    k2_pay3 (acc2 V c t.val t.isLt) (iblk2 V c 4 t) (iblk2 V c 2 t) (ix2 p q)
      = outS (V c main_v1) (arr2 (gcS (V c main_v0_0) (V c main_v1) (V c main_arg10) (V c main_arg11))) r q := by
  refine (k2pay3_apply (acc2 V c t.val t.isLt) (iblk2 V c 4 t) (iblk2 V c 2 t) p q).trans ?_
  unfold outS
  refine congrArg (· * half) ?_
  refine congrArg₂ (· + ·) (u1i_blk V c t p q r hr) ?_
  rw [arr2_ix2]
  unfold gcS
  exact congrArg₂ (· + ·) (acc2_flush V c t h15 p q r hr) (b2_blk V c t q)

/-- The array region 2 ends with. -/
abbrev G2 (c : Dev nD) : Arr 8192 128 :=
  arr2 (outS (V c main_v1) (arr2 (gcS (V c main_v0_0) (V c main_v1) (V c main_arg10) (V c main_arg11))))

/-- Each write-back writes that array's block. -/
theorem flushed2_eq (c : Dev nD) (t : Fin cfg2.N) (hf : (cfg2.win 5).flush t = true) :
    (dat2 V c).flushed 5 t = ((cfg2.win 5).blk t).view.read (Elt Ideal) (G2 V c) := by
  have h15 := (flush2_5 t).mp hf
  have hN : cfg2.N = 256 := N_2
  have hlt := t.isLt
  show (cfg2.win 5).cut (grid2.coords t) ((dat2 V c).after 5 t) = _
  rw [after2_5]
  funext y
  obtain ⟨p, q, rfl⟩ : ∃ (p : Fin 512) (q : Fin 128), y = ix2 p q := ⟨y 0, y 1, eq_ix2 y⟩
  rw [View.read_apply]
  have e : ((cfg2.win 5).blk t).view.emb (ix2 p q) = ix2 (⟨512 * (t.val / 16) + p.val, by omega⟩ : Fin 8192) q := by
    funext a
    apply Fin.ext
    match a with
    | ⟨0, _⟩ => show win2_5.index t 0 * 512 + 1 * p.val = 512 * (t.val / 16) + p.val; rw [(idx2_5 t).1]; omega
    | ⟨1, _⟩ => show win2_5.index t 1 * 128 + 1 * q.val = q.val; rw [(idx2_5 t).2]; omega
  rw [e]
  exact after5_at V c t h15 p q _ rfl

/-- Row r lies in the block written back at the last point of grid row r / 512. -/
theorem cover2 (c : Dev nD) (i : ((cfg2.win 5).arr.view.loc (c.tc : Thread nD τ)).2.ty.Idx) :
    ∃ t : Fin cfg2.N, (cfg2.win 5).flush t = true ∧ i ∈ ((cfg2.win 5).blk t).view.set := by
  have hN : cfg2.N = 256 := N_2
  have h0 : (i 0 : Nat) < 8192 := (i 0).isLt
  have h1 : (i 1 : Nat) < 128 := (i 1).isLt
  obtain ⟨t, ht⟩ : ∃ t : Fin cfg2.N, t.val = 16 * ((i 0 : Nat) / 512) + 15 := ⟨⟨_, by omega⟩, rfl⟩
  refine ⟨t, (flush2_5 t).mpr (by omega), ?_⟩
  show i ∈ ((View.whole main_v2).slice (win2_5.rect t)).set
  rw [View.set_slice_whole, Rect.mem_set_unit]
  intro a
  match a with
  | ⟨0, _⟩ =>
    show win2_5.index t 0 * win2_5.size 0 ≤ (i 0 : Nat)
      ∧ (i 0 : Nat) < win2_5.index t 0 * win2_5.size 0 + win2_5.xsize (grid2.coords t) 0
    rw [(idx2_5 t).1]
    show t.val / 16 * 512 ≤ (i 0 : Nat) ∧ (i 0 : Nat) < t.val / 16 * 512 + 512
    omega
  | ⟨1, _⟩ =>
    show win2_5.index t 1 * win2_5.size 1 ≤ (i 1 : Nat)
      ∧ (i 1 : Nat) < win2_5.index t 1 * win2_5.size 1 + win2_5.xsize (grid2.coords t) 1
    rw [(idx2_5 t).2]
    show 0 * 128 ≤ (i 1 : Nat) ∧ (i 1 : Nat) < 0 * 128 + 128
    omega

/-- The output array when region 2 ends: the mean of U₁ and adj · (U₁ · W₂) + b₂, of the arrays at entry. -/
theorem final2 (c : Dev nD) :
    (dat2 (F := Ideal) V c).arrAt 5 cfg2.N
      = arr2 (outS (V c main_v1) (arr2 (gcS (V c main_v0_0) (V c main_v1) (V c main_arg10) (V c main_arg11)))) :=
  (dat2 V c).arrAt_eq_of_cover 5 (G2 V c) (flushed2_eq V c) (cover2 c)

end Cert.KernelIdeal.Hand

end
-- ==== Proof.Spec2.lean ====
/-
  The results as whole arrays of the argument arrays: the specification's functions composed as the program
  composes its stages.
-/
import proofs.«160379_j10187662426197_1_alg».proof.Proof.Spec

noncomputable section

namespace Cert.Spec

open Idealize.ShloMosaic Idealize.ShloMosaic.ValueIdx

/-- The symmetrized adjacency as an array. -/
def adjA (A1 A2 A3 : Arr 8192 8192) (wb : Arr 3 1) : Arr 8192 8192 := arr2 (adjS A1 A2 A3 wb)

/-- A token-feature result as an array. -/
def tokA (A : Arr 8192 8192) (tok : Arr 8192 10) : Arr 8192 10 := arr2 (tokFeat A tok)

/-- The first layer's embedding U₁ as an array. -/
def u1A (A1 A2 A3 : Arr 8192 8192) (wb : Arr 3 1) (feat : Arr 8192 256) (W1 : Arr 256 128) (b1 : Arr1 128) : Arr 8192 128 :=
  arr2 (gcS (adjA A1 A2 A3 wb) feat W1 b1)

/-- The readout as an array: the mean of U₁ and U₂ = adj · (U₁ · W₂) + b₂. -/
def outA (A1 A2 A3 : Arr 8192 8192) (wb : Arr 3 1) (feat : Arr 8192 256) (W1 : Arr 256 128) (b1 : Arr1 128)
    (W2 : Arr 128 128) (b2 : Arr1 128) : Arr 8192 128 :=
  arr2 (outS (u1A A1 A2 A3 wb feat W1 b1) (arr2 (gcS (adjA A1 A2 A3 wb) (u1A A1 A2 A3 wb feat W1 b1) W2 b2)))

end Cert.Spec

end
-- ==== Proof.Chain.lean ====
/-
  The kernel program at the ideal instance: the contents of its result arrays at the last boundary, as the
  specification's arrays of the launch contents — each region's output is the specification's function of the
  arrays the region was entered with, and those are read back through the boundaries to the launch.
-/
import proofs.«160379_j10187662426197_1_alg».proof.Proof.Bounds
import proofs.«160379_j10187662426197_1_alg».proof.Proof.Value0
import proofs.«160379_j10187662426197_1_alg».proof.Proof.Value1
import proofs.«160379_j10187662426197_1_alg».proof.Proof.Value2
import proofs.«160379_j10187662426197_1_alg».proof.Proof.Spec2

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Spec

variable (m : (ℓ : Loc nD τ sig) → Buf (Elt Ideal) ℓ) (c : Dev nD)

/-- The adjacency array region 0 leaves. -/
theorem adj_eq : V1 m c main_v0_0 = adjA (V0 m c main_arg1) (V0 m c main_arg2) (V0 m c main_arg3) (V0 m c main_arg7) := by
  rw [V1_v0_0, final0_adj]; rfl

/-- The first layer's embedding region 1 leaves. -/
theorem u1_eq : V2 m c main_v1
    = u1A (V0 m c main_arg1) (V0 m c main_arg2) (V0 m c main_arg3) (V0 m c main_arg7) (V0 m c main_arg0) (V0 m c main_arg8) (V0 m c main_arg9) := by
  rw [V2_v1, final1, adj_eq, V1_of m c main_arg0 (by decide) (by decide) (by decide) (by decide),
    V1_of m c main_arg8 (by decide) (by decide) (by decide) (by decide), V1_of m c main_arg9 (by decide) (by decide) (by decide) (by decide)]
  rfl

/-- The readout, the program's first result, at the last boundary. -/
theorem out_eq : V3 m c main_v2
    = outA (V0 m c main_arg1) (V0 m c main_arg2) (V0 m c main_arg3) (V0 m c main_arg7) (V0 m c main_arg0) (V0 m c main_arg8) (V0 m c main_arg9)
        (V0 m c main_arg10) (V0 m c main_arg11) := by
  rw [V3_v2, final2, u1_eq, V2_of m c main_v0_0 (by decide), adj_eq,
    V2_of m c main_arg10 (by decide), V1_of m c main_arg10 (by decide) (by decide) (by decide) (by decide),
    V2_of m c main_arg11 (by decide), V1_of m c main_arg11 (by decide) (by decide) (by decide) (by decide)]
  rfl

/-- The three token-feature results at the last boundary. -/
theorem f1_eq : V3 m c main_v0_1 = tokA (V0 m c main_arg1) (V0 m c main_arg4) := by
  rw [V3_of m c main_v0_1 (by decide), V2_of m c main_v0_1 (by decide), V1_v0_1, final0_f1]; rfl
theorem f2_eq : V3 m c main_v0_2 = tokA (V0 m c main_arg2) (V0 m c main_arg5) := by
  rw [V3_of m c main_v0_2 (by decide), V2_of m c main_v0_2 (by decide), V1_v0_2, final0_f2]; rfl
theorem f3_eq : V3 m c main_v0_3 = tokA (V0 m c main_arg3) (V0 m c main_arg6) := by
  rw [V3_of m c main_v0_3 (by decide), V2_of m c main_v0_3 (by decide), V1_v0_3, final0_f3]; rfl

end Cert.KernelIdeal.Hand

end
-- ==== Proof.Ref.lean ====
/-
  The reference at the ideal instance: each of its four results is the specification's array of the arguments.
-/
import proofs.«160379_j10187662426197_1_alg».proof.Defs
import proofs.«160379_j10187662426197_1_alg».proof.Proof.Gen.ReferenceIdeal.Run
import proofs.«160379_j10187662426197_1_alg».proof.Proof.Gen.ReferenceIdeal.Read
import proofs.«160379_j10187662426197_1_alg».proof.Proof.Spec2
import proofs.«160379_j10187662426197_1_alg».proof.Proof.LibRowDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Value Cert.Spec

open Cert.ReferenceIdeal.Read

/-! ## The three merge weights -/

/-- The scalar cut from position 0 of the flattened weight column is the weight at row 0. -/
private theorem word0 (wb : FVec Ideal S3x1 .f32) (j : S_.Idx) : val_main_v5 (F := Ideal) wb j = wb (ix2 0 0) := by
  unfold val_main_v5
  rw [shapeCast_apply (val_main_v4 (F := Ideal) wb) shapeCasts_S1_S_ j (ix1 0)
    (by rw [Shape.rowMajor_val_one]; exact (Shape.rowMajorPi_zero _ _).symm), val_main_v4_apply, val_main_v3_apply]
  exact congrArg wb (funext fun a => Fin.ext (by match a with | ⟨0, _⟩ => rfl | ⟨1, _⟩ => rfl))

/-- The scalar cut from position 1 of the flattened weight column is the weight at row 1. -/
private theorem word1 (wb : FVec Ideal S3x1 .f32) (j : S_.Idx) : val_main_v9 (F := Ideal) wb j = wb (ix2 1 0) := by
  unfold val_main_v9
  rw [shapeCast_apply (val_main_v8 (F := Ideal) wb) shapeCasts_S1_S_ j (ix1 0)
    (by rw [Shape.rowMajor_val_one]; exact (Shape.rowMajorPi_zero _ _).symm), val_main_v8_apply, val_main_v3_apply]
  exact congrArg wb (funext fun a => Fin.ext (by match a with | ⟨0, _⟩ => rfl | ⟨1, _⟩ => rfl))

/-- The scalar cut from position 2 of the flattened weight column is the weight at row 2. -/
private theorem word2 (wb : FVec Ideal S3x1 .f32) (j : S_.Idx) : val_main_v14 (F := Ideal) wb j = wb (ix2 2 0) := by
  unfold val_main_v14
  rw [shapeCast_apply (val_main_v13 (F := Ideal) wb) shapeCasts_S1_S_ j (ix1 0)
    (by rw [Shape.rowMajor_val_one]; exact (Shape.rowMajorPi_zero _ _).symm), val_main_v13_apply, val_main_v3_apply]
  exact congrArg wb (funext fun a => Fin.ext (by match a with | ⟨0, _⟩ => rfl | ⟨1, _⟩ => rfl))

/-! ## The merged matrix and the symmetrized adjacency -/

/-- The weighted sum of the three relation matrices, entry by entry. -/
private theorem temp_apply (A1 A2 A3 : FVec Ideal S8192x8192 .f32) (wb : FVec Ideal S3x1 .f32) (r s : Fin 8192) :
    val_main_v17 (F := Ideal) A1 A2 A3 wb (ix2 r s) = merged A1 A2 A3 wb r s := by
  rw [val_main_v17_apply, val_main_v12_apply, val_main_v7_apply, val_main_v11_apply, val_main_v16_apply,
    val_main_v6_apply, val_main_v10_apply, val_main_v15_apply, word0, word1, word2]
  rfl

/-- The merged matrix plus its transpose is the symmetrized adjacency. -/
private theorem adj_eq (A1 A2 A3 : FVec Ideal S8192x8192 .f32) (wb : FVec Ideal S3x1 .f32) :
    val_main_v19 (F := Ideal) A1 A2 A3 wb = adjA A1 A2 A3 wb := by
  funext i
  obtain ⟨r, s, rfl⟩ : ∃ (r : Fin 8192) (s : Fin 8192), i = ix2 r s := ⟨i 0, i 1, eq_ix2 i⟩
  have et : idx_main_v18 (ix2 r s) = ix2 s r :=
    funext fun a => Fin.ext (by match a with | ⟨0, _⟩ => rfl | ⟨1, _⟩ => rfl)
  rw [val_main_v19_apply, val_main_v18_apply, et, temp_apply, temp_apply]
  rfl

/-! ## One graph-convolution layer -/

/-- A bias row stretched over all rows reads, at (r, n), the bias at n. -/
private theorem bias_apply (b : FVec Ideal S128 .f32) (r : Fin 8192) (n : Fin 128) :
    broadcastInDim S8192x128 ![0, 1] bcast_S1x128_S8192x128_0_1 (broadcastInDim S1x128 ![1] bcast_S128_S1x128_1 b) (ix2 r n)
      = b (ix1 n) := by
  rw [broadcastInDim_apply _ bcast_S1x128_S8192x128_0_1 _ (ix2 r n) (ix2 0 n)
      (fun a => by match a with | ⟨0, _⟩ => rfl | ⟨1, _⟩ => rfl),
    broadcastInDim_apply _ bcast_S128_S1x128_1 b (ix2 0 n) (ix1 n) (fun a => by match a with | ⟨0, _⟩ => rfl)]

/-- The layer on 256 input features: adj · (x · W) + b at (r, n). -/
private theorem gc256 (adj : FVec Ideal S8192x8192 .f32) (x : FVec Ideal S8192x256 .f32) (W : FVec Ideal S256x128 .f32)
    (b : FVec Ideal S128 .f32) (r : Fin 8192) (n : Fin 128) :
    addf (Host.dotGeneral (F := Ideal) dot_S8192x8192_S8192x128_S8192x128_1_0_0_1_n_n none adj
        (Host.dotGeneral (F := Ideal) dot_S8192x256_S256x128_S8192x128_1_0_0_1_n_n none x W))
      (broadcastInDim S8192x128 ![0, 1] bcast_S1x128_S8192x128_0_1 (broadcastInDim S1x128 ![1] bcast_S128_S1x128_1 b)) (ix2 r n)
      = gcS adj x W b r n := by
  rw [addf_apply, bias_apply]
  simp only [Host.dotGeneral]
  rw [Cert.LibRowDot.dotGeneral_apply dot_S8192x8192_S8192x128_S8192x128_1_0_0_1_n_n rfl rfl rfl rfl rfl rfl]
  unfold gcS Cert.LibRowDot.rowDot
  refine congrArg (· + b (ix1 n)) (Finset.sum_congr rfl fun k _ => ?_)
  rw [Cert.LibRowDot.dotGeneral_apply dot_S8192x256_S256x128_S8192x128_1_0_0_1_n_n rfl rfl rfl rfl rfl rfl]
  rfl

/-- The layer on 128 input features: adj · (x · W) + b at (r, n). -/
private theorem gc128 (adj : FVec Ideal S8192x8192 .f32) (x : FVec Ideal S8192x128 .f32) (W : FVec Ideal S128x128 .f32)
    (b : FVec Ideal S128 .f32) (r : Fin 8192) (n : Fin 128) :
    addf (Host.dotGeneral (F := Ideal) dot_S8192x8192_S8192x128_S8192x128_1_0_0_1_n_n none adj
        (Host.dotGeneral (F := Ideal) dot_S8192x128_S128x128_S8192x128_1_0_0_1_n_n none x W))
      (broadcastInDim S8192x128 ![0, 1] bcast_S1x128_S8192x128_0_1 (broadcastInDim S1x128 ![1] bcast_S128_S1x128_1 b)) (ix2 r n)
      = gcS adj x W b r n := by
  rw [addf_apply, bias_apply]
  simp only [Host.dotGeneral]
  rw [Cert.LibRowDot.dotGeneral_apply dot_S8192x8192_S8192x128_S8192x128_1_0_0_1_n_n rfl rfl rfl rfl rfl rfl]
  unfold gcS Cert.LibRowDot.rowDot
  refine congrArg (· + b (ix1 n)) (Finset.sum_congr rfl fun k _ => ?_)
  rw [Cert.LibRowDot.dotGeneral_apply dot_S8192x128_S128x128_S8192x128_1_0_0_1_n_n rfl rfl rfl rfl rfl rfl]
  rfl

/-- The first layer's embedding. -/
private theorem u1_eq (feat : FVec Ideal S8192x256 .f32) (A1 A2 A3 : FVec Ideal S8192x8192 .f32) (wb : FVec Ideal S3x1 .f32)
    (W1 : FVec Ideal S256x128 .f32) (b1 : FVec Ideal S128 .f32) :
    val_main_v24 (F := Ideal) feat A1 A2 A3 wb W1 b1 = u1A A1 A2 A3 wb feat W1 b1 := by
  funext i
  obtain ⟨r, n, rfl⟩ : ∃ (r : Fin 8192) (n : Fin 128), i = ix2 r n := ⟨i 0, i 1, eq_ix2 i⟩
  unfold val_main_v24 val_main_v23 val_main_v22 val_main_v21 val_main_v20
  rw [adj_eq, gc256]
  rfl

/-- The second layer's embedding. -/
private theorem u2_eq (feat : FVec Ideal S8192x256 .f32) (A1 A2 A3 : FVec Ideal S8192x8192 .f32) (wb : FVec Ideal S3x1 .f32)
    (W1 : FVec Ideal S256x128 .f32) (b1 : FVec Ideal S128 .f32) (W2 : FVec Ideal S128x128 .f32) (b2 : FVec Ideal S128 .f32) :
    val_main_v29 (F := Ideal) feat A1 A2 A3 wb W1 b1 W2 b2
      = arr2 (gcS (adjA A1 A2 A3 wb) (u1A A1 A2 A3 wb feat W1 b1) W2 b2) := by
  funext i
  obtain ⟨r, n, rfl⟩ : ∃ (r : Fin 8192) (n : Fin 128), i = ix2 r n := ⟨i 0, i 1, eq_ix2 i⟩
  unfold val_main_v29 val_main_v28 val_main_v27 val_main_v26 val_main_v25
  rw [adj_eq, u1_eq, gc128]
  rfl

/-- The readout: the mean of the two embeddings. -/
private theorem out_eq (feat : FVec Ideal S8192x256 .f32) (A1 A2 A3 : FVec Ideal S8192x8192 .f32) (wb : FVec Ideal S3x1 .f32)
    (W1 : FVec Ideal S256x128 .f32) (b1 : FVec Ideal S128 .f32) (W2 : FVec Ideal S128x128 .f32) (b2 : FVec Ideal S128 .f32) :
    val_main_v32 (F := Ideal) feat A1 A2 A3 wb W1 b1 W2 b2 = outA A1 A2 A3 wb feat W1 b1 W2 b2 := by
  funext i
  obtain ⟨r, n, rfl⟩ : ∃ (r : Fin 8192) (n : Fin 128), i = ix2 r n := ⟨i 0, i 1, eq_ix2 i⟩
  rw [val_main_v32_apply, val_main_v30_apply, val_main_v31_apply, val_main_cst_apply, u1_eq, u2_eq]
  simp only [Ideal.mulf_def, Ideal.addf_def, Ideal.ofBits_def]
  rfl

/-- A relation matrix times its token table, as the host computes it, is the specification's array. -/
theorem ref_tok (A : FVec Ideal S8192x8192 .f32) (tok : FVec Ideal S8192x10 .f32) :
    Host.dotGeneral (F := Ideal) dot_S8192x8192_S8192x10_S8192x10_1_0_0_1_n_n none A tok = tokA A tok := by
  funext i
  obtain ⟨r, n, rfl⟩ : ∃ (r : Fin 8192) (n : Fin 10), i = ix2 r n := ⟨i 0, i 1, eq_ix2 i⟩
  simp only [Host.dotGeneral]
  rw [Cert.LibRowDot.dotGeneral_apply dot_S8192x8192_S8192x10_S8192x10_1_0_0_1_n_n rfl rfl rfl rfl rfl rfl]
  rfl

/-- The reference's first result (the readout), as the composed term of its run, is the specification's array. -/
theorem ref_out (m : (ℓ : Loc nD τ sig) → Buf (Elt Ideal) ℓ) (c : Dev nD) :
    res_out0 (F := Ideal) m c
      = outA (m ((c.tc : Thread nD τ).loc main_arg1)) (m ((c.tc : Thread nD τ).loc main_arg2)) (m ((c.tc : Thread nD τ).loc main_arg3))
          (m ((c.tc : Thread nD τ).loc main_arg7)) (m ((c.tc : Thread nD τ).loc main_arg0)) (m ((c.tc : Thread nD τ).loc main_arg8))
          (m ((c.tc : Thread nD τ).loc main_arg9)) (m ((c.tc : Thread nD τ).loc main_arg10)) (m ((c.tc : Thread nD τ).loc main_arg11)) :=
  (val_main_v32_eq (F := Ideal) m c).trans (out_eq _ _ _ _ _ _ _ _ _)

end Cert.ReferenceIdeal.RefValue

end
-- ==== Proof.lean ====
/-
  The certificate: the kernel program (three pipelined regions: the merged adjacency with the three token
  features, then two graph-convolution layers with the readout) against the plain reference.

  Frames. The kernel program, at the word-level and at the ideal instance alike, runs as three kernel regions in a
  row; each region's body meets its obligation at every grid point, so every execution terminates without a fault,
  and no region writes an argument array. The reference's frame is its run with the results dropped.

  Values, at the ideal instance (a float is an extended real, a change of format the identity). Region 0 leaves
  adj = merged + mergedᵀ and A_r · token_r; region 1 leaves U₁ = adj · (feature · W₁) + b₁; region 2 leaves
  (U₁ + (adj · (U₁ · W₂) + b₂)) · ½. Each contraction over 8192 indices is accumulated by the kernel block by
  block (16 blocks of 512) from a zero accumulator; the reference contracts in one sum. The two agree because a
  finite sum over the extended reals may be regrouped freely — no finiteness of the inputs is used. The idealization
  rewrote no operation, so the sanctioned-idealization conjunct is trivial.
-/
import proofs.«160379_j10187662426197_1_alg».proof.Defs
import proofs.«160379_j10187662426197_1_alg».proof.Proof.Gen.Kernel
import proofs.«160379_j10187662426197_1_alg».proof.Proof.Gen.KernelIdeal
import proofs.«160379_j10187662426197_1_alg».proof.Proof.Gen.ReferenceIdeal
import proofs.«160379_j10187662426197_1_alg».proof.Proof.Gen.ReferenceIdeal.Run
import proofs.«160379_j10187662426197_1_alg».proof.Proof.Gen.Pre_finite_inputs
import proofs.«160379_j10187662426197_1_alg».proof.Proof.KFrame
import proofs.«160379_j10187662426197_1_alg».proof.Proof.Frame
import proofs.«160379_j10187662426197_1_alg».proof.Proof.Chain
import proofs.«160379_j10187662426197_1_alg».proof.Proof.Ref

noncomputable section

namespace Cert.Proof

open Idealize.ShloMosaic Idealize.SL.Sem Cert.Spec

/-- The word-level kernel program's frame. -/
theorem frame_k [Cert.Kernel.Facts] [Cert.Pre_finite_inputs.Facts] : Cert.frame_Kernel :=
  fun m ρ _ => Cert.Kernel.Hand.frame m ρ

/-- The idealized kernel program's frame. -/
theorem frame_ki [Cert.KernelIdeal.Facts] [Cert.Pre_finite_inputs.Facts] : Cert.frame_KernelIdeal :=
  fun m ρ _ => Cert.KernelIdeal.Hand.frame m ρ

/-- The reference's frame: its run, the results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2.2)
    (Cert.ReferenceIdeal.Value.run (F := Ideal) m ρ)

/-- At the ideal instance both programs end with the specification's arrays of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => outA (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg0)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => tokA (m ((c.tc : Thread Cert.KernelIdeal.nD Cert.KernelIdeal.τ).loc Cert.KernelIdeal.main_arg1)) (m ((c.tc : Thread Cert.KernelIdeal.nD Cert.KernelIdeal.τ).loc Cert.KernelIdeal.main_arg4)), fun c => tokA (m ((c.tc : Thread Cert.KernelIdeal.nD Cert.KernelIdeal.τ).loc Cert.KernelIdeal.main_arg2)) (m ((c.tc : Thread Cert.KernelIdeal.nD Cert.KernelIdeal.τ).loc Cert.KernelIdeal.main_arg5)), fun c => tokA (m ((c.tc : Thread Cert.KernelIdeal.nD Cert.KernelIdeal.τ).loc Cert.KernelIdeal.main_arg3)) (m ((c.tc : Thread Cert.KernelIdeal.nD Cert.KernelIdeal.τ).loc Cert.KernelIdeal.main_arg6)), ?_, ?_⟩
  · refine (θ_run (Cert.KernelIdeal.defs (F := Ideal)) _ _).mono (fun r h c => ?_) (Cert.KernelIdeal.Hand.run_all (F := Ideal) m ρ)
    exact ⟨(h c _ (Cert.KernelIdeal.Hand.mem_uc Cert.KernelIdeal.main_v2 (by decide))).trans (Cert.KernelIdeal.Hand.out_eq m c),
      (h c _ (Cert.KernelIdeal.Hand.mem_uc Cert.KernelIdeal.main_v0_1 (by decide))).trans (Cert.KernelIdeal.Hand.f1_eq m c),
      (h c _ (Cert.KernelIdeal.Hand.mem_uc Cert.KernelIdeal.main_v0_2 (by decide))).trans (Cert.KernelIdeal.Hand.f2_eq m c),
      (h c _ (Cert.KernelIdeal.Hand.mem_uc Cert.KernelIdeal.main_v0_3 (by decide))).trans (Cert.KernelIdeal.Hand.f3_eq m c),
      (h c _ (Cert.KernelIdeal.Hand.mem_uc Cert.KernelIdeal.main_arg0 (by decide))).trans (Cert.KernelIdeal.Hand.arg_eq m c Cert.KernelIdeal.main_arg0 (by decide) (by decide) (by decide) (by decide) (by decide) (by decide)),
      (h c _ (Cert.KernelIdeal.Hand.mem_uc Cert.KernelIdeal.main_arg1 (by decide))).trans (Cert.KernelIdeal.Hand.arg_eq m c Cert.KernelIdeal.main_arg1 (by decide) (by decide) (by decide) (by decide) (by decide) (by decide)),
      (h c _ (Cert.KernelIdeal.Hand.mem_uc Cert.KernelIdeal.main_arg2 (by decide))).trans (Cert.KernelIdeal.Hand.arg_eq m c Cert.KernelIdeal.main_arg2 (by decide) (by decide) (by decide) (by decide) (by decide) (by decide)),
      (h c _ (Cert.KernelIdeal.Hand.mem_uc Cert.KernelIdeal.main_arg3 (by decide))).trans (Cert.KernelIdeal.Hand.arg_eq m c Cert.KernelIdeal.main_arg3 (by decide) (by decide) (by decide) (by decide) (by decide) (by decide)),
      (h c _ (Cert.KernelIdeal.Hand.mem_uc Cert.KernelIdeal.main_arg4 (by decide))).trans (Cert.KernelIdeal.Hand.arg_eq m c Cert.KernelIdeal.main_arg4 (by decide) (by decide) (by decide) (by decide) (by decide) (by decide)),
      (h c _ (Cert.KernelIdeal.Hand.mem_uc Cert.KernelIdeal.main_arg5 (by decide))).trans (Cert.KernelIdeal.Hand.arg_eq m c Cert.KernelIdeal.main_arg5 (by decide) (by decide) (by decide) (by decide) (by decide) (by decide)),
      (h c _ (Cert.KernelIdeal.Hand.mem_uc Cert.KernelIdeal.main_arg6 (by decide))).trans (Cert.KernelIdeal.Hand.arg_eq m c Cert.KernelIdeal.main_arg6 (by decide) (by decide) (by decide) (by decide) (by decide) (by decide)),
      (h c _ (Cert.KernelIdeal.Hand.mem_uc Cert.KernelIdeal.main_arg7 (by decide))).trans (Cert.KernelIdeal.Hand.arg_eq m c Cert.KernelIdeal.main_arg7 (by decide) (by decide) (by decide) (by decide) (by decide) (by decide)),
      (h c _ (Cert.KernelIdeal.Hand.mem_uc Cert.KernelIdeal.main_arg8 (by decide))).trans (Cert.KernelIdeal.Hand.arg_eq m c Cert.KernelIdeal.main_arg8 (by decide) (by decide) (by decide) (by decide) (by decide) (by decide)),
      (h c _ (Cert.KernelIdeal.Hand.mem_uc Cert.KernelIdeal.main_arg9 (by decide))).trans (Cert.KernelIdeal.Hand.arg_eq m c Cert.KernelIdeal.main_arg9 (by decide) (by decide) (by decide) (by decide) (by decide) (by decide)),
      (h c _ (Cert.KernelIdeal.Hand.mem_uc Cert.KernelIdeal.main_arg10 (by decide))).trans (Cert.KernelIdeal.Hand.arg_eq m c Cert.KernelIdeal.main_arg10 (by decide) (by decide) (by decide) (by decide) (by decide) (by decide)),
      (h c _ (Cert.KernelIdeal.Hand.mem_uc Cert.KernelIdeal.main_arg11 (by decide))).trans (Cert.KernelIdeal.Hand.arg_eq m c Cert.KernelIdeal.main_arg11 (by decide) (by decide) (by decide) (by decide) (by decide) (by decide))⟩
  · refine (θ_run (Cert.ReferenceIdeal.defs (F := Ideal)) _ _).mono (fun r h c => ?_) (Cert.ReferenceIdeal.Value.run (F := Ideal) m' ρ')
    obtain ⟨a0, a1, a2, a3, a4, a5, a6, a7, a8, a9, a10, a11⟩ := hagree c
    refine ⟨(h c).1.trans ?_, (h c).2.1.trans ?_, (h c).2.2.1.trans ?_, (h c).2.2.2.1.trans ?_, (h c).2.2.2.2⟩
    · rw [show Cert.ReferenceIdeal.Value.res_main_v32 m' c = Cert.ReferenceIdeal.Value.res_out0 m' c from rfl,
        Cert.ReferenceIdeal.RefValue.ref_out m' c, a0, a1, a2, a3, a7, a8, a9, a10, a11]
    · rw [Cert.ReferenceIdeal.RefValue.ref_tok, a1, a4]
    · rw [Cert.ReferenceIdeal.RefValue.ref_tok, a2, a5]
    · rw [Cert.ReferenceIdeal.RefValue.ref_tok, a3, a6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
